-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x640000 32) (main_arg2 : IVec S100000 32) (main_arg3 : FVec F S4x128x128 .f32) (main_arg4 : FVec F S4x128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100000x1 : Shape := ⟨2, ![100000, 1]⟩
abbrev S1x128x128 : Shape := ⟨3, ![1, 128, 128]⟩
abbrev S2000x128 : Shape := ⟨2, ![2000, 128]⟩
abbrev S2000x1 : Shape := ⟨2, ![2000, 1]⟩
abbrev S740000x128 : Shape := ⟨2, ![740000, 128]⟩
abbrev S1x128 : Shape := ⟨2, ![1, 128]⟩
abbrev S2x512x128 : Shape := ⟨3, ![2, 512, 128]⟩
abbrev S1x512x128 : Shape := ⟨3, ![1, 512, 128]⟩
abbrev S512x128 : Shape := ⟨2, ![512, 128]⟩
abbrev S2000x512 : Shape := ⟨2, ![2000, 512]⟩
abbrev S1x1 : Shape := ⟨2, ![1, 1]⟩
abbrev S512x1 : Shape := ⟨2, ![512, 1]⟩

abbrev nBuf : Space → Nat
  | .hbm => 124
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S4x128x128, .f32⟩
  | .hbm, ⟨4, _⟩ => ⟨S4x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S100000, .i32⟩
  | .hbm, ⟨12, _⟩ => ⟨S1x640000, .i32⟩
  | .hbm, ⟨13, _⟩ => ⟨S640000, .i32⟩
  | .hbm, ⟨14, _⟩ => ⟨S740000, .i32⟩
  | .hbm, ⟨15, _⟩ => ⟨S1x640000, .i32⟩
  | .hbm, ⟨16, _⟩ => ⟨S640000, .i32⟩
  | .hbm, ⟨17, _⟩ => ⟨S740000, .i32⟩
  | .hbm, ⟨18, _⟩ => ⟨S_, .f32⟩
  | .hbm, ⟨19, _⟩ => ⟨S740000, .f32⟩
  | .hbm, ⟨20, _⟩ => ⟨S_, .f32⟩
  | .hbm, ⟨21, _⟩ => ⟨S100000, .f32⟩
  | .hbm, ⟨22, _⟩ => ⟨S740000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x128x128, .f32⟩
  | .hbm, ⟨34, _⟩ => ⟨S128x128, .f32⟩
  | .hbm, ⟨35, _⟩ => ⟨S100000x128, .bf16⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000x128, .bf16⟩
  | .hbm, ⟨45, _⟩ => ⟨S740000x128, .f32⟩
  | .hbm, ⟨46, _⟩ => ⟨S_, .f32⟩
  | .hbm, ⟨47, _⟩ => ⟨S100000x128, .f32⟩
  | .hbm, ⟨48, _⟩ => ⟨S740000x1, .i32⟩
  | .hbm, ⟨49, _⟩ => ⟨S100000x128, .f32⟩
  | .hbm, ⟨50, _⟩ => ⟨S1x128, .f32⟩
  | .hbm, ⟨51, _⟩ => ⟨S128, .f32⟩
  | .hbm, ⟨52, _⟩ => ⟨S1x128x128, .f32⟩
  | .hbm, ⟨53, _⟩ => ⟨S128x128, .f32⟩
  | .hbm, ⟨54, _⟩ => ⟨S1x128, .f32⟩
  | .hbm, ⟨55, _⟩ => ⟨S100000x128, .bf16⟩
  | .hbm, ⟨56, _⟩ => ⟨S_, .i32⟩
  | .hbm, ⟨57, _⟩ => ⟨S740000, .i32⟩
  | .hbm, ⟨58, _⟩ => ⟨S740000, .i1⟩
  | .hbm, ⟨59, _⟩ => ⟨S_, .i32⟩
  | .hbm, ⟨60, _⟩ => ⟨S740000, .i32⟩
  | .hbm, ⟨61, _⟩ => ⟨S740000, .i32⟩
  | .hbm, ⟨62, _⟩ => ⟨S740000, .i32⟩
  | .hbm, ⟨63, _⟩ => ⟨S740000x1, .i32⟩
  | .hbm, ⟨64, _⟩ => ⟨S740000x128, .bf16⟩
  | .hbm, ⟨65, _⟩ => ⟨S740000x128, .f32⟩
  | .hbm, ⟨66, _⟩ => ⟨S_, .f32⟩
  | .hbm, ⟨67, _⟩ => ⟨S100000x128, .f32⟩
  | .hbm, ⟨68, _⟩ => ⟨S740000x1, .i32⟩
  | .hbm, ⟨69, _⟩ => ⟨S100000x128, .f32⟩
  | .hbm, ⟨70, _⟩ => ⟨S1x128, .f32⟩
  | .hbm, ⟨71, _⟩ => ⟨S128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S100000x128, .bf16⟩
  | .hbm, ⟨76, _⟩ => ⟨S_, .i32⟩
  | .hbm, ⟨77, _⟩ => ⟨S740000, .i32⟩
  | .hbm, ⟨78, _⟩ => ⟨S740000, .i1⟩
  | .hbm, ⟨79, _⟩ => ⟨S_, .i32⟩
  | .hbm, ⟨80, _⟩ => ⟨S740000, .i32⟩
  | .hbm, ⟨81, _⟩ => ⟨S740000, .i32⟩
  | .hbm, ⟨82, _⟩ => ⟨S740000, .i32⟩
  | .hbm, ⟨83, _⟩ => ⟨S740000x1, .i32⟩
  | .hbm, ⟨84, _⟩ => ⟨S740000x128, .bf16⟩
  | .hbm, ⟨85, _⟩ => ⟨S740000x128, .f32⟩
  | .hbm, ⟨86, _⟩ => ⟨S_, .f32⟩
  | .hbm, ⟨87, _⟩ => ⟨S100000x128, .f32⟩
  | .hbm, ⟨88, _⟩ => ⟨S740000x1, .i32⟩
  | .hbm, ⟨89, _⟩ => ⟨S100000x128, .f32⟩
  | .hbm, ⟨90, _⟩ => ⟨S1x128, .f32⟩
  | .hbm, ⟨91, _⟩ => ⟨S128, .f32⟩
  | .hbm, ⟨92, _⟩ => ⟨S1x128x128, .f32⟩
  | .hbm, ⟨93, _⟩ => ⟨S128x128, .f32⟩
  | .hbm, ⟨94, _⟩ => ⟨S1x128, .f32⟩
  | .hbm, ⟨95, _⟩ => ⟨S100000x128, .bf16⟩
  | .hbm, ⟨96, _⟩ => ⟨S_, .i32⟩
  | .hbm, ⟨97, _⟩ => ⟨S740000, .i32⟩
  | .hbm, ⟨98, _⟩ => ⟨S740000, .i1⟩
  | .hbm, ⟨99, _⟩ => ⟨S_, .i32⟩
  | .hbm, ⟨100, _⟩ => ⟨S740000, .i32⟩
  | .hbm, ⟨101, _⟩ => ⟨S740000, .i32⟩
  | .hbm, ⟨102, _⟩ => ⟨S740000, .i32⟩
  | .hbm, ⟨103, _⟩ => ⟨S740000x1, .i32⟩
  | .hbm, ⟨104, _⟩ => ⟨S740000x128, .bf16⟩
  | .hbm, ⟨105, _⟩ => ⟨S740000x128, .f32⟩
  | .hbm, ⟨106, _⟩ => ⟨S_, .f32⟩
  | .hbm, ⟨107, _⟩ => ⟨S100000x128, .f32⟩
  | .hbm, ⟨108, _⟩ => ⟨S740000x1, .i32⟩
  | .hbm, ⟨109, _⟩ => ⟨S100000x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S100000x1, .i32⟩
  | .hbm, ⟨114, _⟩ => ⟨S2x512x128, .f32⟩
  | .hbm, ⟨115, _⟩ => ⟨S1x512x128, .f32⟩
  | .hbm, ⟨116, _⟩ => ⟨S512x128, .f32⟩
  | .hbm, ⟨117, _⟩ => ⟨S1x512x128, .f32⟩
  | .hbm, ⟨118, _⟩ => ⟨S512x128, .f32⟩
  | .hbm, ⟨119, _⟩ => ⟨S512x128, .f32⟩
  | .hbm, ⟨120, _⟩ => ⟨S1x128, .f32⟩
  | .hbm, ⟨121, _⟩ => ⟨S1x128, .f32⟩
  | .hbm, ⟨122, _⟩ => ⟨S1x1, .f32⟩
  | .hbm, ⟨123, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x128, .f32⟩
  | .local _ .vmem, ⟨21, _⟩ => ⟨S2000x128, .bf16⟩
  | .local _ .vmem, ⟨22, _⟩ => ⟨S2000x128, .bf16⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S128x128, .f32⟩
  | .local _ .vmem, ⟨29, _⟩ => ⟨S2000x128, .bf16⟩
  | .local _ .vmem, ⟨30, _⟩ => ⟨S2000x128, .bf16⟩
  | .local _ .vmem, ⟨31, _⟩ => ⟨S2000x128, .f32⟩
  | .local _ .vmem, ⟨32, _⟩ => ⟨S2000x128, .f32⟩
  | .local _ .vmem, ⟨33, _⟩ => ⟨S2000x1, .f32⟩
  | .local _ .vmem, ⟨34, _⟩ => ⟨S2000x1, .f32⟩
  | .local _ .vmem, ⟨35, _⟩ => ⟨S1x128, .f32⟩
  | .local _ .vmem, ⟨36, _⟩ => ⟨S2000x1, .i32⟩
  | .local _ .vmem, ⟨37, _⟩ => ⟨S2000x1, .i32⟩
  | .local _ .vmem, ⟨38, _⟩ => ⟨S1x512x128, .f32⟩
  | .local _ .vmem, ⟨39, _⟩ => ⟨S1x512x128, .f32⟩
  | .local _ .vmem, ⟨40, _⟩ => ⟨S512x128, .f32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S128x1, .f32⟩
  | .local _ .vmem, ⟨46, _⟩ => ⟨S1x1, .f32⟩
  | .local _ .vmem, ⟨47, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_11 : Ref sig .tc := ⟨.hbm, 96, rfl⟩
abbrev main_v70 : Ref sig .tc := ⟨.hbm, 97, rfl⟩
abbrev main_v71 : Ref sig .tc := ⟨.hbm, 98, rfl⟩
abbrev main_c_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem1_0 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨2, ![2, 25], ![false, false]⟩

def cc4_transform_0 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S2000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x512x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  shapeCasts_S100000_S100000x1 : S100000.ShapeCasts S100000x1
  slices_S4x128x128_S1x128x128_0_0_0 : S4x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  iota_S2000x512_d1_w32 : S2000x512.Iotas .tc 32 [1]
  broadcasts_S2000x1_S2000x512 : S2000x1.Broadcasts S2000x512
  natLt_1_32 : 1 < 32
  slices_S2x512x128_S1x512x128_0_0_0 : S2x512x128.Slices ![0, 0, 0] S1x512x128
  slices_S2x512x128_S1x512x128_1_0_0 : S2x512x128.Slices ![1, 0, 0] S1x512x128
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S740000x1_S740000_n_0_0_1_wf : ScatterDims.WF S100000 S740000x1 S740000 [] [0] [0] 1
  dot_S2000x128_S128x128_S2000x128_1_0_0_1_n_n_wf : DotDims.WF S2000x128 S128x128 S2000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S2000x512_S2000x128_S512x128_0_0_1_1_n_n_wf : DotDims.WF S2000x512 S2000x128 S512x128 [0] [0] [1] [1] [] []
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .bf16 = 32 ∨ (Rect.block (s := S100000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .bf16 = 32 ∨ (Rect.block (s := S100000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .bf16 = 32 ∨ (Rect.block (s := S100000x128) S2000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S100000x1.size a
  hwx4_3 : ∀ i : grid4.Coords, EltTy.bits .i32 = 32 ∨ (Rect.block (s := S100000x1) S2000x1.size (cc4_transform_3 i) (hinb4_3 i)).WholeWords (EltTy.packing .i32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x512x128.size a ≤ S2x512x128.size a
  hwx4_4 : ∀ i : grid4.Coords, EltTy.bits .f32 = 32 ∨ (Rect.block (s := S2x512x128) S1x512x128.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x1.size a ≤ S128x1.size a
  hwx5_5 : ∀ i : grid5.Coords, EltTy.bits .f32 = 32 ∨ (Rect.block (s := S128x1) S128x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x1.size a ≤ S512x1.size a
  hwx5_7 : ∀ i : grid5.Coords, EltTy.bits .f32 = 32 ∨ (Rect.block (s := S512x1) S512x1.size (cc5_transform_7 i) (hinb5_7 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v80) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v84) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x512x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v90) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg9) S128x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v93) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v94) S512x1.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S740000x128 : Shape := ⟨2, ![740000, 128]⟩
abbrev S1x128 : Shape := ⟨2, ![1, 128]⟩
abbrev S512x128 : Shape := ⟨2, ![512, 128]⟩
abbrev S100000x1 : Shape := ⟨2, ![100000, 1]⟩
abbrev S512x1 : Shape := ⟨2, ![512, 1]⟩
abbrev S1x1 : Shape := ⟨2, ![1, 1]⟩

abbrev nBuf : Space → Nat
  | .hbm => 186
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S4x128x128, .f32⟩
  | 4 => ⟨S4x128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S100000, .i32⟩
  | 12 => ⟨S1x640000, .i32⟩
  | 13 => ⟨S640000, .i32⟩
  | 14 => ⟨S740000, .i32⟩
  | 15 => ⟨S1x640000, .i32⟩
  | 16 => ⟨S640000, .i32⟩
  | 17 => ⟨S740000, .i32⟩
  | 18 => ⟨S_, .f32⟩
  | 19 => ⟨S740000, .f32⟩
  | 20 => ⟨S_, .f32⟩
  | 21 => ⟨S100000, .f32⟩
  | 22 => ⟨S740000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S740000, .i32⟩
  | 34 => ⟨S740000, .i1⟩
  | 35 => ⟨S_, .i32⟩
  | 36 => ⟨S740000, .i32⟩
  | 37 => ⟨S740000, .i32⟩
  | 38 => ⟨S740000, .i32⟩
  | 39 => ⟨S740000x1, .i32⟩
  | 40 => ⟨S740000, .f32⟩
  | 41 => ⟨S_, .i32⟩
  | 42 => ⟨S740000, .i32⟩
  | 43 => ⟨S740000, .i1⟩
  | 44 => ⟨S_, .i32⟩
  | 45 => ⟨S740000, .i32⟩
  | 46 => ⟨S740000, .i32⟩
  | 47 => ⟨S740000, .i32⟩
  | 48 => ⟨S740000x1, .i32⟩
  | 49 => ⟨S740000, .f32⟩
  | 50 => ⟨S740000, .f32⟩
  | 51 => ⟨S740000x1, .f32⟩
  | 52 => ⟨S1x128x128, .f32⟩
  | 53 => ⟨S128x128, .f32⟩
  | 54 => ⟨S100000x128, .f32⟩
  | 55 => ⟨S_, .i32⟩
  | 56 => ⟨S740000, .i32⟩
  | 57 => ⟨S740000, .i1⟩
  | 58 => ⟨S_, .i32⟩
  | 59 => ⟨S740000, .i32⟩
  | 60 => ⟨S740000, .i32⟩
  | 61 => ⟨S740000, .i32⟩
  | 62 => ⟨S740000x1, .i32⟩
  | 63 => ⟨S740000x128, .f32⟩
  | 64 => ⟨S740000x128, .f32⟩
  | 65 => ⟨S740000x128, .f32⟩
  | 66 => ⟨S_, .f32⟩
  | 67 => ⟨S100000x128, .f32⟩
  | 68 => ⟨S740000x1, .i32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S_, .i32⟩
  | 82 => ⟨S740000, .i32⟩
  | 83 => ⟨S740000, .i1⟩
  | 84 => ⟨S_, .i32⟩
  | 85 => ⟨S740000, .i32⟩
  | 86 => ⟨S740000, .i32⟩
  | 87 => ⟨S740000, .i32⟩
  | 88 => ⟨S740000x1, .i32⟩
  | 89 => ⟨S740000x128, .f32⟩
  | 90 => ⟨S740000x128, .f32⟩
  | 91 => ⟨S740000x128, .f32⟩
  | 92 => ⟨S_, .f32⟩
  | 93 => ⟨S100000x128, .f32⟩
  | 94 => ⟨S740000x1, .i32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S_, .i32⟩
  | 108 => ⟨S740000, .i32⟩
  | 109 => ⟨S740000, .i1⟩
  | 110 => ⟨S_, .i32⟩
  | 111 => ⟨S740000, .i32⟩
  | 112 => ⟨S740000, .i32⟩
  | 113 => ⟨S740000, .i32⟩
  | 114 => ⟨S740000x1, .i32⟩
  | 115 => ⟨S740000x128, .f32⟩
  | 116 => ⟨S740000x128, .f32⟩
  | 117 => ⟨S740000x128, .f32⟩
  | 118 => ⟨S_, .f32⟩
  | 119 => ⟨S100000x128, .f32⟩
  | 120 => ⟨S740000x1, .i32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S_, .i32⟩
  | 6 => ⟨S740000, .i32⟩
  | 7 => ⟨S740000, .i1⟩
  | 8 => ⟨S_, .i32⟩
  | 9 => ⟨S740000, .i32⟩
  | 10 => ⟨S740000, .i32⟩
  | 11 => ⟨S740000, .i32⟩
  | 12 => ⟨S740000x1, .i32⟩
  | 13 => ⟨S740000x128, .f32⟩
  | 14 => ⟨S740000x128, .f32⟩
  | 15 => ⟨S740000x128, .f32⟩
  | 16 => ⟨S_, .f32⟩
  | 17 => ⟨S100000x128, .f32⟩
  | 18 => ⟨S740000x1, .i32⟩
  | 19 => ⟨S100000x128, .f32⟩
  | 20 => ⟨S1x128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .f32⟩
  | 29 => ⟨S512x128, .f32⟩
  | 30 => ⟨S100000x1, .i32⟩
  | 31 => ⟨S512x128, .f32⟩
  | 32 => ⟨S512x128, .f32⟩
  | 33 => ⟨S1x128, .f32⟩
  | 34 => ⟨S512x128, .f32⟩
  | 35 => ⟨S512x128, .f32⟩
  | 36 => ⟨S_, .f32⟩
  | 37 => ⟨S512x128, .f32⟩
  | 38 => ⟨S512x128, .f32⟩
  | 39 => ⟨S512x128, .f32⟩
  | 40 => ⟨S1x128, .f32⟩
  | 41 => ⟨S512x128, .f32⟩
  | 42 => ⟨S512x128, .f32⟩
  | 43 => ⟨S_, .f32⟩
  | 44 => ⟨S512x128, .f32⟩
  | 45 => ⟨S512x128, .f32⟩
  | 46 => ⟨S512x1, .f32⟩
  | 47 => ⟨S1x1, .f32⟩
  | 48 => ⟨S512x1, .f32⟩
  | 49 => ⟨S512x1, .f32⟩
  | 50 => ⟨S512x1, .f32⟩
  | 51 => ⟨S512x1, .f32⟩
  | 52 => ⟨S_, .f32⟩
  | 53 => ⟨S512x1, .f32⟩
  | 54 => ⟨S512x1, .f32⟩
  | 55 => ⟨S_, .f32⟩
  | 56 => ⟨S512x1, .f32⟩
  | 57 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_12 : Ref sig .tc := ⟨.hbm, 107, rfl⟩
abbrev main_v76 : Ref sig .tc := ⟨.hbm, 108, rfl⟩
abbrev main_v77 : Ref sig .tc := ⟨.hbm, 109, rfl⟩
abbrev main_c_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call3_cst : Ref sig .tc := ⟨.hbm, 127, rfl⟩
abbrev main_call3_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_15 : Ref sig .tc := ⟨.hbm, 133, rfl⟩
abbrev main_v97 : Ref sig .tc := ⟨.hbm, 134, rfl⟩
abbrev main_v98 : Ref sig .tc := ⟨.hbm, 135, rfl⟩
abbrev main_c_16 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_call4_cst : Ref sig .tc := ⟨.hbm, 153, rfl⟩
abbrev main_call4_v0 : Ref sig .tc := ⟨.hbm, 154, rfl⟩
abbrev main_v114 : Ref sig .tc := ⟨.hbm, 155, rfl⟩
abbrev main_cst_18 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_call5_cst : Ref sig .tc := ⟨.hbm, 164, rfl⟩
abbrev main_call5_v0 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_call6_cst : Ref sig .tc := ⟨.hbm, 171, rfl⟩
abbrev main_call6_v0 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_19 : Ref sig .tc := ⟨.hbm, 180, rfl⟩
abbrev main_v134 : Ref sig .tc := ⟨.hbm, 181, rfl⟩
abbrev main_v135 : Ref sig .tc := ⟨.hbm, 182, rfl⟩
abbrev main_cst_20 : Ref sig .tc := ⟨.hbm, 183, rfl⟩
abbrev main_v136 : Ref sig .tc := ⟨.hbm, 184, rfl⟩
abbrev main_v137 : Ref sig .tc := ⟨.hbm, 185, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  slices_S4x128x128_S1x128x128_0_0_0 : S4x128x128.Slices ![0, 0, 0] S1x128x128
  shapeCasts_S1x128x128_S128x128 : S1x128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.LibGatherScatter.lean ====
/-
  Row gathers and row scatters read at an index.

  `x[idx]` along axis 0 of a matrix `x : [N, D]` (or of a vector `x : [N]`) at start indices `idx : [E, 1]` reads row
  `idx[e, 0]`, taken as a signed integer and clamped into `[0, N - 1]`. The accumulating scatter of updates
  `[E, D]` into `[N, D]` at the same kind of indices adds update row `e` to row `idx[e, 0]`, read signed and NOT
  clamped: a row index outside `[0, N)` drops the update. Both are stated here for any extents.
-/
import Idealize.ShloMosaic.Lib.ValueIdx
import Idealize.ShloMosaic.PureOps.Ideal

noncomputable section

namespace LibGatherScatter

open Idealize.ShloMosaic Idealize.ShloMosaic.ValueIdx

/-- The row a start index word names in an axis of extent `N`: the word as a signed integer, clamped into `[0, N - 1]`. -/
def clampRow (N : Nat) (hN : 0 < N) {w : Nat} (v : BitVec w) : Fin N := ⟨min v.toInt.toNat (N - 1), by omega⟩

section Gather
variable {α : Type}

/-- The dimension numbers of `x[idx]` along axis 0 of a matrix: rows of `D` entries, one start index per result row. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the row gather is the matrix at row `clampRow idx[e, 0]`, column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

/-- The dimension numbers of `x[idx]` of a vector: one entry per start index. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the vector gather is the vector at `clampRow idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of the accumulating row scatter: update row `e` goes to the row its index word names. -/
abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

/-- Update `(e, k)` lands on `(n, k')` exactly when the edge's index word, read signed, is `n` and `k = k'`. -/
theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

/-- THE ACCUMULATING ROW SCATTER READ AT `(n, d)`, on the extended reals: the operand's entry plus the sum, over the
    edges whose index word read signed is `n`, of the update's entry `(e, d)`. -/
theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.LibESum.lean ====
/-
  Finite sums of extended reals under a nonnegative finite factor, and sums weighted by an indicator.

  On the extended reals multiplication does not distribute over addition in general (an infinite term of each
  sign breaks it), but a factor that is a nonnegative real number does distribute: that is all the laws
  below need, and it is why no summand has to be finite.
-/
import Mathlib.Data.EReal.Operations
import Mathlib.Algebra.BigOperators.Group.Finset.Basic
import Mathlib.Algebra.BigOperators.Ring.Finset

namespace LibESum

open Finset

/-- A nonnegative factor that is not `⊤` goes through a finite sum of extended reals, whatever the summands are. -/
theorem mul_sum {ι : Type*} (c : EReal) (h0 : 0 ≤ c) (ht : c ≠ ⊤) (s : Finset ι) (f : ι → EReal) :
    c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top h0 ht, ih]

/-- The same with the factor on the right. -/
theorem sum_mul {ι : Type*} (c : EReal) (h0 : 0 ≤ c) (ht : c ≠ ⊤) (s : Finset ι) (f : ι → EReal) :
    (∑ j ∈ s, f j) * c = ∑ j ∈ s, f j * c := by
  rw [EReal.mul_comm, mul_sum c h0 ht]; exact Finset.sum_congr rfl fun _ _ => EReal.mul_comm _ _

/-- A sum whose every term carries a weight that is `1` where `p` holds and `0` elsewhere is the sum over
    the indices where `p` holds: `0 * x = 0` and `1 * x = x` for every extended real `x`. -/
theorem sum_indicator_mul {ι : Type*} [DecidableEq ι] (s : Finset ι) (p : ι → Prop) [DecidablePred p]
    (w f : ι → EReal) (h1 : ∀ j, p j → w j = 1) (h0 : ∀ j, ¬ p j → w j = 0) :
    ∑ j ∈ s, w j * f j = ∑ j ∈ s.filter p, f j := by
  rw [Finset.sum_filter]
  refine Finset.sum_congr rfl fun j _ => ?_
  by_cases hp : p j
  · rw [if_pos hp, h1 j hp, one_mul]
  · rw [if_neg hp, h0 j hp, zero_mul]

end LibESum
-- ==== Proof.Spec.lean ====
/-
  The graph network both programs compute, index by index, on the extended reals.

  Nodes `n < 100000`, features `d < 128`, edges `e < 740000` (the given edges followed by one self loop per node), graphs
  `g < 512`. Each edge carries three 32-bit words: `sI e`, the destination as the accumulating scatter reads it (signed,
  an edge whose word is outside `[0, 100000)` is dropped), and `gS e`, `gD e`, the source and the destination as a
  gather reads them (signed, clamped into `[0, 99999]`). `dv n` is the node's `deg^(-1/2)`.

  One layer, as the kernel arranges it:   h' n d = max (dv n * (Σ_{e → n} ((h W) (src e) d * dv (src e))) + b d) 0
  One layer, as the reference does:       h' n d = max ((Σ_{e → n} (h W) (src e) d * (dv (src e) * dv (dst e))) + b d) 0
  They agree because `dst e = n` on every edge that lands on `n`, and `dv n` is a nonnegative real number, which
  goes through the sum whatever the summands are (LibESum).

  Pooling, as the kernel does it: per half `c < 2` of the nodes, the sum over 25 tiles of 2000 nodes of the node's
  row weighted by `1` when the node's graph word is `g` and by `0` otherwise; the two halves added. As the reference
  does it: the sum of the rows of the nodes whose graph word, read signed, is `g`.
-/
import proofs.«413796_j23914377904291_2_alg».proof.Proof.LibGatherScatter
import proofs.«413796_j23914377904291_2_alg».proof.Proof.LibESum

noncomputable section

namespace GCN

open Finset Idealize.ShloMosaic LibGatherScatter

/-- Node features. -/
abbrev Row := Fin 100000 → Fin 128 → EReal
/-- A square weight matrix. -/
abbrev Mat := Fin 128 → Fin 128 → EReal

/-- The row of the node table a gather reads for edge `e`: the edge's word, signed, clamped into `[0, 99999]`. -/
def srow (gI : Fin 740000 → BitVec 32) (e : Fin 740000) : Fin 100000 := clampRow 100000 (by decide) (gI e)

/-- Edge `e`'s update lands on node `n`: its scatter word, read signed, is `n`. -/
def lands (sI : Fin 740000 → BitVec 32) (e : Fin 740000) (n : Fin 100000) : Prop := (sI e).toInt = (n.val : ℤ)

instance (sI : Fin 740000 → BitVec 32) (n : Fin 100000) : DecidablePred fun e => lands sI e n :=
  fun e => inferInstanceAs (Decidable ((sI e).toInt = (n.val : ℤ)))

/-- The edges that land on `n`. -/
def into (sI : Fin 740000 → BitVec 32) (n : Fin 100000) : Finset (Fin 740000) := univ.filter fun e => lands sI e n

/-- `h W`. -/
def mm (h : Row) (W : Mat) : Row := fun n d => ∑ k : Fin 128, h n k * W k d

/-! ## One layer, the kernel's arrangement -/

/-- What a matmul region writes: `h W` with row `n` scaled by `dv n`. -/
def kHW (h : Row) (W : Mat) (dv : Fin 100000 → EReal) : Row := fun n d => mm h W n d * dv n
/-- The host's gather and accumulating scatter of those rows. -/
def kAgg (sI gS : Fin 740000 → BitVec 32) (HW : Row) : Row := fun n d => ∑ e ∈ into sI n, HW (srow gS e) d
/-- The next region's first step: scale by `dv n`, add the bias, clip at zero. -/
def kAct (dv : Fin 100000 → EReal) (agg : Row) (b : Fin 128 → EReal) : Row := fun n d => max (dv n * agg n d + b d) 0
/-- One layer. -/
def kStep (sI gS : Fin 740000 → BitVec 32) (dv : Fin 100000 → EReal) (h : Row) (W : Mat) (b : Fin 128 → EReal) : Row :=
  kAct dv (kAgg sI gS (kHW h W dv)) b

/-! ## One layer, the reference's arrangement -/

def rAgg (sI gS gD : Fin 740000 → BitVec 32) (dv : Fin 100000 → EReal) (hw : Row) : Row :=
  fun n d => ∑ e ∈ into sI n, hw (srow gS e) d * (dv (srow gS e) * dv (srow gD e))
def rAct (agg : Row) (b : Fin 128 → EReal) : Row := fun n d => max (agg n d + b d) 0
def rStep (sI gS gD : Fin 740000 → BitVec 32) (dv : Fin 100000 → EReal) (h : Row) (W : Mat) (b : Fin 128 → EReal) : Row :=
  rAct (rAgg sI gS gD dv (mm h W)) b

/-! ## Pooling -/

/-- Node `k` of tile `i` of half `c`. -/
def node (c : Fin 2) (i : Fin 25) (k : Fin 2000) : Fin 100000 :=
  ⟨(c.val * 25 + i.val) * 2000 + k.val, by have := c.isLt; have := i.isLt; have := k.isLt; omega⟩

/-- Tile `i` of half `c`'s contribution to graph `g`. -/
def kTile (bt : Fin 100000 → BitVec 32) (a : Row) (c : Fin 2) (i : Fin 25) (g : Fin 512) (d : Fin 128) : EReal :=
  ∑ k : Fin 2000, (if bt (node c i k) = BitVec.ofNat 32 g.val then (1 : EReal) else 0) * a (node c i k) d
/-- Half `c`'s plane. -/
def kPoolPart (bt : Fin 100000 → BitVec 32) (a : Row) (c : Fin 2) (g : Fin 512) (d : Fin 128) : EReal :=
  ∑ i : Fin 25, kTile bt a c i g d
/-- The two planes added. -/
def kPool (bt : Fin 100000 → BitVec 32) (a : Row) : Fin 512 → Fin 128 → EReal :=
  fun g d => kPoolPart bt a 0 g d + kPoolPart bt a 1 g d
/-- The reference's segment sum. -/
def rPool (bt : Fin 100000 → BitVec 32) (a : Row) : Fin 512 → Fin 128 → EReal :=
  fun g d => ∑ n ∈ univ.filter (fun n : Fin 100000 => (bt n).toInt = (g.val : ℤ)), a n d

/-! ## The head -/

def dense (p : Fin 512 → Fin 128 → EReal) (W : Mat) (b : Fin 128 → EReal) : Fin 512 → Fin 128 → EReal :=
  fun g d => max ((∑ k : Fin 128, p g k * W k d) + b d) 0
def head (p : Fin 512 → Fin 128 → EReal) (W1 : Mat) (b1 : Fin 128 → EReal) (W2 : Mat) (b2 : Fin 128 → EReal)
    (W3 : Fin 128 → EReal) (b3 : EReal) : Fin 512 → EReal :=
  fun g => Ideal.logistic ((∑ k : Fin 128, dense (dense p W1 b1) W2 b2 g k * W3 k) + b3)

/-! ## The two whole networks -/

def kNet (sI gS : Fin 740000 → BitVec 32) (dv : Fin 100000 → EReal) (bt : Fin 100000 → BitVec 32) (x : Row)
    (W : Fin 4 → Mat) (b : Fin 4 → Fin 128 → EReal) (W1 : Mat) (b1 : Fin 128 → EReal) (W2 : Mat) (b2 : Fin 128 → EReal)
    (W3 : Fin 128 → EReal) (b3 : EReal) : Fin 512 → EReal :=
  head (kPool bt (kStep sI gS dv (kStep sI gS dv (kStep sI gS dv (kStep sI gS dv x (W 0) (b 0)) (W 1) (b 1)) (W 2) (b 2)) (W 3) (b 3)))
    W1 b1 W2 b2 W3 b3

def rNet (sI gS gD : Fin 740000 → BitVec 32) (dv : Fin 100000 → EReal) (bt : Fin 100000 → BitVec 32) (x : Row)
    (W : Fin 4 → Mat) (b : Fin 4 → Fin 128 → EReal) (W1 : Mat) (b1 : Fin 128 → EReal) (W2 : Mat) (b2 : Fin 128 → EReal)
    (W3 : Fin 128 → EReal) (b3 : EReal) : Fin 512 → EReal :=
  head (rPool bt (rStep sI gS gD dv (rStep sI gS gD dv (rStep sI gS gD dv (rStep sI gS gD dv x (W 0) (b 0)) (W 1) (b 1)) (W 2) (b 2)) (W 3) (b 3)))
    W1 b1 W2 b2 W3 b3

end GCN

end
-- ==== Proof.KData.lean ====
/-
  The arrays the kernel's host operations hand to its six regions, as terms of the host operations over the
  argument arrays, and each of them read at an index.

  From the edge list (argument 1): the source and the destination words, each row of the argument followed by one
  self loop per node; the destination as the accumulating scatter's index column; the source, wrapped when
  negative, as the gather's index column; the degree, its inverse square root (zero where the degree is not
  positive), and the same as a column. From the stacked weights and biases (arguments 3 and 4): layer `l`'s matrix
  and its bias as a row. The graph words (argument 2) as a column. The aggregation between two layers: the rows
  of the previous layer's output gathered by source, widened, and summed into their destinations from zero.
  The two pooled planes added. The head's biases as rows.
-/
import proofs.«413796_j23914377904291_2_alg».proof.Proof.Gen.KernelIdeal.Frame
import proofs.«413796_j23914377904291_2_alg».proof.Proof.Spec
import Idealize.ShloMosaic.Lib.StableHlo.Run
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.KHost

open Cert.KernelIdeal Cert.KernelIdeal.Gen
open Idealize.ShloMosaic Idealize.ShloMosaic.TcCoe Idealize.ShloMosaic.ValueIdx

/-! ## The edge words -/

/-- The source words: row 0 of the edge list, then node `n`'s own number for the self loop. -/
def kSrc (a1 : IVec S2x640000 32) : IVec S740000 32 :=
  concatenate S740000 0 [⟨S640000, shapeCast S640000 (extractStridedSlice S1x640000 ![0, 0] a1 slices_S2x640000_S1x640000_0_0) shapeCasts_S1x640000_S640000⟩, ⟨S100000, iotaInDim S100000 32 0⟩] concatenates_S640000_S100000_S740000_d0

/-- The destination words: row 1 of the edge list, then node `n`'s own number for the self loop. -/
def kDst (a1 : IVec S2x640000 32) : IVec S740000 32 :=
  concatenate S740000 0 [⟨S640000, shapeCast S640000 (extractStridedSlice S1x640000 ![1, 0] a1 slices_S2x640000_S1x640000_1_0) shapeCasts_S1x640000_S640000⟩, ⟨S100000, iotaInDim S100000 32 0⟩] concatenates_S640000_S100000_S740000_d0

/-- The scatter's index column: the destination words. -/
def kSIc (a1 : IVec S2x640000 32) : IVec S740000x1 32 :=
  broadcastInDim S740000x1 ![0] bcast_S740000_S740000x1_0 (kDst a1)

/-- The gather's index column: the source words, a negative one moved up by the number of nodes. -/
def kGSc (a1 : IVec S2x640000 32) : IVec S740000x1 32 :=
  broadcastInDim S740000x1 ![0] bcast_S740000_S740000x1_0
    (select (cmpi .slt (kSrc a1) (broadcastInDim S740000 ![] bcast_S_S740000 (constantI S_ 32 0#32)))
      (addi (kSrc a1) (broadcastInDim S740000 ![] bcast_S_S740000 (constantI S_ 32 100000#32))) (kSrc a1))

/-! ## The degree and its inverse square root -/

/-- The degree: one per edge, summed into the edge's destination from zero. -/
def kDeg (a1 : IVec S2x640000 32) : FVec Ideal S100000 .f32 :=
  Host.scatterAdd scatter_S100000_S740000x1_S740000_n_0_0_1
    (broadcastInDim S100000 ![] bcast_S_S100000 (constant (F := Ideal) S_ .f32 0x00000000#32)) (kSIc a1)
    (broadcastInDim S740000 ![] bcast_S_S740000 (constant (F := Ideal) S_ .f32 0x3F800000#32))

/-- `deg^(-1/2)` where the degree is positive, zero elsewhere. -/
def kDinv (a1 : IVec S2x640000 32) : FVec Ideal S100000 .f32 :=
  select (cmpf .ogt (kDeg a1) (broadcastInDim S100000 ![] bcast_S_S100000 (constant (F := Ideal) S_ .f32 0x00000000#32)))
    (Host.rsqrt (kDeg a1)) (broadcastInDim S100000 ![] bcast_S_S100000 (constant (F := Ideal) S_ .f32 0x00000000#32))

/-- The same as a column. -/
def kDinvC (a1 : IVec S2x640000 32) : FVec Ideal S100000x1 .f32 :=
  shapeCast S100000x1 (kDinv a1) shapeCasts_S100000_S100000x1

/-! ## The layers' weights and biases -/

def kWl0 (a3 : FVec Ideal S4x128x128 .f32) : FVec Ideal S128x128 .f32 :=
  shapeCast S128x128 (extractStridedSlice S1x128x128 ![0, 0, 0] a3 slices_S4x128x128_S1x128x128_0_0_0) shapeCasts_S1x128x128_S128x128
def kWl1 (a3 : FVec Ideal S4x128x128 .f32) : FVec Ideal S128x128 .f32 :=
  shapeCast S128x128 (extractStridedSlice S1x128x128 ![1, 0, 0] a3 slices_S4x128x128_S1x128x128_1_0_0) shapeCasts_S1x128x128_S128x128
def kWl2 (a3 : FVec Ideal S4x128x128 .f32) : FVec Ideal S128x128 .f32 :=
  shapeCast S128x128 (extractStridedSlice S1x128x128 ![2, 0, 0] a3 slices_S4x128x128_S1x128x128_2_0_0) shapeCasts_S1x128x128_S128x128
def kWl3 (a3 : FVec Ideal S4x128x128 .f32) : FVec Ideal S128x128 .f32 :=
  shapeCast S128x128 (extractStridedSlice S1x128x128 ![3, 0, 0] a3 slices_S4x128x128_S1x128x128_3_0_0) shapeCasts_S1x128x128_S128x128

def kBrow0 (a4 : FVec Ideal S4x128 .f32) : FVec Ideal S1x128 .f32 :=
  shapeCast S1x128 (shapeCast S128 (extractStridedSlice S1x128 ![0, 0] a4 slices_S4x128_S1x128_0_0) shapeCasts_S1x128_S128) shapeCasts_S128_S1x128
def kBrow1 (a4 : FVec Ideal S4x128 .f32) : FVec Ideal S1x128 .f32 :=
  shapeCast S1x128 (shapeCast S128 (extractStridedSlice S1x128 ![1, 0] a4 slices_S4x128_S1x128_1_0) shapeCasts_S1x128_S128) shapeCasts_S128_S1x128
def kBrow2 (a4 : FVec Ideal S4x128 .f32) : FVec Ideal S1x128 .f32 :=
  shapeCast S1x128 (shapeCast S128 (extractStridedSlice S1x128 ![2, 0] a4 slices_S4x128_S1x128_2_0) shapeCasts_S1x128_S128) shapeCasts_S128_S1x128
def kBrow3 (a4 : FVec Ideal S4x128 .f32) : FVec Ideal S1x128 .f32 :=
  shapeCast S1x128 (shapeCast S128 (extractStridedSlice S1x128 ![3, 0] a4 slices_S4x128_S1x128_3_0) shapeCasts_S1x128_S128) shapeCasts_S128_S1x128

/-- The graph words as a column. -/
def kBtC (a2 : IVec S100000 32) : IVec S100000x1 32 := shapeCast S100000x1 a2 shapeCasts_S100000_S100000x1

/-! ## Between two layers, after the pooling, before the head -/

/-- The aggregation over any source and destination words: the rows of `HW` gathered by source (a negative word moved
    up by the number of nodes), widened, summed into their destinations from zero. -/
def aggOf (src dst : IVec S740000 32) (HW : FVec Ideal S100000x128 .bf16) : FVec Ideal S100000x128 .f32 :=
  Host.scatterAdd scatter_S100000x128_S740000x1_S740000x128_1_0_0_1
    (broadcastInDim S100000x128 ![] bcast_S_S100000x128 (constant (F := Ideal) S_ .f32 0x00000000#32))
    (broadcastInDim S740000x1 ![0] bcast_S740000_S740000x1_0 dst)
    (extf .f32 (Host.gather gather_S100000x128_S740000x1_S740000x128_1_0_n_n_0_1_1128 HW
      (broadcastInDim S740000x1 ![0] bcast_S740000_S740000x1_0
        (select (cmpi .slt src (broadcastInDim S740000 ![] bcast_S_S740000 (constantI S_ 32 0#32)))
          (addi src (broadcastInDim S740000 ![] bcast_S_S740000 (constantI S_ 32 100000#32))) src))) bitsLt_bf16_f32)

/-- The aggregation between two layers: over this program's source and destination words. -/
def kAggArr (a1 : IVec S2x640000 32) (HW : FVec Ideal S100000x128 .bf16) : FVec Ideal S100000x128 .f32 :=
  aggOf (kSrc a1) (kDst a1) HW

/-- The two pooled planes added. -/
def kPooled (P : FVec Ideal S2x512x128 .f32) : FVec Ideal S512x128 .f32 :=
  addf (shapeCast S512x128 (extractStridedSlice S1x512x128 ![0, 0, 0] P slices_S2x512x128_S1x512x128_0_0_0) shapeCasts_S1x512x128_S512x128)
    (shapeCast S512x128 (extractStridedSlice S1x512x128 ![1, 0, 0] P slices_S2x512x128_S1x512x128_1_0_0) shapeCasts_S1x512x128_S512x128)

/-- The head's biases as rows. -/
def kB1r (a6 : FVec Ideal S128 .f32) : FVec Ideal S1x128 .f32 := shapeCast S1x128 a6 shapeCasts_S128_S1x128
def kB2r (a8 : FVec Ideal S128 .f32) : FVec Ideal S1x128 .f32 := shapeCast S1x128 a8 shapeCasts_S128_S1x128
def kB3r (a10 : FVec Ideal S1 .f32) : FVec Ideal S1x1 .f32 := shapeCast S1x1 a10 shapeCasts_S1_S1x1

/-! ## Read at an index -/

/-- A `[m, a, b]` array cut to its plane `l` and the unit axis dropped reads, at `(i, j)`, the array at `(l, i, j)`. -/
theorem plane_apply {α : Type} {m a b : ℕ} (o : ℕ) (X : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (l : Fin m) (hl : l.val = o) (i : Fin a) (j : Fin b) :
    shapeCast ⟨2, ![a, b]⟩ (extractStridedSlice ⟨3, ![1, a, b]⟩ ![o, 0, 0] X hs) hc (ix2 i j) = X (ix3 l i j) := by
  rw [shapeCast_1ab_ab_apply]
  exact extractStridedSlice_apply _ _ _ _ _ (fun ax => by
    match ax with
    | ⟨0, _⟩ => exact hl
    | ⟨1, _⟩ => exact (Nat.zero_add _).symm
    | ⟨2, _⟩ => exact (Nat.zero_add _).symm)

/-- An `[a]` array cast to a column reads, at `(i, 0)`, the array at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem kWl0_apply (a3 : FVec Ideal S4x128x128 .f32) (k d : Fin 128) : kWl0 a3 (ix2 k d) = a3 (ix3 (0 : Fin 4) k d) :=
  plane_apply 0 a3 _ _ 0 rfl k d
theorem kWl1_apply (a3 : FVec Ideal S4x128x128 .f32) (k d : Fin 128) : kWl1 a3 (ix2 k d) = a3 (ix3 (1 : Fin 4) k d) :=
  plane_apply 1 a3 _ _ 1 rfl k d
theorem kWl2_apply (a3 : FVec Ideal S4x128x128 .f32) (k d : Fin 128) : kWl2 a3 (ix2 k d) = a3 (ix3 (2 : Fin 4) k d) :=
  plane_apply 2 a3 _ _ 2 rfl k d
theorem kWl3_apply (a3 : FVec Ideal S4x128x128 .f32) (k d : Fin 128) : kWl3 a3 (ix2 k d) = a3 (ix3 (3 : Fin 4) k d) :=
  plane_apply 3 a3 _ _ 3 rfl k d

/-- Row `l` of a matrix cut out, flattened, and made a row again reads, at `(0, d)`, the matrix at `(l, d)`. -/
theorem row_apply {α : Type} {m a : ℕ} (o : ℕ) (X : (⟨2, ![m, a]⟩ : Shape).Idx → α)
    (hs : (⟨2, ![m, a]⟩ : Shape).Slices ![o, 0] ⟨2, ![1, a]⟩)
    (h1 : (⟨2, ![1, a]⟩ : Shape).ShapeCasts ⟨1, ![a]⟩) (h2 : (⟨1, ![a]⟩ : Shape).ShapeCasts ⟨2, ![1, a]⟩)
    (l : Fin m) (hl : l.val = o) (u : Fin 1) (d : Fin a) :
    shapeCast ⟨2, ![1, a]⟩ (shapeCast ⟨1, ![a]⟩ (extractStridedSlice ⟨2, ![1, a]⟩ ![o, 0] X hs) h1) h2 (ix2 u d) = X (ix2 l d) := by
  rw [shapeCast_a_1a_apply, shapeCast_1a_a_apply]
  exact slice2_axis0_apply o X hs 0 d l (by rw [hl]; rfl)

theorem kBrow0_apply (a4 : FVec Ideal S4x128 .f32) (d : Fin 128) : kBrow0 a4 (ix2 (0 : Fin 1) d) = a4 (ix2 (0 : Fin 4) d) :=
  row_apply 0 a4 _ _ _ 0 rfl 0 d
theorem kBrow1_apply (a4 : FVec Ideal S4x128 .f32) (d : Fin 128) : kBrow1 a4 (ix2 (0 : Fin 1) d) = a4 (ix2 (1 : Fin 4) d) :=
  row_apply 1 a4 _ _ _ 1 rfl 0 d
theorem kBrow2_apply (a4 : FVec Ideal S4x128 .f32) (d : Fin 128) : kBrow2 a4 (ix2 (0 : Fin 1) d) = a4 (ix2 (2 : Fin 4) d) :=
  row_apply 2 a4 _ _ _ 2 rfl 0 d
theorem kBrow3_apply (a4 : FVec Ideal S4x128 .f32) (d : Fin 128) : kBrow3 a4 (ix2 (0 : Fin 1) d) = a4 (ix2 (3 : Fin 4) d) :=
  row_apply 3 a4 _ _ _ 3 rfl 0 d

theorem kBtC_apply (a2 : IVec S100000 32) (n : Fin 100000) : kBtC a2 (ix2 n (0 : Fin 1)) = a2 (ix1 n) :=
  column_apply a2 _ n 0
theorem kDinvC_apply (a1 : IVec S2x640000 32) (n : Fin 100000) : kDinvC a1 (ix2 n (0 : Fin 1)) = kDinv a1 (ix1 n) :=
  column_apply (kDinv a1) _ n 0

theorem kB1r_apply (a6 : FVec Ideal S128 .f32) (d : Fin 128) : kB1r a6 (ix2 (0 : Fin 1) d) = a6 (ix1 d) :=
  shapeCast_a_1a_apply a6 _ 0 d
theorem kB2r_apply (a8 : FVec Ideal S128 .f32) (d : Fin 128) : kB2r a8 (ix2 (0 : Fin 1) d) = a8 (ix1 d) :=
  shapeCast_a_1a_apply a8 _ 0 d
theorem kB3r_apply (a10 : FVec Ideal S1 .f32) : kB3r a10 (ix2 (0 : Fin 1) (0 : Fin 1)) = a10 (ix1 (0 : Fin 1)) :=
  shapeCast_a_1a_apply a10 _ 0 0

theorem kPooled_apply (P : FVec Ideal S2x512x128 .f32) (g : Fin 512) (d : Fin 128) :
    kPooled P (ix2 g d) = P (ix3 (0 : Fin 2) g d) + P (ix3 (1 : Fin 2) g d) := by
  unfold kPooled
  rw [addf_apply, plane_apply 0 P _ _ 0 rfl g d, plane_apply 1 P _ _ 1 rfl g d]

/-- The broadcast of the zero literal reads `0` everywhere. -/
theorem zeros_apply {t : Shape} (h : S_.BroadcastsInDim t (![] : Fin 0 → Fin t.rank)) (j : t.Idx) :
    broadcastInDim t ![] h (constant (F := Ideal) S_ .f32 0x00000000#32) j = (0 : EReal) := by
  rw [broadcastInDim_apply ![] h _ j ix0 (fun a => a.elim0), constant_apply, Ideal.ofBits_zero_f32]

/-- An edge is among those that land on `n` exactly when its scatter word, read signed, is `n`. -/
theorem mem_into (sI : Fin 740000 → BitVec 32) (n : Fin 100000) (e : Fin 740000) :
    e ∈ GCN.into sI n ↔ (sI e).toInt = (n.val : ℤ) :=
  (Finset.mem_filter (s := Finset.univ) (p := fun e => GCN.lands sI e n)).trans (and_iff_right (Finset.mem_univ e))

/-- A sum over the edges whose word read signed is `n` is a sum over the edges that land on `n`. -/
theorem sum_into (sI : Fin 740000 → BitVec 32) (n : Fin 100000) (f : Fin 740000 → EReal) :
    ∑ e ∈ Finset.univ.filter (fun e : Fin 740000 => (sI e).toInt = (n.val : ℤ)), f e = ∑ e ∈ GCN.into sI n, f e :=
  Finset.sum_congr (Finset.ext fun e =>
    (Finset.mem_filter.trans (and_iff_right (Finset.mem_univ e))).trans (mem_into sI n e).symm) fun _ _ => rfl

/-- The accumulating row scatter of this program read at `(n, d)`. -/
theorem scat_apply (sI : IVec S740000x1 32) (x : FVec Ideal S100000x128 .f32) (upd : FVec Ideal S740000x128 .f32)
    (n : Fin 100000) (d : Fin 128) :
    (Host.scatterAdd scatter_S100000x128_S740000x1_S740000x128_1_0_0_1 x sI upd : FVec Ideal S100000x128 .f32) (ix2 n d)
      = x (ix2 n d) + ∑ e ∈ Finset.univ.filter (fun e : Fin 740000 => (sI (ix2 e (0 : Fin 1))).toInt = (n.val : ℤ)), upd (ix2 e d) :=
  LibGatherScatter.scatterAdd_rows_apply (N := 100000) (E := 740000) (D := 128)
    scatter_S100000x128_S740000x1_S740000x128_1_0_0_1.wf x sI upd n d

/-- The row gather of this program, widened, read at `(e, d)`. -/
theorem gath_apply (gS : IVec S740000x1 32) (HW : FVec Ideal S100000x128 .bf16) (e : Fin 740000) (d : Fin 128) :
    (extf .f32 (Host.gather gather_S100000x128_S740000x1_S740000x128_1_0_n_n_0_1_1128 HW gS) bitsLt_bf16_f32
        : FVec Ideal S740000x128 .f32) (ix2 e d)
      = HW (ix2 (GCN.srow (fun e => gS (ix2 e (0 : Fin 1))) e) d) :=
  LibGatherScatter.gather_rows_apply (N := 100000) (E := 740000) (D := 128) (by decide)
    gather_S100000x128_S740000x1_S740000x128_1_0_n_n_0_1_1128.wf HW gS e d

/-- The aggregation over any two index columns, read at `(n, d)`: the sum, over the edges whose scatter word read
    signed is `n`, of row `gather word, clamped` of `HW` at column `d`: the scatter starts from zero, and widening
    changes no value. -/
theorem agg_apply (sI gS : IVec S740000x1 32) (HW : FVec Ideal S100000x128 .bf16) (n : Fin 100000) (d : Fin 128) :
    (Host.scatterAdd scatter_S100000x128_S740000x1_S740000x128_1_0_0_1
        (broadcastInDim S100000x128 ![] bcast_S_S100000x128 (constant (F := Ideal) S_ .f32 0x00000000#32)) sI
        (extf .f32 (Host.gather gather_S100000x128_S740000x1_S740000x128_1_0_n_n_0_1_1128 HW gS) bitsLt_bf16_f32)
          : FVec Ideal S100000x128 .f32) (ix2 n d)
      = GCN.kAgg (fun e => sI (ix2 e (0 : Fin 1))) (fun e => gS (ix2 e (0 : Fin 1))) (fun n k => HW (ix2 n k)) n d := by
  refine (scat_apply sI _ _ n d).trans ?_
  rw [zeros_apply, zero_add]
  refine (sum_into (fun e => sI (ix2 e (0 : Fin 1))) n _).trans ?_
  exact Finset.sum_congr rfl fun e _ => gath_apply gS HW e d

/-- THE AGGREGATION BETWEEN TWO LAYERS READ AT `(n, d)`. -/
theorem kAggArr_apply (a1 : IVec S2x640000 32) (HW : FVec Ideal S100000x128 .bf16) (n : Fin 100000) (d : Fin 128) :
    kAggArr a1 HW (ix2 n d)
      = GCN.kAgg (fun e => kSIc a1 (ix2 e (0 : Fin 1))) (fun e => kGSc a1 (ix2 e (0 : Fin 1))) (fun n k => HW (ix2 n k)) n d :=
  agg_apply (kSIc a1) (kGSc a1) HW n d

end Cert.KernelIdeal.KHost

end
-- ==== Proof.KHostS.lean ====
/-
  The kernel's host stretches, one at a time, over any buffer contents `X` at the stretch's start.

  For each of the eight stretches of host operations between the launch and region 5: the references it writes
  (so every other buffer is kept), and what it leaves in each buffer a region will read, as the array terms of
  KData.lean applied to the contents `X` holds at the buffers the stretch reads. Nothing here looks at how `X` came
  about: the boundaries before are never opened.
-/
import proofs.«413796_j23914377904291_2_alg».proof.Proof.KData
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.ValueIdx

/-! ## What the host stretches write, and what they therefore keep

Per stretch: the references its operations write, listed; every operation's result is in the list; so a reference
outside the list holds after the stretch what it held before, whatever the contents `X` at the stretch's start. -/

/-- The references the first stretch writes. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem writes0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep0 (X : Valuation τ sig (Elt Ideal)) (r : Ref sig .tc) (h : r ∉ wr0) :
    StableHlo.after hostOps0 X (Proc.devRef .tc r) = X (Proc.devRef .tc r) :=
  StableHlo.after_of_writes_sub hostOps0 X writes0 h

/-- The references the second stretch writes. -/
abbrev wr01 : List (Ref sig .tc) := [main_call0_v0, main_call0_v1, main_v14]
theorem writes01 : (hostOps0_1 : List (HloOp τ sig (Elt Ideal))).Forall fun op => op.writes ⊆ (wr01.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep01 (X : Valuation τ sig (Elt Ideal)) (r : Ref sig .tc) (h : r ∉ wr01) :
    StableHlo.after hostOps0_1 X (Proc.devRef .tc r) = X (Proc.devRef .tc r) :=
  StableHlo.after_of_writes_sub hostOps0_1 X writes01 h

/-- The references the stretch before region 0 writes. -/
abbrev wr02 : List (Ref sig .tc) := [main_v15, main_v16, main_v17]
theorem writes02 : (hostOps0_2 : List (HloOp τ sig (Elt Ideal))).Forall fun op => op.writes ⊆ (wr02.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep02 (X : Valuation τ sig (Elt Ideal)) (r : Ref sig .tc) (h : r ∉ wr02) :
    StableHlo.after hostOps0_2 X (Proc.devRef .tc r) = X (Proc.devRef .tc r) :=
  StableHlo.after_of_writes_sub hostOps0_2 X writes02 h

/-- The references the stretch before region 1 writes. -/
abbrev wr1 : List (Ref sig .tc) := [main_c, main_v19, main_v20, main_c_3, main_v21, main_v22, main_v23, main_v24, main_v25, main_v26, main_cst_4, main_v27, main_v28, main_v29, main_v30, main_v31, main_v32, main_v33, main_v34]
theorem writes1 : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep1 (X : Valuation τ sig (Elt Ideal)) (r : Ref sig .tc) (h : r ∉ wr1) :
    StableHlo.after hostOps1 X (Proc.devRef .tc r) = X (Proc.devRef .tc r) :=
  StableHlo.after_of_writes_sub hostOps1 X writes1 h

/-- The references the stretch before region 2 writes. -/
abbrev wr2 : List (Ref sig .tc) := [main_c_5, main_v36, main_v37, main_c_6, main_v38, main_v39, main_v40, main_v41, main_v42, main_v43, main_cst_7, main_v44, main_v45, main_v46, main_v47, main_v48, main_v49, main_v50, main_v51]
theorem writes2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep2 (X : Valuation τ sig (Elt Ideal)) (r : Ref sig .tc) (h : r ∉ wr2) :
    StableHlo.after hostOps2 X (Proc.devRef .tc r) = X (Proc.devRef .tc r) :=
  StableHlo.after_of_writes_sub hostOps2 X writes2 h

/-- The references the stretch before region 3 writes. -/
abbrev wr3 : List (Ref sig .tc) := [main_c_8, main_v53, main_v54, main_c_9, main_v55, main_v56, main_v57, main_v58, main_v59, main_v60, main_cst_10, main_v61, main_v62, main_v63, main_v64, main_v65, main_v66, main_v67, main_v68]
theorem writes3 : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep3 (X : Valuation τ sig (Elt Ideal)) (r : Ref sig .tc) (h : r ∉ wr3) :
    StableHlo.after hostOps3 X (Proc.devRef .tc r) = X (Proc.devRef .tc r) :=
  StableHlo.after_of_writes_sub hostOps3 X writes3 h

/-- The references the stretch before region 4 writes. -/
abbrev wr4 : List (Ref sig .tc) := [main_c_11, main_v70, main_v71, main_c_12, main_v72, main_v73, main_v74, main_v75, main_v76, main_v77, main_cst_13, main_v78, main_v79, main_v80, main_v81, main_v82, main_v83, main_v84]
theorem writes4 : (hostOps4 : List (HloOp τ sig (Elt Ideal))).Forall fun op => op.writes ⊆ (wr4.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep4 (X : Valuation τ sig (Elt Ideal)) (r : Ref sig .tc) (h : r ∉ wr4) :
    StableHlo.after hostOps4 X (Proc.devRef .tc r) = X (Proc.devRef .tc r) :=
  StableHlo.after_of_writes_sub hostOps4 X writes4 h

/-- The references the stretch before region 5 writes. -/
abbrev wr5 : List (Ref sig .tc) := [main_v86, main_v87, main_v88, main_v89, main_v90, main_v91, main_v92, main_v93]
theorem writes5 : (hostOps5 : List (HloOp τ sig (Elt Ideal))).Forall fun op => op.writes ⊆ (wr5.map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem keep5 (X : Valuation τ sig (Elt Ideal)) (r : Ref sig .tc) (h : r ∉ wr5) :
    StableHlo.after hostOps5 X (Proc.devRef .tc r) = X (Proc.devRef .tc r) :=
  StableHlo.after_of_writes_sub hostOps5 X writes5 h

/-! ## What each host stretch leaves, over any contents `X` at its start -/

theorem h0_v3 (X : Valuation τ sig (Elt Ideal)) :
    StableHlo.after hostOps0 X (Proc.devRef .tc main_v3) = kSrc (X (Proc.devRef .tc main_arg1)) := by
  after_results; rfl
theorem h0_v6 (X : Valuation τ sig (Elt Ideal)) :
    StableHlo.after hostOps0 X (Proc.devRef .tc main_v6) = kDst (X (Proc.devRef .tc main_arg1)) := by
  after_results; rfl
theorem h0_v12 (X : Valuation τ sig (Elt Ideal)) :
    StableHlo.after hostOps0 X (Proc.devRef .tc main_v12) = cmpf .ogt (kDeg (X (Proc.devRef .tc main_arg1))) (broadcastInDim S100000 ![] bcast_S_S100000 (constant (F := Ideal) S_ .f32 0x00000000#32)) := by
  after_results; rfl
theorem h0_v13 (X : Valuation τ sig (Elt Ideal)) :
    StableHlo.after hostOps0 X (Proc.devRef .tc main_v13) = Host.rsqrt (kDeg (X (Proc.devRef .tc main_arg1))) := by
  after_results; rfl
theorem h0_cst2 (X : Valuation τ sig (Elt Ideal)) :
    StableHlo.after hostOps0 X (Proc.devRef .tc main_cst_2) = constant (F := Ideal) S_ .f32 0x00000000#32 := by
  after_results
theorem h01_v14 (X : Valuation τ sig (Elt Ideal)) :
    StableHlo.after hostOps0_1 X (Proc.devRef .tc main_v14)
      = select (X (Proc.devRef .tc main_v12)) (X (Proc.devRef .tc main_v13)) (broadcastInDim S100000 ![] bcast_S_S100000 (X (Proc.devRef .tc main_cst_2))) := by
  after_results; rfl
theorem h02_v15 (X : Valuation τ sig (Elt Ideal)) :
    StableHlo.after hostOps0_2 X (Proc.devRef .tc main_v15) = shapeCast S100000x1 (X (Proc.devRef .tc main_v14)) shapeCasts_S100000_S100000x1 := by
  after_results; rfl
theorem h02_v17 (X : Valuation τ sig (Elt Ideal)) :
    StableHlo.after hostOps0_2 X (Proc.devRef .tc main_v17) = kWl0 (X (Proc.devRef .tc main_arg3)) := by
  after_results; rfl

theorem h1_agg (X : Valuation τ sig (Elt Ideal)) :
    StableHlo.after hostOps1 X (Proc.devRef .tc main_v29) = aggOf (X (Proc.devRef .tc main_v3)) (X (Proc.devRef .tc main_v6)) (X (Proc.devRef .tc main_v18)) := by
  after_results_simp; rfl
theorem h1_brow (X : Valuation τ sig (Elt Ideal)) :
    StableHlo.after hostOps1 X (Proc.devRef .tc main_v34) = kBrow0 (X (Proc.devRef .tc main_arg4)) := by
  after_results; rfl
theorem h1_wl (X : Valuation τ sig (Elt Ideal)) :
    StableHlo.after hostOps1 X (Proc.devRef .tc main_v33) = kWl1 (X (Proc.devRef .tc main_arg3)) := by
  after_results; rfl

theorem h2_agg (X : Valuation τ sig (Elt Ideal)) :
    StableHlo.after hostOps2 X (Proc.devRef .tc main_v46) = aggOf (X (Proc.devRef .tc main_v3)) (X (Proc.devRef .tc main_v6)) (X (Proc.devRef .tc main_v35)) := by
  after_results_simp; rfl
theorem h2_brow (X : Valuation τ sig (Elt Ideal)) :
    StableHlo.after hostOps2 X (Proc.devRef .tc main_v51) = kBrow1 (X (Proc.devRef .tc main_arg4)) := by
  after_results; rfl
theorem h2_wl (X : Valuation τ sig (Elt Ideal)) :
    StableHlo.after hostOps2 X (Proc.devRef .tc main_v50) = kWl2 (X (Proc.devRef .tc main_arg3)) := by
  after_results; rfl

theorem h3_agg (X : Valuation τ sig (Elt Ideal)) :
    StableHlo.after hostOps3 X (Proc.devRef .tc main_v63) = aggOf (X (Proc.devRef .tc main_v3)) (X (Proc.devRef .tc main_v6)) (X (Proc.devRef .tc main_v52)) := by
  after_results_simp; rfl
theorem h3_brow (X : Valuation τ sig (Elt Ideal)) :
    StableHlo.after hostOps3 X (Proc.devRef .tc main_v68) = kBrow2 (X (Proc.devRef .tc main_arg4)) := by
  after_results; rfl
theorem h3_wl (X : Valuation τ sig (Elt Ideal)) :
    StableHlo.after hostOps3 X (Proc.devRef .tc main_v67) = kWl3 (X (Proc.devRef .tc main_arg3)) := by
  after_results; rfl

theorem h4_agg (X : Valuation τ sig (Elt Ideal)) :
    StableHlo.after hostOps4 X (Proc.devRef .tc main_v80) = aggOf (X (Proc.devRef .tc main_v3)) (X (Proc.devRef .tc main_v6)) (X (Proc.devRef .tc main_v69)) := by
  after_results_simp; rfl
theorem h4_brow (X : Valuation τ sig (Elt Ideal)) :
    StableHlo.after hostOps4 X (Proc.devRef .tc main_v83) = kBrow3 (X (Proc.devRef .tc main_arg4)) := by
  after_results; rfl

theorem h4_bt (X : Valuation τ sig (Elt Ideal)) :
    StableHlo.after hostOps4 X (Proc.devRef .tc main_v84) = kBtC (X (Proc.devRef .tc main_arg2)) := by
  after_results; rfl
theorem h5_pool (X : Valuation τ sig (Elt Ideal)) :
    StableHlo.after hostOps5 X (Proc.devRef .tc main_v90) = kPooled (X (Proc.devRef .tc main_v85)) := by
  after_results; rfl
theorem h5_b1 (X : Valuation τ sig (Elt Ideal)) :
    StableHlo.after hostOps5 X (Proc.devRef .tc main_v91) = kB1r (X (Proc.devRef .tc main_arg6)) := by
  after_results; rfl
theorem h5_b2 (X : Valuation τ sig (Elt Ideal)) :
    StableHlo.after hostOps5 X (Proc.devRef .tc main_v92) = kB2r (X (Proc.devRef .tc main_arg8)) := by
  after_results; rfl
theorem h5_b3 (X : Valuation τ sig (Elt Ideal)) :
    StableHlo.after hostOps5 X (Proc.devRef .tc main_v93) = kB3r (X (Proc.devRef .tc main_arg10)) := by
  after_results; rfl

end Cert.KernelIdeal.KHost

end
-- ==== Proof.KHost.lean ====
/-
  What each of the kernel's six regions finds in its input arrays, as equations between arrays.

  The buffer contents at the fifteen boundaries `W0 … W14` are a fold from the launch memory: a host stretch rewrites
  the buffers it writes, a region its output arrays. Each argument array and each array computed once from the edge
  list (the source and destination words, the inverse square root of the degree as a column) is carried, boundary by
  boundary, to the stretch or the region that reads it; each stretch's results are then the array terms of KData.lean
  at those contents. The entry equations `ent0 … ent5` name region `r`'s input arrays at its entry boundary.
-/
import proofs.«413796_j23914377904291_2_alg».proof.Proof.KHostS

set_option maxRecDepth 16384

noncomputable section

namespace Cert.KernelIdeal.KHost

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg)

/-- The keep step: the buffer is outside the list of references the stretch writes. -/
macro "keep_host " k:ident : tactic => `(tactic| exact $k:ident _ _ (by decide))

/-! ## The arguments and the edge words carried from boundary to boundary

`Wk_b`: what buffer `b` holds at boundary `k`. A host stretch that does not write `b` keeps it; a region keeps
every buffer that is none of its arrays, and each of its input arrays. -/

theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by keep_host keep0).trans (W0_arg0 m ρ c)
theorem W2_arg0 (c : Dev nD) : W2 m ρ c (Proc.devRef .tc main_arg0) = m ((c : Thread nD τ).loc main_arg0) :=
  (show W2 m ρ c (Proc.devRef .tc main_arg0) = W1 m ρ c (Proc.devRef .tc main_arg0) by keep_host keep01).trans (W1_arg0 m ρ c)
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) by keep_host keep02).trans (W2_arg0 m ρ c)

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by keep_host keep0).trans (W0_arg3 m ρ c)
theorem W2_arg3 (c : Dev nD) : W2 m ρ c (Proc.devRef .tc main_arg3) = m ((c : Thread nD τ).loc main_arg3) :=
  (show W2 m ρ c (Proc.devRef .tc main_arg3) = W1 m ρ c (Proc.devRef .tc main_arg3) by keep_host keep01).trans (W1_arg3 m ρ c)
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by keep_host keep02).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) by keep_host keep1).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W7_arg3 (c : Dev nD) : W7 m ρ c (Proc.devRef .tc main_arg3) = m ((c : Thread nD τ).loc main_arg3) :=
  (show W7 m ρ c (Proc.devRef .tc main_arg3) = W6 m ρ c (Proc.devRef .tc main_arg3) by keep_host keep2).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)

theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by keep_host keep0).trans (W0_arg4 m ρ c)
theorem W2_arg4 (c : Dev nD) : W2 m ρ c (Proc.devRef .tc main_arg4) = m ((c : Thread nD τ).loc main_arg4) :=
  (show W2 m ρ c (Proc.devRef .tc main_arg4) = W1 m ρ c (Proc.devRef .tc main_arg4) by keep_host keep01).trans (W1_arg4 m ρ c)
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) by keep_host keep02).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) by keep_host keep1).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W7_arg4 (c : Dev nD) : W7 m ρ c (Proc.devRef .tc main_arg4) = m ((c : Thread nD τ).loc main_arg4) :=
  (show W7 m ρ c (Proc.devRef .tc main_arg4) = W6 m ρ c (Proc.devRef .tc main_arg4) by keep_host keep2).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W9_arg4 (c : Dev nD) : W9 m ρ c (Proc.devRef .tc main_arg4) = m ((c : Thread nD τ).loc main_arg4) :=
  (show W9 m ρ c (Proc.devRef .tc main_arg4) = W8 m ρ c (Proc.devRef .tc main_arg4) by keep_host keep3).trans (W8_arg4 m ρ c)
theorem W10_arg4 (c : Dev nD) : W10 m ρ c (Proc.devRef .tc main_arg4) = m ((c : Thread nD τ).loc main_arg4) :=
  (W10_of_ne m ρ c main_arg4 (by decide)).trans (W9_arg4 m ρ c)

/-- The source words, as the first stretch leaves them. -/
theorem W1_v3 (c : Dev nD) : W1 m ρ c (Proc.devRef .tc main_v3) = kSrc (m ((c : Thread nD τ).loc main_arg1)) := h0_v3 (W0 m ρ c)
theorem W2_v3 (c : Dev nD) : W2 m ρ c (Proc.devRef .tc main_v3) = kSrc (m ((c : Thread nD τ).loc main_arg1)) :=
  (show W2 m ρ c (Proc.devRef .tc main_v3) = W1 m ρ c (Proc.devRef .tc main_v3) by keep_host keep01).trans (W1_v3 m ρ c)
theorem W3_v3 (c : Dev nD) : W3 m ρ c (Proc.devRef .tc main_v3) = kSrc (m ((c : Thread nD τ).loc main_arg1)) :=
  (show W3 m ρ c (Proc.devRef .tc main_v3) = W2 m ρ c (Proc.devRef .tc main_v3) by keep_host keep02).trans (W2_v3 m ρ c)
theorem W4_v3 (c : Dev nD) : W4 m ρ c (Proc.devRef .tc main_v3) = kSrc (m ((c : Thread nD τ).loc main_arg1)) :=
  (W4_of_ne m ρ c main_v3 (by decide)).trans (W3_v3 m ρ c)
theorem W5_v3 (c : Dev nD) : W5 m ρ c (Proc.devRef .tc main_v3) = kSrc (m ((c : Thread nD τ).loc main_arg1)) :=
  (show W5 m ρ c (Proc.devRef .tc main_v3) = W4 m ρ c (Proc.devRef .tc main_v3) by keep_host keep1).trans (W4_v3 m ρ c)
theorem W6_v3 (c : Dev nD) : W6 m ρ c (Proc.devRef .tc main_v3) = kSrc (m ((c : Thread nD τ).loc main_arg1)) :=
  (W6_of_ne m ρ c main_v3 (by decide)).trans (W5_v3 m ρ c)
theorem W7_v3 (c : Dev nD) : W7 m ρ c (Proc.devRef .tc main_v3) = kSrc (m ((c : Thread nD τ).loc main_arg1)) :=
  (show W7 m ρ c (Proc.devRef .tc main_v3) = W6 m ρ c (Proc.devRef .tc main_v3) by keep_host keep2).trans (W6_v3 m ρ c)
theorem W8_v3 (c : Dev nD) : W8 m ρ c (Proc.devRef .tc main_v3) = kSrc (m ((c : Thread nD τ).loc main_arg1)) :=
  (W8_of_ne m ρ c main_v3 (by decide)).trans (W7_v3 m ρ c)
theorem W9_v3 (c : Dev nD) : W9 m ρ c (Proc.devRef .tc main_v3) = kSrc (m ((c : Thread nD τ).loc main_arg1)) :=
  (show W9 m ρ c (Proc.devRef .tc main_v3) = W8 m ρ c (Proc.devRef .tc main_v3) by keep_host keep3).trans (W8_v3 m ρ c)
theorem W10_v3 (c : Dev nD) : W10 m ρ c (Proc.devRef .tc main_v3) = kSrc (m ((c : Thread nD τ).loc main_arg1)) :=
  (W10_of_ne m ρ c main_v3 (by decide)).trans (W9_v3 m ρ c)

/-- The destination words, as the first stretch leaves them. -/
theorem W1_v6 (c : Dev nD) : W1 m ρ c (Proc.devRef .tc main_v6) = kDst (m ((c : Thread nD τ).loc main_arg1)) := h0_v6 (W0 m ρ c)
theorem W2_v6 (c : Dev nD) : W2 m ρ c (Proc.devRef .tc main_v6) = kDst (m ((c : Thread nD τ).loc main_arg1)) :=
  (show W2 m ρ c (Proc.devRef .tc main_v6) = W1 m ρ c (Proc.devRef .tc main_v6) by keep_host keep01).trans (W1_v6 m ρ c)
theorem W3_v6 (c : Dev nD) : W3 m ρ c (Proc.devRef .tc main_v6) = kDst (m ((c : Thread nD τ).loc main_arg1)) :=
  (show W3 m ρ c (Proc.devRef .tc main_v6) = W2 m ρ c (Proc.devRef .tc main_v6) by keep_host keep02).trans (W2_v6 m ρ c)
theorem W4_v6 (c : Dev nD) : W4 m ρ c (Proc.devRef .tc main_v6) = kDst (m ((c : Thread nD τ).loc main_arg1)) :=
  (W4_of_ne m ρ c main_v6 (by decide)).trans (W3_v6 m ρ c)
theorem W5_v6 (c : Dev nD) : W5 m ρ c (Proc.devRef .tc main_v6) = kDst (m ((c : Thread nD τ).loc main_arg1)) :=
  (show W5 m ρ c (Proc.devRef .tc main_v6) = W4 m ρ c (Proc.devRef .tc main_v6) by keep_host keep1).trans (W4_v6 m ρ c)
theorem W6_v6 (c : Dev nD) : W6 m ρ c (Proc.devRef .tc main_v6) = kDst (m ((c : Thread nD τ).loc main_arg1)) :=
  (W6_of_ne m ρ c main_v6 (by decide)).trans (W5_v6 m ρ c)
theorem W7_v6 (c : Dev nD) : W7 m ρ c (Proc.devRef .tc main_v6) = kDst (m ((c : Thread nD τ).loc main_arg1)) :=
  (show W7 m ρ c (Proc.devRef .tc main_v6) = W6 m ρ c (Proc.devRef .tc main_v6) by keep_host keep2).trans (W6_v6 m ρ c)
theorem W8_v6 (c : Dev nD) : W8 m ρ c (Proc.devRef .tc main_v6) = kDst (m ((c : Thread nD τ).loc main_arg1)) :=
  (W8_of_ne m ρ c main_v6 (by decide)).trans (W7_v6 m ρ c)
theorem W9_v6 (c : Dev nD) : W9 m ρ c (Proc.devRef .tc main_v6) = kDst (m ((c : Thread nD τ).loc main_arg1)) :=
  (show W9 m ρ c (Proc.devRef .tc main_v6) = W8 m ρ c (Proc.devRef .tc main_v6) by keep_host keep3).trans (W8_v6 m ρ c)
theorem W10_v6 (c : Dev nD) : W10 m ρ c (Proc.devRef .tc main_v6) = kDst (m ((c : Thread nD τ).loc main_arg1)) :=
  (W10_of_ne m ρ c main_v6 (by decide)).trans (W9_v6 m ρ c)

/-- The inverse square root of the degree: the three stretches before region 0, one after the other. -/
theorem W2_v14 (c : Dev nD) : W2 m ρ c (Proc.devRef .tc main_v14) = kDinv (m ((c : Thread nD τ).loc main_arg1)) := by
  refine (h01_v14 (W1 m ρ c)).trans ?_
  rw [show W1 m ρ c (Proc.devRef .tc main_v12) = _ from h0_v12 (W0 m ρ c), show W1 m ρ c (Proc.devRef .tc main_v13) = _ from h0_v13 (W0 m ρ c),
    show W1 m ρ c (Proc.devRef .tc main_cst_2) = _ from h0_cst2 (W0 m ρ c)]
  rfl
theorem W3_v15 (c : Dev nD) : W3 m ρ c (Proc.devRef .tc main_v15) = kDinvC (m ((c : Thread nD τ).loc main_arg1)) :=
  (h02_v15 (W2 m ρ c)).trans (congrArg (fun x => shapeCast S100000x1 x shapeCasts_S100000_S100000x1) (W2_v14 m ρ c))
theorem W4_v15 (c : Dev nD) : W4 m ρ c (Proc.devRef .tc main_v15) = kDinvC (m ((c : Thread nD τ).loc main_arg1)) :=
  ((W4_arr m ρ c 2).trans (((dat0 (V3 m ρ) c).arrAt_in 2 rfl _).trans (A_eq0 (V3 m ρ) c 2))).trans (W3_v15 m ρ c)
theorem W5_v15 (c : Dev nD) : W5 m ρ c (Proc.devRef .tc main_v15) = kDinvC (m ((c : Thread nD τ).loc main_arg1)) :=
  (show W5 m ρ c (Proc.devRef .tc main_v15) = W4 m ρ c (Proc.devRef .tc main_v15) by keep_host keep1).trans (W4_v15 m ρ c)
theorem W6_v15 (c : Dev nD) : W6 m ρ c (Proc.devRef .tc main_v15) = kDinvC (m ((c : Thread nD τ).loc main_arg1)) :=
  ((W6_arr m ρ c 1).trans (((dat1 (V5 m ρ) c).arrAt_in 1 rfl _).trans (A_eq1 (V5 m ρ) c 1))).trans (W5_v15 m ρ c)
theorem W7_v15 (c : Dev nD) : W7 m ρ c (Proc.devRef .tc main_v15) = kDinvC (m ((c : Thread nD τ).loc main_arg1)) :=
  (show W7 m ρ c (Proc.devRef .tc main_v15) = W6 m ρ c (Proc.devRef .tc main_v15) by keep_host keep2).trans (W6_v15 m ρ c)
theorem W8_v15 (c : Dev nD) : W8 m ρ c (Proc.devRef .tc main_v15) = kDinvC (m ((c : Thread nD τ).loc main_arg1)) :=
  ((W8_arr m ρ c 1).trans (((dat2 (V7 m ρ) c).arrAt_in 1 rfl _).trans (A_eq2 (V7 m ρ) c 1))).trans (W7_v15 m ρ c)
theorem W9_v15 (c : Dev nD) : W9 m ρ c (Proc.devRef .tc main_v15) = kDinvC (m ((c : Thread nD τ).loc main_arg1)) :=
  (show W9 m ρ c (Proc.devRef .tc main_v15) = W8 m ρ c (Proc.devRef .tc main_v15) by keep_host keep3).trans (W8_v15 m ρ c)
theorem W10_v15 (c : Dev nD) : W10 m ρ c (Proc.devRef .tc main_v15) = kDinvC (m ((c : Thread nD τ).loc main_arg1)) :=
  ((W10_arr m ρ c 1).trans (((dat3 (V9 m ρ) c).arrAt_in 1 rfl _).trans (A_eq3 (V9 m ρ) c 1))).trans (W9_v15 m ρ c)
theorem W11_v15 (c : Dev nD) : W11 m ρ c (Proc.devRef .tc main_v15) = kDinvC (m ((c : Thread nD τ).loc main_arg1)) :=
  (show W11 m ρ c (Proc.devRef .tc main_v15) = W10 m ρ c (Proc.devRef .tc main_v15) by keep_host keep4).trans (W10_v15 m ρ c)

/-! The later arguments, read back from the last boundary, where each holds its launch contents. -/

theorem W10_arg2 (c : Dev nD) : W10 m ρ c (Proc.devRef .tc main_arg2) = m ((c : Thread nD τ).loc main_arg2) :=
  ((W14_of_ne m ρ c main_arg2 (by decide)).trans ((show W13 m ρ c (Proc.devRef .tc main_arg2) = W12 m ρ c (Proc.devRef .tc main_arg2) by keep_host keep5).trans ((W12_of_ne m ρ c main_arg2 (by decide)).trans (show W11 m ρ c (Proc.devRef .tc main_arg2) = W10 m ρ c (Proc.devRef .tc main_arg2) by keep_host keep4)))).symm.trans (W14_main_arg2 m ρ c)
theorem W12_arg6 (c : Dev nD) : W12 m ρ c (Proc.devRef .tc main_arg6) = m ((c : Thread nD τ).loc main_arg6) :=
  ((W14_of_ne m ρ c main_arg6 (by decide)).trans (show W13 m ρ c (Proc.devRef .tc main_arg6) = W12 m ρ c (Proc.devRef .tc main_arg6) by keep_host keep5)).symm.trans (W14_main_arg6 m ρ c)
theorem W12_arg8 (c : Dev nD) : W12 m ρ c (Proc.devRef .tc main_arg8) = m ((c : Thread nD τ).loc main_arg8) :=
  ((W14_of_ne m ρ c main_arg8 (by decide)).trans (show W13 m ρ c (Proc.devRef .tc main_arg8) = W12 m ρ c (Proc.devRef .tc main_arg8) by keep_host keep5)).symm.trans (W14_main_arg8 m ρ c)
theorem W12_arg10 (c : Dev nD) : W12 m ρ c (Proc.devRef .tc main_arg10) = m ((c : Thread nD τ).loc main_arg10) :=
  ((W14_of_ne m ρ c main_arg10 (by decide)).trans (show W13 m ρ c (Proc.devRef .tc main_arg10) = W12 m ρ c (Proc.devRef .tc main_arg10) by keep_host keep5)).symm.trans (W14_main_arg10 m ρ c)
theorem W13_arg5 (c : Dev nD) : W13 m ρ c (Proc.devRef .tc main_arg5) = m ((c : Thread nD τ).loc main_arg5) :=
  ((W14_arr m ρ c 1).trans (((dat5 (V13 m ρ) c).arrAt_in 1 rfl _).trans (A_eq5 (V13 m ρ) c 1))).symm.trans (W14_main_arg5 m ρ c)
theorem W13_arg7 (c : Dev nD) : W13 m ρ c (Proc.devRef .tc main_arg7) = m ((c : Thread nD τ).loc main_arg7) :=
  ((W14_arr m ρ c 3).trans (((dat5 (V13 m ρ) c).arrAt_in 3 rfl _).trans (A_eq5 (V13 m ρ) c 3))).symm.trans (W14_main_arg7 m ρ c)
theorem W13_arg9 (c : Dev nD) : W13 m ρ c (Proc.devRef .tc main_arg9) = m ((c : Thread nD τ).loc main_arg9) :=
  ((W14_arr m ρ c 5).trans (((dat5 (V13 m ρ) c).arrAt_in 5 rfl _).trans (A_eq5 (V13 m ρ) c 5))).symm.trans (W14_main_arg9 m ρ c)

/-! ## What each region finds in its input arrays -/

theorem ent0_arg0 (c : Dev nD) : V3 m ρ c main_arg0 = (m ((c : Thread nD τ).loc main_arg0)) := W3_arg0 m ρ c
theorem ent0_v17 (c : Dev nD) : V3 m ρ c main_v17 = kWl0 (m ((c : Thread nD τ).loc main_arg3)) :=
  (h02_v17 (W2 m ρ c)).trans (congrArg kWl0 (W2_arg3 m ρ c))
theorem ent0_v15 (c : Dev nD) : V3 m ρ c main_v15 = kDinvC (m ((c : Thread nD τ).loc main_arg1)) := W3_v15 m ρ c

theorem ent1_v29 (c : Dev nD) : V5 m ρ c main_v29 = kAggArr (m ((c : Thread nD τ).loc main_arg1)) (V4 m ρ c main_v18) :=
  (h1_agg (W4 m ρ c)).trans
    (congrArg₂ (fun s d => aggOf s d (W4 m ρ c (Proc.devRef .tc main_v18))) (W4_v3 m ρ c) (W4_v6 m ρ c))
theorem ent1_v15 (c : Dev nD) : V5 m ρ c main_v15 = kDinvC (m ((c : Thread nD τ).loc main_arg1)) := W5_v15 m ρ c
theorem ent1_v34 (c : Dev nD) : V5 m ρ c main_v34 = kBrow0 (m ((c : Thread nD τ).loc main_arg4)) :=
  (h1_brow (W4 m ρ c)).trans (congrArg kBrow0 (W4_arg4 m ρ c))
theorem ent1_v33 (c : Dev nD) : V5 m ρ c main_v33 = kWl1 (m ((c : Thread nD τ).loc main_arg3)) :=
  (h1_wl (W4 m ρ c)).trans (congrArg kWl1 (W4_arg3 m ρ c))

theorem ent2_v46 (c : Dev nD) : V7 m ρ c main_v46 = kAggArr (m ((c : Thread nD τ).loc main_arg1)) (V6 m ρ c main_v35) :=
  (h2_agg (W6 m ρ c)).trans
    (congrArg₂ (fun s d => aggOf s d (W6 m ρ c (Proc.devRef .tc main_v35))) (W6_v3 m ρ c) (W6_v6 m ρ c))
theorem ent2_v15 (c : Dev nD) : V7 m ρ c main_v15 = kDinvC (m ((c : Thread nD τ).loc main_arg1)) := W7_v15 m ρ c
theorem ent2_v51 (c : Dev nD) : V7 m ρ c main_v51 = kBrow1 (m ((c : Thread nD τ).loc main_arg4)) :=
  (h2_brow (W6 m ρ c)).trans (congrArg kBrow1 (W6_arg4 m ρ c))
theorem ent2_v50 (c : Dev nD) : V7 m ρ c main_v50 = kWl2 (m ((c : Thread nD τ).loc main_arg3)) :=
  (h2_wl (W6 m ρ c)).trans (congrArg kWl2 (W6_arg3 m ρ c))

theorem ent3_v63 (c : Dev nD) : V9 m ρ c main_v63 = kAggArr (m ((c : Thread nD τ).loc main_arg1)) (V8 m ρ c main_v52) :=
  (h3_agg (W8 m ρ c)).trans
    (congrArg₂ (fun s d => aggOf s d (W8 m ρ c (Proc.devRef .tc main_v52))) (W8_v3 m ρ c) (W8_v6 m ρ c))
theorem ent3_v15 (c : Dev nD) : V9 m ρ c main_v15 = kDinvC (m ((c : Thread nD τ).loc main_arg1)) := W9_v15 m ρ c
theorem ent3_v68 (c : Dev nD) : V9 m ρ c main_v68 = kBrow2 (m ((c : Thread nD τ).loc main_arg4)) :=
  (h3_brow (W8 m ρ c)).trans (congrArg kBrow2 (W8_arg4 m ρ c))
theorem ent3_v67 (c : Dev nD) : V9 m ρ c main_v67 = kWl3 (m ((c : Thread nD τ).loc main_arg3)) :=
  (h3_wl (W8 m ρ c)).trans (congrArg kWl3 (W8_arg3 m ρ c))

theorem ent4_v80 (c : Dev nD) : V11 m ρ c main_v80 = kAggArr (m ((c : Thread nD τ).loc main_arg1)) (V10 m ρ c main_v69) :=
  (h4_agg (W10 m ρ c)).trans
    (congrArg₂ (fun s d => aggOf s d (W10 m ρ c (Proc.devRef .tc main_v69))) (W10_v3 m ρ c) (W10_v6 m ρ c))
theorem ent4_v15 (c : Dev nD) : V11 m ρ c main_v15 = kDinvC (m ((c : Thread nD τ).loc main_arg1)) := W11_v15 m ρ c
theorem ent4_v83 (c : Dev nD) : V11 m ρ c main_v83 = kBrow3 (m ((c : Thread nD τ).loc main_arg4)) :=
  (h4_brow (W10 m ρ c)).trans (congrArg kBrow3 (W10_arg4 m ρ c))

theorem ent4_v84 (c : Dev nD) : V11 m ρ c main_v84 = kBtC (m ((c : Thread nD τ).loc main_arg2)) :=
  (h4_bt (W10 m ρ c)).trans (congrArg kBtC (W10_arg2 m ρ c))

theorem ent5_v90 (c : Dev nD) : V13 m ρ c main_v90 = kPooled (V12 m ρ c main_v85) := h5_pool (W12 m ρ c)
theorem ent5_arg5 (c : Dev nD) : V13 m ρ c main_arg5 = (m ((c : Thread nD τ).loc main_arg5)) := W13_arg5 m ρ c
theorem ent5_v91 (c : Dev nD) : V13 m ρ c main_v91 = kB1r (m ((c : Thread nD τ).loc main_arg6)) :=
  (h5_b1 (W12 m ρ c)).trans (congrArg kB1r (W12_arg6 m ρ c))
theorem ent5_arg7 (c : Dev nD) : V13 m ρ c main_arg7 = (m ((c : Thread nD τ).loc main_arg7)) := W13_arg7 m ρ c
theorem ent5_v92 (c : Dev nD) : V13 m ρ c main_v92 = kB2r (m ((c : Thread nD τ).loc main_arg8)) :=
  (h5_b2 (W12 m ρ c)).trans (congrArg kB2r (W12_arg8 m ρ c))
theorem ent5_arg9 (c : Dev nD) : V13 m ρ c main_arg9 = (m ((c : Thread nD τ).loc main_arg9)) := W13_arg9 m ρ c
theorem ent5_v93 (c : Dev nD) : V13 m ρ c main_v93 = kB3r (m ((c : Thread nD τ).loc main_arg10)) :=
  (h5_b3 (W12 m ρ c)).trans (congrArg kB3r (W12_arg10 m ρ c))

end Cert.KernelIdeal.KHost

end
-- ==== Proof.KReg0.lean ====
/-
  Region 0 of the kernel, read at an index.

  Point `t` of the 50 takes rows `2000 t … 2000 t + 1999` of the node features `x` and of the scaling column `dvc`, and the
  whole weight `w`; it stores the tile's product with `w`, row `r` scaled by `dvc r`. On the extended reals the narrowing
  and widening of the format are the identity and the product into a zero accumulator is the plain sum over the 128
  contracted features. The 50 blocks tile the [100000,128] array, so it ends holding `GCN.kHW x w dvc`.
-/
import proofs.«413796_j23914377904291_2_alg».proof.Proof.Gen.KernelIdeal.Frame
import proofs.«413796_j23914377904291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx Idealize.ShloMosaic.TcCoe
open Idealize.ShloMosaic.Pipeline (Dat)

namespace Cert.KernelIdeal.RegVal

open Cert.KernelIdeal Cert.KernelIdeal.Gen

/-! ## The tile product: operand indices of the contraction, axis by axis -/

theorem dot0_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot0_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot0_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot0_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The tile product at an index: the sum over the 128 contracted features. -/
theorem mm0_apply (a : FVec Ideal S2000x128 .bf16) (b : FVec Ideal S128x128 .bf16) (r : Fin 2000) (d : Fin 128) :
    FloatOps.matmul (F := Ideal) dot_S2000x128_S128x128_S2000x128_1_0_0_1_n_n none a b (constant (F := Ideal) S2000x128 .f32 0x00000000#32) (ix2 r d)
      = ∑ k : Fin 128, a (ix2 r k) * b (ix2 k d) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r d) ((contrEquiv1 dot_S2000x128_S128x128_S2000x128_1_0_0_1_n_n 128 rfl rfl).symm k) = ix2 r k := funext fun a => Fin.ext (by
    match a with
    | ⟨0, _⟩ => exact dot0_lhs_0 _ _
    | ⟨1, _⟩ => exact (dot0_lhs_1 _ _).trans hk)
  have er : dot_S2000x128_S128x128_S2000x128_1_0_0_1_n_n.rhsIdx (ix2 r d) ((contrEquiv1 dot_S2000x128_S128x128_S2000x128_1_0_0_1_n_n 128 rfl rfl).symm k) = ix2 k d := funext fun a => Fin.ext (by
    match a with
    | ⟨0, _⟩ => exact (dot0_rhs_0 _ _).trans hk
    | ⟨1, _⟩ => exact dot0_rhs_1 _ _)
  rw [el, er]

/-- The body's stored value at row `r`, feature `d` of a tile: the tile's row times the weight's column, scaled by the row's factor. -/
theorem pay0_apply (x0 : Vec Ideal S2000x128 .f32) (x1 : Vec Ideal S128x128 .f32) (x2 : Vec Ideal S2000x1 .f32) (r : Fin 2000) (d : Fin 128) :
    k0_pay1 (F := Ideal) x0 x1 x2 (ix2 r d) = (∑ k : Fin 128, x0 (ix2 r k) * x1 (ix2 k d)) * x2 (ix2 r (0 : Fin 1)) := by
  unfold k0_pay1
  simp only [truncf_apply, mulf_apply, shapeCast_self, matmul]
  refine congrArg₂ (· * ·) ?_ ?_
  · refine (mm0_apply _ _ r d).trans ?_
    refine Finset.sum_congr rfl fun k _ => ?_
    rfl
  · refine broadcastTo_apply _ _ _ _ fun a => ?_
    match a with
    | ⟨0, _⟩ => rfl
    | ⟨1, _⟩ => rfl

/-! ## From the tiles to the array -/

theorem hz0 : (![0, 0] : Fin 2 → Nat) = fun _ => 0 := funext fun a => by fin_cases a <;> rfl

/-- Region 0's whole output: row `n` of `x w` scaled by `dvc n`. -/
def G0 (x : Vec Ideal S100000x128 .f32) (w : Vec Ideal S128x128 .f32) (dvc : Vec Ideal S100000x1 .f32) : Vec Ideal S100000x128 .bf16 :=
  fun i => GCN.kHW (fun n k => x (ix2 n k)) (fun k d => w (ix2 k d)) (fun n => dvc (ix2 n (0 : Fin 1))) ⟨(i 0).val, idx2_lt0 i⟩ ⟨(i 1).val, idx2_lt1 i⟩

/-- The block indices over the grid: point `t` holds row tile `t` of the node arrays, and the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A tile's stored value is the whole output's value at the tile's place: tile `q` holds rows `2000 q … 2000 q + 1999`. -/
theorem tile0_point (x : Vec Ideal S100000x128 .f32) (w : Vec Ideal S128x128 .f32) (dvc : Vec Ideal S100000x1 .f32)
    (x0 : Vec Ideal S2000x128 .f32) (x1 : Vec Ideal S128x128 .f32) (x2 : Vec Ideal S2000x1 .f32) (q : Nat)
    (h0 : ∀ (y : S2000x128.Idx) (i : S100000x128.Idx), (i 0).val = q * 2000 + (y 0).val → (i 1).val = (y 1).val → x0 y = x i)
    (h1 : ∀ y : S128x128.Idx, x1 y = w y)
    (h2 : ∀ (y : S2000x1.Idx) (i : S100000x1.Idx), (i 0).val = q * 2000 + (y 0).val → x2 y = dvc i)
    (j : S2000x128.Idx) (i : S100000x128.Idx) (hi0 : (i 0).val = q * 2000 + (j 0).val) (hi1 : (i 1).val = (j 1).val) :
    k0_pay1 (F := Ideal) x0 x1 x2 j = G0 x w dvc i := by
  have ej : j = ix2 (⟨(j 0).val, idx2_lt0 j⟩ : Fin 2000) (⟨(j 1).val, idx2_lt1 j⟩ : Fin 128) :=
    funext fun a => match a with | ⟨0, _⟩ => rfl | ⟨1, _⟩ => rfl
  have ed : (⟨(i 1).val, idx2_lt1 i⟩ : Fin 128) = ⟨(j 1).val, idx2_lt1 j⟩ := Fin.ext hi1
  refine (congrArg (k0_pay1 (F := Ideal) x0 x1 x2) ej).trans ?_
  refine (pay0_apply x0 x1 x2 _ _).trans ?_
  unfold G0 GCN.kHW GCN.mm
  rw [ed]
  refine congrArg₂ (· * ·) (Finset.sum_congr rfl fun k _ => congrArg₂ (· * ·) ?_ (h1 _)) ?_
  · exact h0 _ _ hi0 rfl
  · exact h2 _ _ hi0

variable (V : (c : Dev nD) → (b : Ref sig .tc) → Buf (Elt Ideal) ((c : Thread nD τ).loc b))

/-- The node-feature block at point `t` is rows `2000 t …` of the array. -/
theorem iblk0_0_apply (c : Dev nD) (x : Vec Ideal S100000x128 .f32) (hx : V c main_arg0 = x) (t : Fin cfg0.N)
    (y : S2000x128.Idx) (i : S100000x128.Idx) (h0 : (i 0).val = t.val * 2000 + (y 0).val) (h1 : (i 1).val = (y 1).val) :
    (Gen.iblk0 (F := Ideal) V c 0 t : Vec Ideal S2000x128 .f32) y = x i := by
  obtain ⟨e0, e1, -⟩ := idx_facts0 t
  unfold Gen.iblk0
  rw [View.read_apply]
  show V c main_arg0 _ = x i
  rw [hx]
  refine congrArg x (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The weight block at every point is the whole weight. -/
theorem iblk0_1_apply (c : Dev nD) (w : Vec Ideal S128x128 .f32) (hw : V c main_v17 = w) (t : Fin cfg0.N) (y : S128x128.Idx) :
    (Gen.iblk0 (F := Ideal) V c 1 t : Vec Ideal S128x128 .f32) y = w y := by
  obtain ⟨-, -, e0, e1, -⟩ := idx_facts0 t
  unfold Gen.iblk0
  rw [View.read_apply]
  show V c main_v17 _ = w y
  rw [hw]
  refine congrArg w (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The scaling block at point `t` is rows `2000 t …` of the column. -/
theorem iblk0_2_apply (c : Dev nD) (dvc : Vec Ideal S100000x1 .f32) (hd : V c main_v15 = dvc) (t : Fin cfg0.N)
    (y : S2000x1.Idx) (i : S100000x1.Idx) (h0 : (i 0).val = t.val * 2000 + (y 0).val) :
    (Gen.iblk0 (F := Ideal) V c 2 t : Vec Ideal S2000x1 .f32) y = dvc i := by
  obtain ⟨-, -, -, -, e0, e1, -⟩ := idx_facts0 t
  unfold Gen.iblk0
  rw [View.read_apply]
  show V c main_v15 _ = dvc i
  rw [hd]
  refine congrArg dvc (funext fun a => Fin.ext ?_)
  match a with
  | ⟨0, _⟩ => show win0_2.index t (0 : Fin 2) * 2000 + 1 * (y 0).val = (i 0).val; rw [e0, h0]; omega
  | ⟨1, _⟩ => show win0_2.index t (1 : Fin 2) * 1 + 1 * (y 1).val = (i 1).val; rw [e1]; have hy : (y 1).val < 1 := (y 1).isLt; have hi : (i 1).val < 1 := (i 1).isLt; omega

/-- WHAT POINT `t` WRITES BACK is block `t` of the whole output. -/
theorem flushed0_eq (c : Dev nD) (x : Vec Ideal S100000x128 .f32) (w : Vec Ideal S128x128 .f32) (dvc : Vec Ideal S100000x1 .f32)
    (hx : V c main_arg0 = x) (hw : V c main_v17 = w) (hd : V c main_v15 = dvc) (t : Fin cfg0.N) :
    (Gen.dat0 (F := Ideal) V c).flushed 3 t = ((cfg0.win 3).blk t).view.read (Elt Ideal) (G0 x w dvc) := by
  show (cfg0.win 3).cut (grid0.coords t) ((Gen.dat0 (F := Ideal) V c).after 3 t) = _
  rw [after0_3]
  unfold out0_3
  rw [View.canon_unit_zero hz0]
  simp only [View.ld_unit_zero (S := S2000x128) hz0, View.ld_unit_zero (S := S128x128) hz0, View.ld_unit_zero (S := S2000x1) hz0]
  obtain ⟨-, -, -, -, -, -, e0, e1⟩ := idx_facts0 t
  funext j
  rw [View.read_apply]
  refine tile0_point x w dvc (Gen.iblk0 (F := Ideal) V c 0 t) (Gen.iblk0 (F := Ideal) V c 1 t) (Gen.iblk0 (F := Ideal) V c 2 t) t.val
    (fun y i h0 h1 => iblk0_0_apply V c x hx t y i h0 h1) (fun y => iblk0_1_apply V c w hw t y)
    (fun y i h0 => iblk0_2_apply V c dvc hd t y i h0) j _ ?_ ?_
  · show win0_3.index t (0 : Fin 2) * 2000 + 1 * (j 0).val = t.val * 2000 + (j 0).val; rw [e0]; omega
  · show win0_3.index t (1 : Fin 2) * 128 + 1 * (j 1).val = (j 1).val; rw [e1]; omega

/-- An index of the array is in point `t`'s block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v18).slice (win0_3.rect t)).set ↔ _
  rw [View.set_slice_whole, Rect.mem_set_unit]
  exact Iff.rfl

/-- Every row is in its tile's block: row `r` in the block of point `r / 2000`. -/
theorem cover0 (i : S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 50 := N_0
  let t : Fin cfg0.N := ⟨(i 0).val / 2000, by rw [hN]; omega⟩
  obtain ⟨-, -, -, -, -, -, e0, e1⟩ := idx_facts0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 128 ≤ (i 1).val ∧ (i 1).val < win0_3.index t (1 : Fin 2) * 128 + 128; rw [e1]; omega

/-- THE ARRAY after region 0: the whole output. -/
theorem final0 (c : Dev nD) (x : Vec Ideal S100000x128 .f32) (w : Vec Ideal S128x128 .f32) (dvc : Vec Ideal S100000x1 .f32)
    (hx : V c main_arg0 = x) (hw : V c main_v17 = w) (hd : V c main_v15 = dvc) :
    (Gen.dat0 (F := Ideal) V c).arrAt 3 cfg0.N = G0 x w dvc :=
  (Gen.dat0 (F := Ideal) V c).arrAt_eq_of_cover 3 (G0 x w dvc) (fun t _ => flushed0_eq V c x w dvc hx hw hd t) cover0

/-- Region 0's output at node `n`, feature `d`: `(x w) n d * dvc n`. -/
theorem reg0_val (c : Dev nD) (x : Vec Ideal S100000x128 .f32) (w : Vec Ideal S128x128 .f32) (dvc : Vec Ideal S100000x1 .f32)
    (hx : V c main_arg0 = x) (hw : V c main_v17 = w) (hd : V c main_v15 = dvc) (n : Fin 100000) (d : Fin 128) :
    (Gen.dat0 (F := Ideal) V c).arrAt 3 cfg0.N (ix2 n d)
      = GCN.kHW (fun n k => x (ix2 n k)) (fun k d => w (ix2 k d)) (fun n => dvc (ix2 n (0 : Fin 1))) n d := by
  rw [final0 V c x w dvc hx hw hd]
  rfl

end Cert.KernelIdeal.RegVal

end
-- ==== Proof.KReg1.lean ====
/-
  Region 1 of the kernel: one layer's activation and matmul stage, on 50 row tiles of 2000 nodes.

  At tile `t` the body reads rows `2000 t … 2000 t + 1999` of the aggregate `agg` and of the column `dv`, the bias row
  `b` and the weight `W`, and stores
      out n d = (Σ_k max (dv n * agg n k + b k) 0 * W k d) * dv n,
  that is `GCN.kHW (GCN.kAct dv agg b) W dv` at `(n, d)`. The changes of float format are the identity on the extended
  reals and the product accumulates into zero. The tiles cover the array (row `r` lies in tile `r / 2000`), so the
  array the region leaves is that one function of the four arrays it finds.
-/
import proofs.«413796_j23914377904291_2_alg».proof.Proof.Gen.KernelIdeal.Frame
import proofs.«413796_j23914377904291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- A column `[a, 1]` broadcast to `[a, b]` reads, at `(p, c)`, the operand's row `p`. -/
private theorem reg1_bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the body's one product, at output index `(p, q)` and contraction index `k`: `(p, k)` and `(k, q)`. -/
private theorem reg1_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem reg1_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem reg1_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem reg1_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at `(p, q)` of a tile: the row `p` of the aggregate scaled by the row's `dv`, the bias
    added, clipped at zero, multiplied into column `q` of the weight, and the product scaled by the row's `dv` again.
    The two changes of float format are the identity on the extended reals; the product's accumulator is the zero splat. -/
private theorem reg1_pay (x0 : Vec Ideal S2000x1 .f32) (x1 : Vec Ideal S2000x128 .f32) (x2 : Vec Ideal S1x128 .f32) (x3 : Vec Ideal S128x128 .f32)
    (p : Fin 2000) (q : Fin 128) :
    (k1_pay1 (F := Ideal) x0 x1 x2 x3) (ix2 p q)
      = (∑ k : Fin 128, max (x0 (ix2 p (0 : Fin 1)) * x1 (ix2 p k) + x2 (ix2 (0 : Fin 1) k)) 0 * x3 (ix2 k q)) * x0 (ix2 p (0 : Fin 1)) := by
  unfold k1_pay1
  simp only [shapeCast_self]
  rw [truncf_apply, mulf_apply, reg1_bcast_col]
  refine congrArg (· * x0 (ix2 p (0 : Fin 1))) ?_
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact reg1_lhs_0 _ _
    | ⟨1, _⟩ => exact (reg1_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (reg1_rhs_0 _ _).trans hk
    | ⟨1, _⟩ => exact reg1_rhs_1 _ _)
  rw [el, er]
  rw [truncf_apply, truncf_apply, maximumf_apply, addf_apply, mulf_apply, reg1_bcast_col, broadcastTo_1b_ab_apply, broadcast_apply]
  show max _ (Ideal.ofBits .f32 0x00000000#32) * _ = _
  rw [Ideal.ofBits_zero_f32]

/-- The array the region leaves, as one function of the four arrays it finds: row `n` of the clipped, biased, scaled
    aggregate times the weight, scaled by `dv n`. -/
def reg1_G (agg : Vec Ideal S100000x128 .f32) (dvc : Vec Ideal S100000x1 .f32) (brow : Vec Ideal S1x128 .f32) (w : Vec Ideal S128x128 .f32) :
    S100000x128.Idx → EReal := fun i =>
  GCN.kHW (GCN.kAct (fun n => dvc (ix2 n (0 : Fin 1))) (fun n k => agg (ix2 n k)) (fun k => brow (ix2 (0 : Fin 1) k)))
    (fun k d => w (ix2 k d)) (fun n => dvc (ix2 n (0 : Fin 1))) ⟨(i 0).val, idx2_lt0 i⟩ ⟨(i 1).val, idx2_lt1 i⟩

/-- One tile: if the four loaded blocks are rows `2000 b … 2000 b + 1999` of the aggregate and of the `dv` column, the
    bias row and the weight, the stored tile at `y` is the array function at row `2000 b + y 0`, column `y 1`. -/
private theorem reg1_point (agg : Vec Ideal S100000x128 .f32) (dvc : Vec Ideal S100000x1 .f32) (brow : Vec Ideal S1x128 .f32) (w : Vec Ideal S128x128 .f32)
    (x0 : Vec Ideal S2000x1 .f32) (x1 : Vec Ideal S2000x128 .f32) (x2 : Vec Ideal S1x128 .f32) (x3 : Vec Ideal S128x128 .f32) (b : ℕ)
    (e0 : ∀ (y : S2000x1.Idx) (i : S100000x1.Idx), (i 0).val = b * 2000 + (y 0).val → x0 y = dvc i)
    (e1 : ∀ (y : S2000x128.Idx) (i : S100000x128.Idx), (i 0).val = b * 2000 + (y 0).val → (i 1).val = (y 1).val → x1 y = agg i)
    (e2 : x2 = brow) (e3 : x3 = w)
    (y : S2000x128.Idx) (i : S100000x128.Idx) (hi0 : (i 0).val = b * 2000 + (y 0).val) (hi1 : (i 1).val = (y 1).val) :
    (k1_pay1 (F := Ideal) x0 x1 x2 x3) y = reg1_G agg dvc brow w i := by
  obtain ⟨p, q, rfl⟩ : ∃ (p : Fin 2000) (q : Fin 128), y = ix2 p q := ⟨y 0, y 1, eq_ix2 y⟩
  rw [reg1_pay, e2, e3]
  have hn : b * 2000 + p.val < 100000 := by have := idx2_lt0 i; have : (i 0).val = b * 2000 + p.val := hi0; omega
  have hq : (⟨(i 1).val, idx2_lt1 i⟩ : Fin 128) = q := Fin.ext hi1
  have hp : (⟨(i 0).val, idx2_lt0 i⟩ : Fin 100000) = ⟨b * 2000 + p.val, hn⟩ := Fin.ext hi0
  unfold reg1_G GCN.kHW GCN.mm GCN.kAct
  rw [hq, hp, e0 (ix2 p (0 : Fin 1)) (ix2 ⟨b * 2000 + p.val, hn⟩ (0 : Fin 1)) rfl]
  refine congrArg (· * _) (Finset.sum_congr rfl fun k _ => ?_)
  rw [e1 (ix2 p k) (ix2 ⟨b * 2000 + p.val, hn⟩ k) rfl rfl]

private theorem reg1_hz : (![0, 0] : Fin 2 → Nat) = fun _ => 0 := funext fun a => by fin_cases a <;> rfl

/-- The block of each window at grid point `t`: row tile `t` of the aggregate, of the `dv` column and of the output; the
    one block of the bias row and of the weight. -/
private theorem reg1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of the array function of the arrays the region finds. -/
private theorem reg1_flushed (c : Dev nD) (agg : Vec Ideal S100000x128 .f32) (dvc : Vec Ideal S100000x1 .f32) (brow : Vec Ideal S1x128 .f32) (w : Vec Ideal S128x128 .f32)
    (h0 : V c main_v29 = agg) (h1 : V c main_v15 = dvc) (h2 : V c main_v34 = brow) (h3 : V c main_v33 = w) (t : Fin cfg1.N) :
    (dat1 (F := Ideal) V c).flushed 4 t = ((cfg1.win 4).blk t).view.read (Elt Ideal) (reg1_G agg dvc brow w) := by
  show (cfg1.win 4).cut (grid1.coords t) ((dat1 (F := Ideal) V c).after 4 t) = _
  rw [after1_4]
  unfold out1_4
  rw [View.canon_unit_zero reg1_hz]
  simp only [View.ld_unit_zero (S := S2000x1) reg1_hz, View.ld_unit_zero (S := S2000x128) reg1_hz, View.ld_unit_zero (S := S1x128) reg1_hz, View.ld_unit_zero (S := S128x128) reg1_hz]
  obtain ⟨a0, a1, b0, b1, c0, c1, d0, d1, o0, o1⟩ := reg1_idx t
  funext j
  show (k1_pay1 (F := Ideal) (iblk1 V c 1 t) (iblk1 V c 0 t) (iblk1 V c 2 t) (iblk1 V c 3 t)) j
    = reg1_G agg dvc brow w (((cfg1.win 4).blk t).view.emb j)
  refine reg1_point agg dvc brow w (iblk1 V c 1 t) (iblk1 V c 0 t) (iblk1 V c 2 t) (iblk1 V c 3 t) t.val ?_ ?_ ?_ ?_
    j (((cfg1.win 4).blk t).view.emb j) ?_ ?_
  · intro y i hi
    show V c main_v15 (((cfg1.win 1).blk t).view.emb y) = dvc i
    rw [h1]
    refine congrArg dvc (funext fun a => Fin.ext ?_)
    match a with
    | ⟨0, _⟩ => show win1_1.index t (0 : Fin 2) * 2000 + 1 * (y 0).val = (i 0).val; omega
    | ⟨1, _⟩ => show win1_1.index t (1 : Fin 2) * 1 + 1 * (y 1).val = (i 1).val; have := idx2_lt1 y; have := idx2_lt1 i; omega
  · intro y i hi hi'
    show V c main_v29 (((cfg1.win 0).blk t).view.emb y) = agg i
    rw [h0]
    refine congrArg agg (funext fun a => Fin.ext ?_)
    match a with
    | ⟨0, _⟩ => show win1_0.index t (0 : Fin 2) * 2000 + 1 * (y 0).val = (i 0).val; omega
    | ⟨1, _⟩ => show win1_0.index t (1 : Fin 2) * 128 + 1 * (y 1).val = (i 1).val; omega
  · funext y
    show V c main_v34 (((cfg1.win 2).blk t).view.emb y) = brow y
    rw [h2]
    refine congrArg brow (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · funext y
    show V c main_v33 (((cfg1.win 3).blk t).view.emb y) = w y
    rw [h3]
    refine congrArg w (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · show win1_4.index t (0 : Fin 2) * 2000 + 1 * (j 0).val = t.val * 2000 + (j 0).val; omega
  · show win1_4.index t (1 : Fin 2) * 128 + 1 * (j 1).val = (j 1).val; omega

/-- An index of the output array is in point `t`'s block iff each coordinate is in the block's range on its axis. -/
private theorem reg1_mem_blk (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v35).slice (win1_4.rect t)).set ↔ _
  rw [View.set_slice_whole, Rect.mem_set_unit]
  exact Iff.rfl

/-- The 50 row tiles cover the array (row `r` is in tile `r / 2000`), so the array ends at the array function. -/
theorem reg1_arr (c : Dev nD) (agg : Vec Ideal S100000x128 .f32) (dvc : Vec Ideal S100000x1 .f32) (brow : Vec Ideal S1x128 .f32) (w : Vec Ideal S128x128 .f32)
    (h0 : V c main_v29 = agg) (h1 : V c main_v15 = dvc) (h2 : V c main_v34 = brow) (h3 : V c main_v33 = w) :
    (dat1 (F := Ideal) V c).arrAt 4 cfg1.N = reg1_G agg dvc brow w :=
  (dat1 (F := Ideal) V c).arrAt_eq_of_cover 4 (reg1_G agg dvc brow w) (fun t _ => reg1_flushed V c agg dvc brow w h0 h1 h2 h3 t) fun i => by
    have hN : cfg1.N = 50 := N_1
    have hi0 : (i 0).val < 100000 := idx2_lt0 i
    have hi1 : (i 1).val < 128 := idx2_lt1 i
    let t : Fin cfg1.N := ⟨(i 0).val / 2000, by rw [hN]; omega⟩
    obtain ⟨a0, a1, b0, b1, c0, c1, d0, d1, o0, o1⟩ := reg1_idx t
    have ht : t.val = (i 0).val / 2000 := rfl
    refine ⟨t, flush1_4 t, ?_⟩
    rw [reg1_mem_blk]
    intro a
    match a with
    | ⟨0, _⟩ => show win1_4.index t (0 : Fin 2) * 2000 ≤ (i 0).val ∧ (i 0).val < win1_4.index t (0 : Fin 2) * 2000 + 2000; omega
    | ⟨1, _⟩ => show win1_4.index t (1 : Fin 2) * 128 ≤ (i 1).val ∧ (i 1).val < win1_4.index t (1 : Fin 2) * 128 + 128; omega

/-- Region 1's output array, index by index: the kernel's matmul stage applied to the kernel's activation stage of the
    aggregate it finds. -/
theorem reg1_val (c : Dev nD) (agg : Vec Ideal S100000x128 .f32) (dvc : Vec Ideal S100000x1 .f32) (brow : Vec Ideal S1x128 .f32) (w : Vec Ideal S128x128 .f32)
    (h0 : V c main_v29 = agg) (h1 : V c main_v15 = dvc) (h2 : V c main_v34 = brow) (h3 : V c main_v33 = w) (n : Fin 100000) (d : Fin 128) :
    (Gen.dat1 (F := Ideal) V c).arrAt 4 cfg1.N (ix2 n d)
      = GCN.kHW (GCN.kAct (fun n => dvc (ix2 n (0 : Fin 1))) (fun n k => agg (ix2 n k)) (fun k => brow (ix2 (0 : Fin 1) k)))
          (fun k d => w (ix2 k d)) (fun n => dvc (ix2 n (0 : Fin 1))) n d :=
  congrFun (reg1_arr V c agg dvc brow w h0 h1 h2 h3) (ix2 n d)

end Cert.KernelIdeal.RegVal
end
-- ==== Proof.KReg2.lean ====
/-
  Region 2 of the kernel: one layer's activation and matmul stage, on 50 row tiles of 2000 nodes.

  At tile `t` the body reads rows `2000 t … 2000 t + 1999` of the aggregate `agg` and of the column `dv`, the bias row
  `b` and the weight `W`, and stores
      out n d = (Σ_k max (dv n * agg n k + b k) 0 * W k d) * dv n,
  that is `GCN.kHW (GCN.kAct dv agg b) W dv` at `(n, d)`. The changes of float format are the identity on the extended
  reals and the product accumulates into zero. The tiles cover the array (row `r` lies in tile `r / 2000`), so the
  array the region leaves is that one function of the four arrays it finds.
-/
import proofs.«413796_j23914377904291_2_alg».proof.Proof.Gen.KernelIdeal.Frame
import proofs.«413796_j23914377904291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- A column `[a, 1]` broadcast to `[a, b]` reads, at `(p, c)`, the operand's row `p`. -/
private theorem reg2_bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the body's one product, at output index `(p, q)` and contraction index `k`: `(p, k)` and `(k, q)`. -/
private theorem reg2_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem reg2_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem reg2_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem reg2_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at `(p, q)` of a tile: the row `p` of the aggregate scaled by the row's `dv`, the bias
    added, clipped at zero, multiplied into column `q` of the weight, and the product scaled by the row's `dv` again.
    The two changes of float format are the identity on the extended reals; the product's accumulator is the zero splat. -/
private theorem reg2_pay (x0 : Vec Ideal S2000x1 .f32) (x1 : Vec Ideal S2000x128 .f32) (x2 : Vec Ideal S1x128 .f32) (x3 : Vec Ideal S128x128 .f32)
    (p : Fin 2000) (q : Fin 128) :
    (k2_pay1 (F := Ideal) x0 x1 x2 x3) (ix2 p q)
      = (∑ k : Fin 128, max (x0 (ix2 p (0 : Fin 1)) * x1 (ix2 p k) + x2 (ix2 (0 : Fin 1) k)) 0 * x3 (ix2 k q)) * x0 (ix2 p (0 : Fin 1)) := by
  unfold k2_pay1
  simp only [shapeCast_self]
  rw [truncf_apply, mulf_apply, reg2_bcast_col]
  refine congrArg (· * x0 (ix2 p (0 : Fin 1))) ?_
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact reg2_lhs_0 _ _
    | ⟨1, _⟩ => exact (reg2_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (reg2_rhs_0 _ _).trans hk
    | ⟨1, _⟩ => exact reg2_rhs_1 _ _)
  rw [el, er]
  rw [truncf_apply, truncf_apply, maximumf_apply, addf_apply, mulf_apply, reg2_bcast_col, broadcastTo_1b_ab_apply, broadcast_apply]
  show max _ (Ideal.ofBits .f32 0x00000000#32) * _ = _
  rw [Ideal.ofBits_zero_f32]

/-- The array the region leaves, as one function of the four arrays it finds: row `n` of the clipped, biased, scaled
    aggregate times the weight, scaled by `dv n`. -/
def reg2_G (agg : Vec Ideal S100000x128 .f32) (dvc : Vec Ideal S100000x1 .f32) (brow : Vec Ideal S1x128 .f32) (w : Vec Ideal S128x128 .f32) :
    S100000x128.Idx → EReal := fun i =>
  GCN.kHW (GCN.kAct (fun n => dvc (ix2 n (0 : Fin 1))) (fun n k => agg (ix2 n k)) (fun k => brow (ix2 (0 : Fin 1) k)))
    (fun k d => w (ix2 k d)) (fun n => dvc (ix2 n (0 : Fin 1))) ⟨(i 0).val, idx2_lt0 i⟩ ⟨(i 1).val, idx2_lt1 i⟩

/-- One tile: if the four loaded blocks are rows `2000 b … 2000 b + 1999` of the aggregate and of the `dv` column, the
    bias row and the weight, the stored tile at `y` is the array function at row `2000 b + y 0`, column `y 1`. -/
private theorem reg2_point (agg : Vec Ideal S100000x128 .f32) (dvc : Vec Ideal S100000x1 .f32) (brow : Vec Ideal S1x128 .f32) (w : Vec Ideal S128x128 .f32)
    (x0 : Vec Ideal S2000x1 .f32) (x1 : Vec Ideal S2000x128 .f32) (x2 : Vec Ideal S1x128 .f32) (x3 : Vec Ideal S128x128 .f32) (b : ℕ)
    (e0 : ∀ (y : S2000x1.Idx) (i : S100000x1.Idx), (i 0).val = b * 2000 + (y 0).val → x0 y = dvc i)
    (e1 : ∀ (y : S2000x128.Idx) (i : S100000x128.Idx), (i 0).val = b * 2000 + (y 0).val → (i 1).val = (y 1).val → x1 y = agg i)
    (e2 : x2 = brow) (e3 : x3 = w)
    (y : S2000x128.Idx) (i : S100000x128.Idx) (hi0 : (i 0).val = b * 2000 + (y 0).val) (hi1 : (i 1).val = (y 1).val) :
    (k2_pay1 (F := Ideal) x0 x1 x2 x3) y = reg2_G agg dvc brow w i := by
  obtain ⟨p, q, rfl⟩ : ∃ (p : Fin 2000) (q : Fin 128), y = ix2 p q := ⟨y 0, y 1, eq_ix2 y⟩
  rw [reg2_pay, e2, e3]
  have hn : b * 2000 + p.val < 100000 := by have := idx2_lt0 i; have : (i 0).val = b * 2000 + p.val := hi0; omega
  have hq : (⟨(i 1).val, idx2_lt1 i⟩ : Fin 128) = q := Fin.ext hi1
  have hp : (⟨(i 0).val, idx2_lt0 i⟩ : Fin 100000) = ⟨b * 2000 + p.val, hn⟩ := Fin.ext hi0
  unfold reg2_G GCN.kHW GCN.mm GCN.kAct
  rw [hq, hp, e0 (ix2 p (0 : Fin 1)) (ix2 ⟨b * 2000 + p.val, hn⟩ (0 : Fin 1)) rfl]
  refine congrArg (· * _) (Finset.sum_congr rfl fun k _ => ?_)
  rw [e1 (ix2 p k) (ix2 ⟨b * 2000 + p.val, hn⟩ k) rfl rfl]

private theorem reg2_hz : (![0, 0] : Fin 2 → Nat) = fun _ => 0 := funext fun a => by fin_cases a <;> rfl

/-- The block of each window at grid point `t`: row tile `t` of the aggregate, of the `dv` column and of the output; the
    one block of the bias row and of the weight. -/
private theorem reg2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point `t` writes back is block `t` of the array function of the arrays the region finds. -/
private theorem reg2_flushed (c : Dev nD) (agg : Vec Ideal S100000x128 .f32) (dvc : Vec Ideal S100000x1 .f32) (brow : Vec Ideal S1x128 .f32) (w : Vec Ideal S128x128 .f32)
    (h0 : V c main_v46 = agg) (h1 : V c main_v15 = dvc) (h2 : V c main_v51 = brow) (h3 : V c main_v50 = w) (t : Fin cfg2.N) :
    (dat2 (F := Ideal) V c).flushed 4 t = ((cfg2.win 4).blk t).view.read (Elt Ideal) (reg2_G agg dvc brow w) := by
  show (cfg2.win 4).cut (grid2.coords t) ((dat2 (F := Ideal) V c).after 4 t) = _
  rw [after2_4]
  unfold out2_4
  rw [View.canon_unit_zero reg2_hz]
  simp only [View.ld_unit_zero (S := S2000x1) reg2_hz, View.ld_unit_zero (S := S2000x128) reg2_hz, View.ld_unit_zero (S := S1x128) reg2_hz, View.ld_unit_zero (S := S128x128) reg2_hz]
  obtain ⟨a0, a1, b0, b1, c0, c1, d0, d1, o0, o1⟩ := reg2_idx t
  funext j
  show (k2_pay1 (F := Ideal) (iblk2 V c 1 t) (iblk2 V c 0 t) (iblk2 V c 2 t) (iblk2 V c 3 t)) j
    = reg2_G agg dvc brow w (((cfg2.win 4).blk t).view.emb j)
  refine reg2_point agg dvc brow w (iblk2 V c 1 t) (iblk2 V c 0 t) (iblk2 V c 2 t) (iblk2 V c 3 t) t.val ?_ ?_ ?_ ?_
    j (((cfg2.win 4).blk t).view.emb j) ?_ ?_
  · intro y i hi
    show V c main_v15 (((cfg2.win 1).blk t).view.emb y) = dvc i
    rw [h1]
    refine congrArg dvc (funext fun a => Fin.ext ?_)
    match a with
    | ⟨0, _⟩ => show win2_1.index t (0 : Fin 2) * 2000 + 1 * (y 0).val = (i 0).val; omega
    | ⟨1, _⟩ => show win2_1.index t (1 : Fin 2) * 1 + 1 * (y 1).val = (i 1).val; have := idx2_lt1 y; have := idx2_lt1 i; omega
  · intro y i hi hi'
    show V c main_v46 (((cfg2.win 0).blk t).view.emb y) = agg i
    rw [h0]
    refine congrArg agg (funext fun a => Fin.ext ?_)
    match a with
    | ⟨0, _⟩ => show win2_0.index t (0 : Fin 2) * 2000 + 1 * (y 0).val = (i 0).val; omega
    | ⟨1, _⟩ => show win2_0.index t (1 : Fin 2) * 128 + 1 * (y 1).val = (i 1).val; omega
  · funext y
    show V c main_v51 (((cfg2.win 2).blk t).view.emb y) = brow y
    rw [h2]
    refine congrArg brow (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · funext y
    show V c main_v50 (((cfg2.win 3).blk t).view.emb y) = w y
    rw [h3]
    refine congrArg w (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · show win2_4.index t (0 : Fin 2) * 2000 + 1 * (j 0).val = t.val * 2000 + (j 0).val; omega
  · show win2_4.index t (1 : Fin 2) * 128 + 1 * (j 1).val = (j 1).val; omega

/-- An index of the output array is in point `t`'s block iff each coordinate is in the block's range on its axis. -/
private theorem reg2_mem_blk (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v52).slice (win2_4.rect t)).set ↔ _
  rw [View.set_slice_whole, Rect.mem_set_unit]
  exact Iff.rfl

/-- The 50 row tiles cover the array (row `r` is in tile `r / 2000`), so the array ends at the array function. -/
theorem reg2_arr (c : Dev nD) (agg : Vec Ideal S100000x128 .f32) (dvc : Vec Ideal S100000x1 .f32) (brow : Vec Ideal S1x128 .f32) (w : Vec Ideal S128x128 .f32)
    (h0 : V c main_v46 = agg) (h1 : V c main_v15 = dvc) (h2 : V c main_v51 = brow) (h3 : V c main_v50 = w) :
    (dat2 (F := Ideal) V c).arrAt 4 cfg2.N = reg2_G agg dvc brow w :=
  (dat2 (F := Ideal) V c).arrAt_eq_of_cover 4 (reg2_G agg dvc brow w) (fun t _ => reg2_flushed V c agg dvc brow w h0 h1 h2 h3 t) fun i => by
    have hN : cfg2.N = 50 := N_2
    have hi0 : (i 0).val < 100000 := idx2_lt0 i
    have hi1 : (i 1).val < 128 := idx2_lt1 i
    let t : Fin cfg2.N := ⟨(i 0).val / 2000, by rw [hN]; omega⟩
    obtain ⟨a0, a1, b0, b1, c0, c1, d0, d1, o0, o1⟩ := reg2_idx t
    have ht : t.val = (i 0).val / 2000 := rfl
    refine ⟨t, flush2_4 t, ?_⟩
    rw [reg2_mem_blk]
    intro a
    match a with
    | ⟨0, _⟩ => show win2_4.index t (0 : Fin 2) * 2000 ≤ (i 0).val ∧ (i 0).val < win2_4.index t (0 : Fin 2) * 2000 + 2000; omega
    | ⟨1, _⟩ => show win2_4.index t (1 : Fin 2) * 128 ≤ (i 1).val ∧ (i 1).val < win2_4.index t (1 : Fin 2) * 128 + 128; omega

/-- Region 2's output array, index by index: the kernel's matmul stage applied to the kernel's activation stage of the
    aggregate it finds. -/
theorem reg2_val (c : Dev nD) (agg : Vec Ideal S100000x128 .f32) (dvc : Vec Ideal S100000x1 .f32) (brow : Vec Ideal S1x128 .f32) (w : Vec Ideal S128x128 .f32)
    (h0 : V c main_v46 = agg) (h1 : V c main_v15 = dvc) (h2 : V c main_v51 = brow) (h3 : V c main_v50 = w) (n : Fin 100000) (d : Fin 128) :
    (Gen.dat2 (F := Ideal) V c).arrAt 4 cfg2.N (ix2 n d)
      = GCN.kHW (GCN.kAct (fun n => dvc (ix2 n (0 : Fin 1))) (fun n k => agg (ix2 n k)) (fun k => brow (ix2 (0 : Fin 1) k)))
          (fun k d => w (ix2 k d)) (fun n => dvc (ix2 n (0 : Fin 1))) n d :=
  congrFun (reg2_arr V c agg dvc brow w h0 h1 h2 h3) (ix2 n d)

end Cert.KernelIdeal.RegVal
end
-- ==== Proof.KReg3.lean ====
/-
  Region 3 of the kernel: one layer's activation and matmul stage, on 50 row tiles of 2000 nodes.

  At tile `t` the body reads rows `2000 t … 2000 t + 1999` of the aggregate `agg` and of the column `dv`, the bias row
  `b` and the weight `W`, and stores
      out n d = (Σ_k max (dv n * agg n k + b k) 0 * W k d) * dv n,
  that is `GCN.kHW (GCN.kAct dv agg b) W dv` at `(n, d)`. The changes of float format are the identity on the extended
  reals and the product accumulates into zero. The tiles cover the array (row `r` lies in tile `r / 2000`), so the
  array the region leaves is that one function of the four arrays it finds.
-/
import proofs.«413796_j23914377904291_2_alg».proof.Proof.Gen.KernelIdeal.Frame
import proofs.«413796_j23914377904291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- A column `[a, 1]` broadcast to `[a, b]` reads, at `(p, c)`, the operand's row `p`. -/
private theorem reg3_bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the body's one product, at output index `(p, q)` and contraction index `k`: `(p, k)` and `(k, q)`. -/
private theorem reg3_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem reg3_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem reg3_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem reg3_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's stored value at `(p, q)` of a tile: the row `p` of the aggregate scaled by the row's `dv`, the bias
    added, clipped at zero, multiplied into column `q` of the weight, and the product scaled by the row's `dv` again.
    The two changes of float format are the identity on the extended reals; the product's accumulator is the zero splat. -/
private theorem reg3_pay (x0 : Vec Ideal S2000x1 .f32) (x1 : Vec Ideal S2000x128 .f32) (x2 : Vec Ideal S1x128 .f32) (x3 : Vec Ideal S128x128 .f32)
    (p : Fin 2000) (q : Fin 128) :
    (k3_pay1 (F := Ideal) x0 x1 x2 x3) (ix2 p q)
      = (∑ k : Fin 128, max (x0 (ix2 p (0 : Fin 1)) * x1 (ix2 p k) + x2 (ix2 (0 : Fin 1) k)) 0 * x3 (ix2 k q)) * x0 (ix2 p (0 : Fin 1)) := by
  unfold k3_pay1
  simp only [shapeCast_self]
  rw [truncf_apply, mulf_apply, reg3_bcast_col]
  refine congrArg (· * x0 (ix2 p (0 : Fin 1))) ?_
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact reg3_lhs_0 _ _
    | ⟨1, _⟩ => exact (reg3_lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (reg3_rhs_0 _ _).trans hk
    | ⟨1, _⟩ => exact reg3_rhs_1 _ _)
  rw [el, er]
  rw [truncf_apply, truncf_apply, maximumf_apply, addf_apply, mulf_apply, reg3_bcast_col, broadcastTo_1b_ab_apply, broadcast_apply]
  show max _ (Ideal.ofBits .f32 0x00000000#32) * _ = _
  rw [Ideal.ofBits_zero_f32]

/-- The array the region leaves, as one function of the four arrays it finds: row `n` of the clipped, biased, scaled
    aggregate times the weight, scaled by `dv n`. -/
def reg3_G (agg : Vec Ideal S100000x128 .f32) (dvc : Vec Ideal S100000x1 .f32) (brow : Vec Ideal S1x128 .f32) (w : Vec Ideal S128x128 .f32) :
    S100000x128.Idx → EReal := fun i =>
  GCN.kHW (GCN.kAct (fun n => dvc (ix2 n (0 : Fin 1))) (fun n k => agg (ix2 n k)) (fun k => brow (ix2 (0 : Fin 1) k)))
    (fun k d => w (ix2 k d)) (fun n => dvc (ix2 n (0 : Fin 1))) ⟨(i 0).val, idx2_lt0 i⟩ ⟨(i 1).val, idx2_lt1 i⟩

/-- One tile: if the four loaded blocks are rows `2000 b … 2000 b + 1999` of the aggregate and of the `dv` column, the
    bias row and the weight, the stored tile at `y` is the array function at row `2000 b + y 0`, column `y 1`. -/
private theorem reg3_point (agg : Vec Ideal S100000x128 .f32) (dvc : Vec Ideal S100000x1 .f32) (brow : Vec Ideal S1x128 .f32) (w : Vec Ideal S128x128 .f32)
    (x0 : Vec Ideal S2000x1 .f32) (x1 : Vec Ideal S2000x128 .f32) (x2 : Vec Ideal S1x128 .f32) (x3 : Vec Ideal S128x128 .f32) (b : ℕ)
    (e0 : ∀ (y : S2000x1.Idx) (i : S100000x1.Idx), (i 0).val = b * 2000 + (y 0).val → x0 y = dvc i)
    (e1 : ∀ (y : S2000x128.Idx) (i : S100000x128.Idx), (i 0).val = b * 2000 + (y 0).val → (i 1).val = (y 1).val → x1 y = agg i)
    (e2 : x2 = brow) (e3 : x3 = w)
    (y : S2000x128.Idx) (i : S100000x128.Idx) (hi0 : (i 0).val = b * 2000 + (y 0).val) (hi1 : (i 1).val = (y 1).val) :
    (k3_pay1 (F := Ideal) x0 x1 x2 x3) y = reg3_G agg dvc brow w i := by
  obtain ⟨p, q, rfl⟩ : ∃ (p : Fin 2000) (q : Fin 128), y = ix2 p q := ⟨y 0, y 1, eq_ix2 y⟩
  rw [reg3_pay, e2, e3]
  have hn : b * 2000 + p.val < 100000 := by have := idx2_lt0 i; have : (i 0).val = b * 2000 + p.val := hi0; omega
  have hq : (⟨(i 1).val, idx2_lt1 i⟩ : Fin 128) = q := Fin.ext hi1
  have hp : (⟨(i 0).val, idx2_lt0 i⟩ : Fin 100000) = ⟨b * 2000 + p.val, hn⟩ := Fin.ext hi0
  unfold reg3_G GCN.kHW GCN.mm GCN.kAct
  rw [hq, hp, e0 (ix2 p (0 : Fin 1)) (ix2 ⟨b * 2000 + p.val, hn⟩ (0 : Fin 1)) rfl]
  refine congrArg (· * _) (Finset.sum_congr rfl fun k _ => ?_)
  rw [e1 (ix2 p k) (ix2 ⟨b * 2000 + p.val, hn⟩ k) rfl rfl]

private theorem reg3_hz : (![0, 0] : Fin 2 → Nat) = fun _ => 0 := funext fun a => by fin_cases a <;> rfl

/-- The block of each window at grid point `t`: row tile `t` of the aggregate, of the `dv` column and of the output; the
    one block of the bias row and of the weight. -/
private theorem reg3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What grid point `t` writes back is block `t` of the array function of the arrays the region finds. -/
private theorem reg3_flushed (c : Dev nD) (agg : Vec Ideal S100000x128 .f32) (dvc : Vec Ideal S100000x1 .f32) (brow : Vec Ideal S1x128 .f32) (w : Vec Ideal S128x128 .f32)
    (h0 : V c main_v63 = agg) (h1 : V c main_v15 = dvc) (h2 : V c main_v68 = brow) (h3 : V c main_v67 = w) (t : Fin cfg3.N) :
    (dat3 (F := Ideal) V c).flushed 4 t = ((cfg3.win 4).blk t).view.read (Elt Ideal) (reg3_G agg dvc brow w) := by
  show (cfg3.win 4).cut (grid3.coords t) ((dat3 (F := Ideal) V c).after 4 t) = _
  rw [after3_4]
  unfold out3_4
  rw [View.canon_unit_zero reg3_hz]
  simp only [View.ld_unit_zero (S := S2000x1) reg3_hz, View.ld_unit_zero (S := S2000x128) reg3_hz, View.ld_unit_zero (S := S1x128) reg3_hz, View.ld_unit_zero (S := S128x128) reg3_hz]
  obtain ⟨a0, a1, b0, b1, c0, c1, d0, d1, o0, o1⟩ := reg3_idx t
  funext j
  show (k3_pay1 (F := Ideal) (iblk3 V c 1 t) (iblk3 V c 0 t) (iblk3 V c 2 t) (iblk3 V c 3 t)) j
    = reg3_G agg dvc brow w (((cfg3.win 4).blk t).view.emb j)
  refine reg3_point agg dvc brow w (iblk3 V c 1 t) (iblk3 V c 0 t) (iblk3 V c 2 t) (iblk3 V c 3 t) t.val ?_ ?_ ?_ ?_
    j (((cfg3.win 4).blk t).view.emb j) ?_ ?_
  · intro y i hi
    show V c main_v15 (((cfg3.win 1).blk t).view.emb y) = dvc i
    rw [h1]
    refine congrArg dvc (funext fun a => Fin.ext ?_)
    match a with
    | ⟨0, _⟩ => show win3_1.index t (0 : Fin 2) * 2000 + 1 * (y 0).val = (i 0).val; omega
    | ⟨1, _⟩ => show win3_1.index t (1 : Fin 2) * 1 + 1 * (y 1).val = (i 1).val; have := idx2_lt1 y; have := idx2_lt1 i; omega
  · intro y i hi hi'
    show V c main_v63 (((cfg3.win 0).blk t).view.emb y) = agg i
    rw [h0]
    refine congrArg agg (funext fun a => Fin.ext ?_)
    match a with
    | ⟨0, _⟩ => show win3_0.index t (0 : Fin 2) * 2000 + 1 * (y 0).val = (i 0).val; omega
    | ⟨1, _⟩ => show win3_0.index t (1 : Fin 2) * 128 + 1 * (y 1).val = (i 1).val; omega
  · funext y
    show V c main_v68 (((cfg3.win 2).blk t).view.emb y) = brow y
    rw [h2]
    refine congrArg brow (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · funext y
    show V c main_v67 (((cfg3.win 3).blk t).view.emb y) = w y
    rw [h3]
    refine congrArg w (funext fun a => Fin.ext ?_)
    match a with
    | ⟨0, _⟩ => show win3_3.index t (0 : Fin 2) * 128 + 1 * (y 0).val = (y 0).val; omega
    | ⟨1, _⟩ => show win3_3.index t (1 : Fin 2) * 128 + 1 * (y 1).val = (y 1).val; omega
  · show win3_4.index t (0 : Fin 2) * 2000 + 1 * (j 0).val = t.val * 2000 + (j 0).val; omega
  · show win3_4.index t (1 : Fin 2) * 128 + 1 * (j 1).val = (j 1).val; omega

/-- An index of the output array is in point `t`'s block iff each coordinate is in the block's range on its axis. -/
private theorem reg3_mem_blk (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v69).slice (win3_4.rect t)).set ↔ _
  rw [View.set_slice_whole, Rect.mem_set_unit]
  exact Iff.rfl

/-- The 50 row tiles cover the array (row `r` is in tile `r / 2000`), so the array ends at the array function. -/
theorem reg3_arr (c : Dev nD) (agg : Vec Ideal S100000x128 .f32) (dvc : Vec Ideal S100000x1 .f32) (brow : Vec Ideal S1x128 .f32) (w : Vec Ideal S128x128 .f32)
    (h0 : V c main_v63 = agg) (h1 : V c main_v15 = dvc) (h2 : V c main_v68 = brow) (h3 : V c main_v67 = w) :
    (dat3 (F := Ideal) V c).arrAt 4 cfg3.N = reg3_G agg dvc brow w :=
  (dat3 (F := Ideal) V c).arrAt_eq_of_cover 4 (reg3_G agg dvc brow w) (fun t _ => reg3_flushed V c agg dvc brow w h0 h1 h2 h3 t) fun i => by
    have hN : cfg3.N = 50 := N_3
    have hi0 : (i 0).val < 100000 := idx2_lt0 i
    have hi1 : (i 1).val < 128 := idx2_lt1 i
    let t : Fin cfg3.N := ⟨(i 0).val / 2000, by rw [hN]; omega⟩
    obtain ⟨a0, a1, b0, b1, c0, c1, d0, d1, o0, o1⟩ := reg3_idx t
    have ht : t.val = (i 0).val / 2000 := rfl
    refine ⟨t, flush3_4 t, ?_⟩
    rw [reg3_mem_blk]
    intro a
    match a with
    | ⟨0, _⟩ => show win3_4.index t (0 : Fin 2) * 2000 ≤ (i 0).val ∧ (i 0).val < win3_4.index t (0 : Fin 2) * 2000 + 2000; omega
    | ⟨1, _⟩ => show win3_4.index t (1 : Fin 2) * 128 ≤ (i 1).val ∧ (i 1).val < win3_4.index t (1 : Fin 2) * 128 + 128; omega

/-- Region 3's output array, index by index: the kernel's matmul stage applied to the kernel's activation stage of the
    aggregate it finds. -/
theorem reg3_val (c : Dev nD) (agg : Vec Ideal S100000x128 .f32) (dvc : Vec Ideal S100000x1 .f32) (brow : Vec Ideal S1x128 .f32) (w : Vec Ideal S128x128 .f32)
    (h0 : V c main_v63 = agg) (h1 : V c main_v15 = dvc) (h2 : V c main_v68 = brow) (h3 : V c main_v67 = w) (n : Fin 100000) (d : Fin 128) :
    (Gen.dat3 (F := Ideal) V c).arrAt 4 cfg3.N (ix2 n d)
      = GCN.kHW (GCN.kAct (fun n => dvc (ix2 n (0 : Fin 1))) (fun n k => agg (ix2 n k)) (fun k => brow (ix2 (0 : Fin 1) k)))
          (fun k d => w (ix2 k d)) (fun n => dvc (ix2 n (0 : Fin 1))) n d :=
  congrFun (reg3_arr V c agg dvc brow w h0 h1 h2 h3) (ix2 n d)

end Cert.KernelIdeal.RegVal
end
-- ==== Proof.KReg4.lean ====
/-
  Region 4, the pooling region: its output array after the region is, plane by plane, the sum over the plane's 25 row
  tiles of the tile's activated rows weighted by the indicator of each node's graph word.

  The body keeps the output block across the 25 points of a plane: the first point of a plane stores the zero block and
  adds its tile to it, every later point adds its tile to what the point before left, and the last point's block is
  written back. So the block after point `n` is the sum of the plane's tiles up to `n` (by induction on the point), and
  the written-back blocks of the two last points cover the array.
-/
import proofs.«413796_j23914377904291_2_alg».proof.Proof.Gen.KernelIdeal.Frame
import proofs.«413796_j23914377904291_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.ValueIdx Idealize.ShloMosaic.TcCoe Idealize.SL.Sem
open Idealize.ShloMosaic.Pipeline (Dat)

namespace Cert.KernelIdeal.RegVal

open Cert.KernelIdeal Cert.KernelIdeal.Gen

namespace Reg4

/-! ## What each of the two cases leaves in the output block, as the body's arithmetic -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the block `xo` it finds, plus the point's product. -/
theorem out4_B (c : Dev nD) (i : grid4.Coords) (a2 : Memref sig .tc .vmem S2000x128 .f32) (h2 : a2.IsWhole)
    (a3 : Memref sig .tc .vmem S2000x1 .f32) (h3 : a3.IsWhole) (a4 : Memref sig .tc .vmem S1x128 .f32) (h4 : a4.IsWhole)
    (a5 : Memref sig .tc .vmem S2000x1 .i32) (h5 : a5.IsWhole) (a6 : Memref sig .tc .vmem S1x512x128 .f32) (h6 : a6.IsWhole)
    (hc : ¬cond4_0 i) (x0 : Vec F S2000x128 .f32) (x1 : Vec F S2000x1 .f32) (x2 : Vec F S1x128 .f32) (x3 : Vec F S2000x1 .i32)
    (xo : Vec F S1x512x128 .f32) :
    out4_B_4 c i a2 h2 a3 h3 a4 h4 a5 h5 a6 h6 hc x0 x1 x2 x3 xo = k4_pay2 x1 x0 x2 x3 xo := by
  unfold out4_B_4
  rw [View.read_writes_eq_canon _ _ _ (cover4_B_4 c i a2 h2 a3 h3 a4 h4 a5 h5 a6 h6 hc x0 x1 x2 x3 xo)]
  unfold kernelRun4_B
  dsimp only
  sl_unfold_words
  rw [View.canon_unit_zero hz3]
  simp only [View.readAt_eq_ld, h2.read_unread, h3.read_unread, h4.read_unread, h5.read_unread, h6.read_unread,
    View.ld_unit_zero (S := S2000x128) hz2, View.ld_unit_zero (S := S2000x1) hz2, View.ld_unit_zero (S := S1x128) hz2,
    View.ld_unit_zero (S := S1x512x128) hz3]

/-- A point that resets: the zero block, plus the point's product. -/
theorem out4_A (c : Dev nD) (i : grid4.Coords) (a2 : Memref sig .tc .vmem S2000x128 .f32) (h2 : a2.IsWhole)
    (a3 : Memref sig .tc .vmem S2000x1 .f32) (h3 : a3.IsWhole) (a4 : Memref sig .tc .vmem S1x128 .f32) (h4 : a4.IsWhole)
    (a5 : Memref sig .tc .vmem S2000x1 .i32) (h5 : a5.IsWhole) (a6 : Memref sig .tc .vmem S1x512x128 .f32) (h6 : a6.IsWhole)
    (hc : cond4_0 i) (x0 : Vec F S2000x128 .f32) (x1 : Vec F S2000x1 .f32) (x2 : Vec F S1x128 .f32) (x3 : Vec F S2000x1 .i32) :
    out4_A_4 c i a2 h2 a3 h3 a4 h4 a5 h5 a6 h6 hc x0 x1 x2 x3 = k4_pay2 x1 x0 x2 x3 (k4_pay1 (F := F)) := by
  unfold out4_A_4
  rw [View.read_writes_eq_canon _ _ _ (cover4_A_4 c i a2 h2 a3 h3 a4 h4 a5 h5 a6 h6 hc x0 x1 x2 x3)]
  unfold kernelRun4_A
  dsimp only
  sl_unfold_words
  rw [View.canon_cons_unit_zero (S := S1x512x128) hz3, View.readCov_unit_zero (S := S1x512x128) _ hz3]
  simp only [View.readAt_eq_ld, h2.read_unread, h3.read_unread, h4.read_unread, h5.read_unread,
    View.ld_unit_zero (S := S2000x128) hz2, View.ld_unit_zero (S := S2000x1) hz2, View.ld_unit_zero (S := S1x128) hz2]

end Pieces

/-! ## The body's arithmetic read at an index of the block, on the extended reals -/

/-- The pooling product: node axis of both operands contracted. -/
abbrev D4 : DotDims S2000x512 S2000x128 S512x128 := dot_S2000x512_S2000x128_S512x128_0_0_1_1_n_n

/-- The operands' indices at an output index and a contraction position: the node axis reads the position, the other
    axis the output's coordinate. -/
theorem D4_lhs0 (i : S512x128.Idx) (q : D4.contr.Idx) : (D4.lhsIdx i q 0).val = (q ⟨0, by decide⟩).val :=
  D4.lhsIdx_val_of_single rfl i q
theorem D4_lhs1 (i : S512x128.Idx) (q : D4.contr.Idx) : (D4.lhsIdx i q 1).val = (i 0).val := by
  unfold DotDims.lhsIdx
  rw [dif_neg (show ¬(1 : Fin S2000x512.rank) ∈ D4.lhsBatch by decide), dif_pos (show (1 : Fin S2000x512.rank) ∈ D4.lhsNonContracting by decide)]
  rfl
theorem D4_rhs0 (i : S512x128.Idx) (q : D4.contr.Idx) : (D4.rhsIdx i q 0).val = (q ⟨0, by decide⟩).val :=
  D4.rhsIdx_val_of_single rfl i q
theorem D4_rhs1 (i : S512x128.Idx) (q : D4.contr.Idx) : (D4.rhsIdx i q 1).val = (i 1).val := by
  unfold DotDims.rhsIdx
  rw [dif_neg (show ¬(1 : Fin S2000x128.rank) ∈ D4.rhsBatch by decide), dif_pos (show (1 : Fin S2000x128.rank) ∈ D4.rhsNonContracting by decide)]
  rfl

/-- A column `[a, 1]` broadcast to `[a, b]` reads, at `(p, c)`, the column at `p`. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison word widened and read as a signed integer: the indicator of equality. -/
theorem onehot_word (w v : BitVec 32) :
    ((((IntOp.cmpi .eq w v).setWidth 32).toInt : ℝ) : EReal) = if w = v then (1 : EReal) else 0 := by
  by_cases h : w = v
  · subst h; simp [IntOp.cmpi]
  · have hb : (w == v) = false := beq_eq_false_iff_ne.mpr h
    simp [IntOp.cmpi, hb, h]

/-- The reset block is zero everywhere. -/
theorem pay1_apply (u : Fin 1) (g : Fin 512) (d : Fin 128) : (k4_pay1 (F := Ideal)) (ix3 u g d) = 0 := by
  unfold k4_pay1
  refine (shapeCast_ab_1ab_apply _ _ u g d).trans ?_
  exact Ideal.ofBits_zero_f32

theorem pay2_apply (v3 : Vec Ideal S2000x1 .f32) (v5 : Vec Ideal S2000x128 .f32) (v9 : Vec Ideal S1x128 .f32)
    (v15 : Vec Ideal S2000x1 .i32) (v25 : Vec Ideal S1x512x128 .f32) (u : Fin 1) (g : Fin 512) (d : Fin 128) :
    k4_pay2 v3 v5 v9 v15 v25 (ix3 u g d)
      = v25 (ix3 (0 : Fin 1) g d) + ∑ k : Fin 2000, (if v15 (ix2 k (0 : Fin 1)) = BitVec.ofNat 32 g.val then (1 : EReal) else 0)
          * max (v3 (ix2 k (0 : Fin 1)) * v5 (ix2 k d) + v9 (ix2 (0 : Fin 1) d)) 0 := by
  unfold k4_pay2
  refine (shapeCast_ab_1ab_apply _ _ u g d).trans ?_
  refine (addf_apply _ _ _).trans ?_
  refine congr (congrArg HAdd.hAdd (shapeCast_1ab_ab_apply v25 _ g d)) ?_
  refine (Ideal.matmul_constant_zero_apply D4 none _ _ (ix2 g d)).trans ?_
  rw [← Equiv.sum_comp (contrEquiv1 D4 2000 rfl rfl).symm]
  refine Finset.sum_congr rfl fun k _ => ?_
  have hk := contrEquiv1_symm_val D4 2000 rfl rfl k
  have el : D4.lhsIdx (ix2 g d) ((contrEquiv1 D4 2000 rfl rfl).symm k) = ix2 k g := funext fun a => Fin.ext (by
    match a with
    | ⟨0, _⟩ => exact (D4_lhs0 _ _).trans hk
    | ⟨1, _⟩ => exact D4_lhs1 _ _)
  have er : D4.rhsIdx (ix2 g d) ((contrEquiv1 D4 2000 rfl rfl).symm k) = ix2 k d := funext fun a => Fin.ext (by
    match a with
    | ⟨0, _⟩ => exact (D4_rhs0 _ _).trans hk
    | ⟨1, _⟩ => exact D4_rhs1 _ _)
  rw [el, er]
  refine congr (congrArg HMul.hMul ?_) ?_
  · have hB : broadcastTo S2000x512 (shapeCast S2000x1 v15 shapeCasts_S2000x1_S2000x1) broadcasts_S2000x1_S2000x512 (ix2 k g)
        = v15 (ix2 k (0 : Fin 1)) := by
      rw [shapeCast_self]; exact bcast_col_apply v15 _ k g
    have hI : iota Kind.tc S2000x512 32 [1] iota_S2000x512_d1_w32 (ix2 k g) = BitVec.ofNat 32 g.val :=
      iota_single_apply .tc S2000x512 32 1 iota_S2000x512_d1_w32 (ix2 k g)
    show ((((IntOp.cmpi .eq
        (broadcastTo S2000x512 (shapeCast S2000x1 v15 shapeCasts_S2000x1_S2000x1) broadcasts_S2000x1_S2000x512 (ix2 k g))
        (iota Kind.tc S2000x512 32 [1] iota_S2000x512_d1_w32 (ix2 k g))).setWidth 32).toInt : ℝ) : EReal) = _
    rw [hB, hI]
    exact onehot_word _ _
  · refine (truncf_apply (ψ := .bf16) _ bitsLt_bf16_f32 (ix2 k d)).trans ?_
    refine (maximumf_apply _ _ _).trans ?_
    refine congr (congrArg max ?_) Ideal.ofBits_zero_f32
    refine (addf_apply _ _ _).trans ?_
    refine congr (congrArg HAdd.hAdd ?_) ?_
    · refine (mulf_apply _ _ _).trans ?_
      refine congr (congrArg HMul.hMul ?_) ?_
      · rw [shapeCast_self]; exact bcast_col_apply v3 _ k d
      · rw [shapeCast_self]
    · rw [shapeCast_self]; exact broadcastTo_1b_ab_apply v9 _ k d

/-! ## The input blocks at a point, the point's tile, and the block after each point -/

section Blocks
variable (V : (c : Dev nD) → (b : Ref sig .tc) → Buf (Elt Ideal) ((c : Thread nD τ).loc b))

/-- The four input blocks at a point: the aggregate's row tile, the scale column's, the bias row, the graph words'. -/
abbrev xb0 (c : Dev nD) (t : Fin cfg4.N) : Vec Ideal S2000x128 .f32 := iblk4 (F := Ideal) V c 0 t
abbrev xb1 (c : Dev nD) (t : Fin cfg4.N) : Vec Ideal S2000x1 .f32 := iblk4 (F := Ideal) V c 1 t
abbrev xb2 (c : Dev nD) (t : Fin cfg4.N) : Vec Ideal S1x128 .f32 := iblk4 (F := Ideal) V c 2 t
abbrev xb3 (c : Dev nD) (t : Fin cfg4.N) : Vec Ideal S2000x1 .i32 := iblk4 (F := Ideal) V c 3 t

/-- The windows' block indices over the 50 points: the three node windows walk the row tiles in point order, the bias row
    stays, the output moves to the second plane after 25 points. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 3) = t.val / 25 ∧ win4_4.index t (1 : Fin 3) = 0 ∧ win4_4.index t (2 : Fin 3) = 0 :=
  (by decide +kernel : ∀ t : Fin grid4.N, _)

theorem lt50 (t : Fin cfg4.N) : t.val < 50 := lt_of_lt_of_eq t.isLt (show cfg4.N = 50 from N_4)

/-- Node `k` of row tile `p`. -/
def nodeAt (p : ℕ) (hp : p < 50) (k : Fin 2000) : Fin 100000 := ⟨p * 2000 + k.val, by have := k.isLt; omega⟩

theorem xb0_apply (c : Dev nD) (t : Fin cfg4.N) (agg : Vec Ideal S100000x128 .f32) (h0 : V c main_v80 = agg) (k : Fin 2000) (d : Fin 128) :
    xb0 V c t (ix2 k d) = agg (ix2 (nodeAt t.val (lt50 t) k) d) := by
  show ((cfg4.win 0).blk t).view.read (Elt Ideal) (V c main_v80) (ix2 k d) = _
  rw [View.read_apply]
  refine (congrFun h0 _).trans (congrArg agg ?_)
  funext a; apply Fin.ext
  match a with
  | ⟨0, _⟩ => show win4_0.index t (0 : Fin 2) * 2000 + 1 * k.val = t.val * 2000 + k.val; rw [(idx4 t).1]; omega
  | ⟨1, _⟩ => show win4_0.index t (1 : Fin 2) * 128 + 1 * d.val = d.val; rw [(idx4 t).2.1]; omega

theorem xb1_apply (c : Dev nD) (t : Fin cfg4.N) (dvc : Vec Ideal S100000x1 .f32) (h1 : V c main_v15 = dvc) (k : Fin 2000) :
    xb1 V c t (ix2 k (0 : Fin 1)) = dvc (ix2 (nodeAt t.val (lt50 t) k) (0 : Fin 1)) := by
  show ((cfg4.win 1).blk t).view.read (Elt Ideal) (V c main_v15) (ix2 k (0 : Fin 1)) = _
  rw [View.read_apply]
  refine (congrFun h1 _).trans (congrArg dvc ?_)
  funext a; apply Fin.ext
  match a with
  | ⟨0, _⟩ => show win4_1.index t (0 : Fin 2) * 2000 + 1 * k.val = t.val * 2000 + k.val; rw [(idx4 t).2.2.1]; omega
  | ⟨1, _⟩ => show win4_1.index t (1 : Fin 2) * 1 + 1 * 0 = 0; rw [(idx4 t).2.2.2.1]

theorem xb2_apply (c : Dev nD) (t : Fin cfg4.N) (brow : Vec Ideal S1x128 .f32) (h2 : V c main_v83 = brow) (d : Fin 128) :
    xb2 V c t (ix2 (0 : Fin 1) d) = brow (ix2 (0 : Fin 1) d) := by
  show ((cfg4.win 2).blk t).view.read (Elt Ideal) (V c main_v83) (ix2 (0 : Fin 1) d) = _
  rw [View.read_apply]
  refine (congrFun h2 _).trans (congrArg brow ?_)
  funext a; apply Fin.ext
  match a with
  | ⟨0, _⟩ => show win4_2.index t (0 : Fin 2) * 1 + 1 * 0 = 0; rw [(idx4 t).2.2.2.2.1]
  | ⟨1, _⟩ => show win4_2.index t (1 : Fin 2) * 128 + 1 * d.val = d.val; rw [(idx4 t).2.2.2.2.2.1]; omega

theorem xb3_apply (c : Dev nD) (t : Fin cfg4.N) (btc : IVec S100000x1 32) (h3 : V c main_v84 = btc) (k : Fin 2000) :
    xb3 V c t (ix2 k (0 : Fin 1)) = btc (ix2 (nodeAt t.val (lt50 t) k) (0 : Fin 1)) := by
  show ((cfg4.win 3).blk t).view.read (Elt Ideal) (V c main_v84) (ix2 k (0 : Fin 1)) = _
  rw [View.read_apply]
  refine (congrFun h3 _).trans (congrArg btc ?_)
  funext a; apply Fin.ext
  match a with
  | ⟨0, _⟩ => show win4_3.index t (0 : Fin 2) * 2000 + 1 * k.val = t.val * 2000 + k.val; rw [(idx4 t).2.2.2.2.2.2.1]; omega
  | ⟨1, _⟩ => show win4_3.index t (1 : Fin 2) * 1 + 1 * 0 = 0; rw [(idx4 t).2.2.2.2.2.2.2.1]

/-- Row tile `p`'s contribution to graph `g`: its nodes' rows, each weighted by the indicator of its graph word. -/
def tileAt (bt : Fin 100000 → BitVec 32) (a : GCN.Row) (p : ℕ) (hp : p < 50) (g : Fin 512) (d : Fin 128) : EReal :=
  ∑ k : Fin 2000, (if bt (nodeAt p hp k) = BitVec.ofNat 32 g.val then (1 : EReal) else 0) * a (nodeAt p hp k) d

/-- One point: the body adds the point's row tile to what the block held. -/
theorem step_apply (c : Dev nD) (agg : Vec Ideal S100000x128 .f32) (dvc : Vec Ideal S100000x1 .f32) (brow : Vec Ideal S1x128 .f32) (btc : IVec S100000x1 32)
    (h0 : V c main_v80 = agg) (h1 : V c main_v15 = dvc) (h2 : V c main_v83 = brow) (h3 : V c main_v84 = btc)
    (t : Fin cfg4.N) (acc : Vec Ideal S1x512x128 .f32) (u : Fin 1) (g : Fin 512) (d : Fin 128) :
    k4_pay2 (xb1 V c t) (xb0 V c t) (xb2 V c t) (xb3 V c t) acc (ix3 u g d)
      = acc (ix3 (0 : Fin 1) g d) + tileAt (fun n => btc (ix2 n (0 : Fin 1)))
          (GCN.kAct (fun n => dvc (ix2 n (0 : Fin 1))) (fun n k => agg (ix2 n k)) (fun k => brow (ix2 (0 : Fin 1) k))) t.val (lt50 t) g d := by
  refine (pay2_apply (xb1 V c t) (xb0 V c t) (xb2 V c t) (xb3 V c t) acc u g d).trans ?_
  refine congrArg (acc (ix3 (0 : Fin 1) g d) + ·) (Finset.sum_congr rfl fun k _ => ?_)
  rw [xb0_apply V c t agg h0 k d, xb1_apply V c t dvc h1 k, xb2_apply V c t brow h2 d, xb3_apply V c t btc h3 k]
  rfl

end Blocks

section Invariant
variable (V : (c : Dev nD) → (b : Ref sig .tc) → Buf (Elt Ideal) ((c : Thread nD τ).loc b))
variable (c : Dev nD) (agg : Vec Ideal S100000x128 .f32) (dvc : Vec Ideal S100000x1 .f32) (brow : Vec Ideal S1x128 .f32) (btc : IVec S100000x1 32)
variable (h0 : V c main_v80 = agg) (h1 : V c main_v15 = dvc) (h2 : V c main_v83 = brow) (h3 : V c main_v84 = btc)

/-- The nodes' graph words and the activated rows, as the network's functions of the four arrays. -/
abbrev bwords (btc : IVec S100000x1 32) : Fin 100000 → BitVec 32 := fun n => btc (ix2 n (0 : Fin 1))
abbrev arows (agg : Vec Ideal S100000x128 .f32) (dvc : Vec Ideal S100000x1 .f32) (brow : Vec Ideal S1x128 .f32) : GCN.Row :=
  GCN.kAct (fun n => dvc (ix2 n (0 : Fin 1))) (fun n k => agg (ix2 n k)) (fun k => brow (ix2 (0 : Fin 1) k))

include h0 h1 h2 h3 in
/-- At a point that resets, the block holds the point's row tile alone. -/
theorem outsAt_reset (t : Fin cfg4.N) (hA : t.val % 25 = 0) (u : Fin 1) (g : Fin 512) (d : Fin 128) :
    outsAt4 V c t.val t.isLt (ix3 u g d) = tileAt (bwords btc) (arows agg dvc brow) t.val (lt50 t) g d := by
  rw [outsAt4_A V c t hA]
  refine (congrFun (out4_A (F := Ideal) c (grid4.coords t) (ms4_0 t) (hs4_0 t) (ms4_1 t) (hs4_1 t) (ms4_2 t) (hs4_2 t) (ms4_3 t) (hs4_3 t)
    (ms4_4 t) (hs4_4 t) ((hcond4_0 t).mpr hA) (iblk4 V c 0 t) (iblk4 V c 1 t) (iblk4 V c 2 t) (iblk4 V c 3 t)) (ix3 u g d)).trans ?_
  refine (step_apply V c agg dvc brow btc h0 h1 h2 h3 t (k4_pay1 (F := Ideal)) u g d).trans ?_
  rw [pay1_apply, zero_add]

include h0 h1 h2 h3 in
/-- At any other point, it holds what the point before left plus the point's row tile. -/
theorem outsAt_carry (t : Fin cfg4.N) (hB : ¬t.val % 25 = 0) (u : Fin 1) (g : Fin 512) (d : Fin 128) :
    outsAt4 V c t.val t.isLt (ix3 u g d)
      = outsAt4 V c (t.val - 1) (Nat.lt_of_le_of_lt (Nat.sub_le _ _) t.isLt) (ix3 (0 : Fin 1) g d)
        + tileAt (bwords btc) (arows agg dvc brow) t.val (lt50 t) g d := by
  rw [outsAt4_B V c t hB]
  refine (congrFun (out4_B (F := Ideal) c (grid4.coords t) (ms4_0 t) (hs4_0 t) (ms4_1 t) (hs4_1 t) (ms4_2 t) (hs4_2 t) (ms4_3 t) (hs4_3 t)
    (ms4_4 t) (hs4_4 t) (fun h => hB ((hcond4_0 t).mp h)) (iblk4 V c 0 t) (iblk4 V c 1 t) (iblk4 V c 2 t) (iblk4 V c 3 t)
    (outsAt4 V c (t.val - 1) (Nat.lt_of_le_of_lt (Nat.sub_le _ _) t.isLt))) (ix3 u g d)).trans ?_
  exact step_apply V c agg dvc brow btc h0 h1 h2 h3 t (outsAt4 V c (t.val - 1) (Nat.lt_of_le_of_lt (Nat.sub_le _ _) t.isLt)) u g d

/-- Row tile `p`'s contribution, zero past the last tile. -/
def tileN (bt : Fin 100000 → BitVec 32) (a : GCN.Row) (p : ℕ) (g : Fin 512) (d : Fin 128) : EReal :=
  if h : p < 50 then tileAt bt a p h g d else 0

theorem tileN_of_eq (bt : Fin 100000 → BitVec 32) (a : GCN.Row) (p q : ℕ) (hq : q < 50) (e : p = q) (g : Fin 512) (d : Fin 128) :
    tileN bt a p g d = tileAt bt a q hq g d := by
  subst e; exact dif_pos hq

include h0 h1 h2 h3 in
/-- After point `n` the block holds the sum of its plane's row tiles up to `n`. -/
theorem outsAt_eq : ∀ (n : ℕ) (hn : n < cfg4.N) (u : Fin 1) (g : Fin 512) (d : Fin 128),
    outsAt4 V c n hn (ix3 u g d)
      = ∑ j ∈ Finset.range (n % 25 + 1), tileN (bwords btc) (arows agg dvc brow) (n / 25 * 25 + j) g d
  | 0, hn, u, g, d => by
    refine (outsAt_reset V c agg dvc brow btc h0 h1 h2 h3 ⟨0, hn⟩ rfl u g d).trans ?_
    rw [show (0 % 25 + 1) = 1 from rfl, Finset.sum_range_one]
    exact (tileN_of_eq _ _ _ 0 _ rfl g d).symm
  | n + 1, hn, u, g, d => by
    have h50 : n + 1 < 50 := lt50 ⟨n + 1, hn⟩
    by_cases hA : (n + 1) % 25 = 0
    · refine (outsAt_reset V c agg dvc brow btc h0 h1 h2 h3 ⟨n + 1, hn⟩ hA u g d).trans ?_
      rw [hA, Finset.sum_range_one]
      exact (tileN_of_eq _ _ ((n + 1) / 25 * 25 + 0) (n + 1) h50 (by omega) g d).symm
    · refine (outsAt_carry V c agg dvc brow btc h0 h1 h2 h3 ⟨n + 1, hn⟩ hA u g d).trans ?_
      show outsAt4 V c n _ (ix3 (0 : Fin 1) g d) + tileAt _ _ (n + 1) _ g d = _
      rw [outsAt_eq n _ 0 g d]
      have e1 : (n + 1) % 25 = n % 25 + 1 := by omega
      have e2 : (n + 1) / 25 = n / 25 := by omega
      rw [e1, e2, Finset.sum_range_succ _ (n % 25 + 1)]
      exact congrArg (HAdd.hAdd _) (tileN_of_eq _ _ (n / 25 * 25 + (n % 25 + 1)) (n + 1) h50 (by omega) g d).symm

theorem kPoolPart_congr (bt : Fin 100000 → BitVec 32) (a : GCN.Row) (p p' : Fin 2) (g g' : Fin 512) (d d' : Fin 128)
    (hp : p.val = p'.val) (hg : g.val = g'.val) (hd : d.val = d'.val) : GCN.kPoolPart bt a p g d = GCN.kPoolPart bt a p' g' d' := by
  obtain rfl := Fin.ext hp; obtain rfl := Fin.ext hg; obtain rfl := Fin.ext hd; rfl

include h0 h1 h2 h3 in
/-- After the last point of a plane the block holds the plane. -/
theorem outsAt_last (t : Fin cfg4.N) (h24 : t.val % 25 = 24) (u : Fin 1) (g : Fin 512) (d : Fin 128) :
    outsAt4 V c t.val t.isLt (ix3 u g d)
      = GCN.kPoolPart (bwords btc) (arows agg dvc brow) ⟨t.val / 25, by have := lt50 t; omega⟩ g d := by
  have h50 := lt50 t
  rw [outsAt_eq V c agg dvc brow btc h0 h1 h2 h3 t.val t.isLt u g d, h24, Finset.sum_range]
  refine Finset.sum_congr rfl fun i _ => ?_
  have hi := i.isLt
  exact tileN_of_eq _ _ _ (t.val / 25 * 25 + i.val) (by omega) rfl g d

/-- The pooled planes as one function of the output array's index. -/
def poolArr (btc : IVec S100000x1 32) (agg : Vec Ideal S100000x128 .f32) (dvc : Vec Ideal S100000x1 .f32) (brow : Vec Ideal S1x128 .f32) :
    Vec Ideal S2x512x128 .f32 := fun i =>
  GCN.kPoolPart (bwords btc) (arows agg dvc brow) ⟨(i 0).val, (i 0).isLt⟩ ⟨(i 1).val, (i 1).isLt⟩ ⟨(i 2).val, (i 2).isLt⟩

include h0 h1 h2 h3 in
/-- What a plane's last point writes back is that plane of `poolArr`. -/
theorem flushed_eq (t : Fin cfg4.N) (hf : (cfg4.win 4).flush t = true) :
    (dat4 V c).flushed 4 t = ((cfg4.win 4).blk t).view.read (Elt Ideal) (poolArr btc agg dvc brow) := by
  have h24 : t.val % 25 = 24 := (flush4_4 t).mp hf
  show (cfg4.win 4).cut (grid4.coords t) ((dat4 V c).after 4 t) = _
  rw [after4_4]
  funext y
  have hy0 : (y 0).val < 1 := (y 0).isLt
  have hy : y = ix3 (⟨(y 0).val, (y 0).isLt⟩ : Fin 1) (⟨(y 1).val, (y 1).isLt⟩ : Fin 512) (⟨(y 2).val, (y 2).isLt⟩ : Fin 128) :=
    funext fun a => match a with | ⟨0, _⟩ => rfl | ⟨1, _⟩ => rfl | ⟨2, _⟩ => rfl
  refine ((congrArg (outsAt4 V c t.val t.isLt) hy).trans
    (outsAt_last V c agg dvc brow btc h0 h1 h2 h3 t h24 _ _ _)).trans ?_
  rw [View.read_apply]
  obtain ⟨-, -, -, -, -, -, -, -, e8, e9, e10⟩ := idx4 t
  refine kPoolPart_congr _ _ _ _ _ _ _ _ ?_ ?_ ?_
  · show t.val / 25 = win4_4.index t (0 : Fin 3) * 1 + 1 * (y 0).val
    rw [e8]; omega
  · show (y 1).val = win4_4.index t (1 : Fin 3) * 512 + 1 * (y 1).val
    rw [e9]; omega
  · show (y 2).val = win4_4.index t (2 : Fin 3) * 128 + 1 * (y 2).val
    rw [e10]; omega

/-- An index of the output array is in point `t`'s block iff each coordinate is in the block's range on its axis. -/
theorem mem_blk4 (t : Fin cfg4.N) (i : S2x512x128.Idx) :
    i ∈ ((cfg4.win 4).blk t).view.set
      ↔ ∀ a : Fin 3, win4_4.index t a * S1x512x128.size a ≤ (i a).val ∧ (i a).val < win4_4.index t a * S1x512x128.size a + S1x512x128.size a := by
  show i ∈ ((View.whole main_v85).slice (win4_4.rect t)).set ↔ _
  rw [View.set_slice_whole, Rect.mem_set_unit]
  exact Iff.rfl

/-- Every index of the output array is in the block of its plane's last point. -/
theorem cover4 (i : S2x512x128.Idx) : ∃ t : Fin cfg4.N, (cfg4.win 4).flush t = true ∧ i ∈ ((cfg4.win 4).blk t).view.set := by
  have hi0 : (i 0).val < 2 := (i 0).isLt
  have hi1 : (i 1).val < 512 := (i 1).isLt
  have hi2 : (i 2).val < 128 := (i 2).isLt
  have hN : cfg4.N = 50 := N_4
  have ht : (i 0).val * 25 + 24 < cfg4.N := by rw [hN]; omega
  refine ⟨⟨(i 0).val * 25 + 24, ht⟩, (flush4_4 _).mpr (by show ((i 0).val * 25 + 24) % 25 = 24; omega), ?_⟩
  rw [mem_blk4]
  obtain ⟨-, -, -, -, -, -, -, -, e8, e9, e10⟩ := idx4 ⟨(i 0).val * 25 + 24, ht⟩
  intro a
  match a with
  | ⟨0, _⟩ =>
    show win4_4.index ⟨(i 0).val * 25 + 24, ht⟩ (0 : Fin 3) * 1 ≤ (i 0).val ∧ (i 0).val < win4_4.index ⟨(i 0).val * 25 + 24, ht⟩ (0 : Fin 3) * 1 + 1
    rw [e8]; show ((i 0).val * 25 + 24) / 25 * 1 ≤ (i 0).val ∧ (i 0).val < ((i 0).val * 25 + 24) / 25 * 1 + 1; omega
  | ⟨1, _⟩ =>
    show win4_4.index ⟨(i 0).val * 25 + 24, ht⟩ (1 : Fin 3) * 512 ≤ (i 1).val ∧ (i 1).val < win4_4.index ⟨(i 0).val * 25 + 24, ht⟩ (1 : Fin 3) * 512 + 512
    rw [e9]; omega
  | ⟨2, _⟩ =>
    show win4_4.index ⟨(i 0).val * 25 + 24, ht⟩ (2 : Fin 3) * 128 ≤ (i 2).val ∧ (i 2).val < win4_4.index ⟨(i 0).val * 25 + 24, ht⟩ (2 : Fin 3) * 128 + 128
    rw [e10]; omega

include h0 h1 h2 h3 in
/-- The output array after the region: the two planes. -/
theorem final4 : (dat4 V c).arrAt 4 cfg4.N = poolArr btc agg dvc brow :=
  (dat4 V c).arrAt_eq_of_cover 4 (poolArr btc agg dvc brow) (flushed_eq V c agg dvc brow btc h0 h1 h2 h3) cover4

end Invariant

end Reg4

section Statement
variable (V : (c : Dev nD) → (b : Ref sig .tc) → Buf (Elt Ideal) ((c : Thread nD τ).loc b))

/-- Region 4's output array, index by index: plane `cc` of the pooling of the activated rows. -/
theorem reg4_val (c : Dev nD) (agg : Vec Ideal S100000x128 .f32) (dvc : Vec Ideal S100000x1 .f32) (brow : Vec Ideal S1x128 .f32) (btc : IVec S100000x1 32)
    (h0 : V c main_v80 = agg) (h1 : V c main_v15 = dvc) (h2 : V c main_v83 = brow) (h3 : V c main_v84 = btc) (cc : Fin 2) (g : Fin 512) (d : Fin 128) :
    (Gen.dat4 (F := Ideal) V c).arrAt 4 cfg4.N (ix3 cc g d)
      = GCN.kPoolPart (fun n => btc (ix2 n (0 : Fin 1)))
          (GCN.kAct (fun n => dvc (ix2 n (0 : Fin 1))) (fun n k => agg (ix2 n k)) (fun k => brow (ix2 (0 : Fin 1) k))) cc g d :=
  (congrFun (Reg4.final4 V c agg dvc brow btc h0 h1 h2 h3) (ix3 cc g d)).trans rfl

end Statement

end Cert.KernelIdeal.RegVal

end
-- ==== Proof.KReg5.lean ====
/-
  Region 5, the head of the network, read off the kernel's frame.

  The region has one grid point, and at it every window's block is its whole array. The body loads the pooled rows
  `p` [512,128], two square weights with their bias rows, the output column `w3` [128,1] and the output bias [1,1],
  and stores, for graph `g`,
      logistic (Σ_k h2 g k * w3 k + b3),   h2 = max (h1 W2 + b2) 0,   h1 = max (p W1 + b1) 0,
  each product a sum over the 128 contracted features into a zero accumulator, the changes of float format the
  identity on the extended reals. That is `GCN.head` index by index; the one block covers the result array.
-/
import proofs.«413796_j23914377904291_2_alg».proof.Proof.Gen.KernelIdeal.Frame
import proofs.«413796_j23914377904291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal

open Cert.KernelIdeal Cert.KernelIdeal.Gen
open Idealize.ShloMosaic Idealize.ShloMosaic.ValueIdx Idealize.ShloMosaic.TcCoe
open Idealize.ShloMosaic.Pipeline (Dat)

/-! ## The two products' operand indices, axis by axis

A hidden product contracts axis 1 of a [512,128] operand with axis 0 of a [128,128] one; the output product contracts
axis 1 of a [512,128] operand with axis 0 of a [128,1] one. In both, the left operand is read at (row of the result,
contracted index) and the right operand at (contracted index, column of the result). -/

private theorem hid_lhs_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
private theorem hid_lhs_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
private theorem hid_rhs_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
private theorem hid_rhs_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

private theorem outp_lhs_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
private theorem outp_lhs_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
private theorem outp_rhs_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
private theorem outp_rhs_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-! ## The products and a hidden layer at an index -/

/-- A hidden product at `(g, d)`: the sum over the 128 contracted features of row `g` times column `d`. -/
theorem reg5_hidden_mm_apply (a : FVec Ideal S512x128 .bf16) (b : FVec Ideal S128x128 .bf16) (g : Fin 512) (d : Fin 128) :
    FloatOps.matmul (F := Ideal) dot_S512x128_S128x128_S512x128_1_0_0_1_n_n none a b (constant (F := Ideal) S512x128 .f32 0x00000000#32) (ix2 g d)
      = ∑ k : Fin 128, a (ix2 g k) * b (ix2 k d) := by
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 g d) ((contrEquiv1 dot_S512x128_S128x128_S512x128_1_0_0_1_n_n 128 rfl rfl).symm k) = ix2 g k := funext fun a => Fin.ext (by
    match a with
    | ⟨0, _⟩ => exact hid_lhs_0 _ _
    | ⟨1, _⟩ => exact (hid_lhs_1 _ _).trans hk)
  have er : dot_S512x128_S128x128_S512x128_1_0_0_1_n_n.rhsIdx (ix2 g d) ((contrEquiv1 dot_S512x128_S128x128_S512x128_1_0_0_1_n_n 128 rfl rfl).symm k) = ix2 k d := funext fun a => Fin.ext (by
    match a with
    | ⟨0, _⟩ => exact (hid_rhs_0 _ _).trans hk
    | ⟨1, _⟩ => exact hid_rhs_1 _ _)
  rw [el, er]

/-- The output product at `(g, d)`, `d` the one column: the sum over the 128 contracted features. -/
theorem reg5_out_mm_apply (a : FVec Ideal S512x128 .bf16) (b : FVec Ideal S128x1 .bf16) (g : Fin 512) (d : Fin 1) :
    FloatOps.matmul (F := Ideal) dot_S512x128_S128x1_S512x1_1_0_0_1_n_n none a b (constant (F := Ideal) S512x1 .f32 0x00000000#32) (ix2 g d)
      = ∑ k : Fin 128, a (ix2 g k) * b (ix2 k d) := by
  rw [Ideal.matmul_constant_zero_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 g d) ((contrEquiv1 dot_S512x128_S128x1_S512x1_1_0_0_1_n_n 128 rfl rfl).symm k) = ix2 g k := funext fun a => Fin.ext (by
    match a with
    | ⟨0, _⟩ => exact outp_lhs_0 _ _
    | ⟨1, _⟩ => exact (outp_lhs_1 _ _).trans hk)
  have er : dot_S512x128_S128x1_S512x1_1_0_0_1_n_n.rhsIdx (ix2 g d) ((contrEquiv1 dot_S512x128_S128x1_S512x1_1_0_0_1_n_n 128 rfl rfl).symm k) = ix2 k d := funext fun a => Fin.ext (by
    match a with
    | ⟨0, _⟩ => exact (outp_rhs_0 _ _).trans hk
    | ⟨1, _⟩ => exact outp_rhs_1 _ _)
  rw [el, er]

/-- One hidden layer at `(g, d)`: the product, the bias row's entry `d` added, the maximum with zero. -/
theorem reg5_hidden_apply (a : FVec Ideal S512x128 .bf16) (w : FVec Ideal S128x128 .bf16) (b : FVec Ideal S1x128 .f32)
    (h1 : S1x128.ShapeCasts S1x128) (h2 : S1x128.Broadcasts S512x128) (g : Fin 512) (d : Fin 128) :
    maximumf (addf (FloatOps.matmul (F := Ideal) dot_S512x128_S128x128_S512x128_1_0_0_1_n_n none a w (constant (F := Ideal) S512x128 .f32 0x00000000#32))
        (broadcastTo S512x128 (shapeCast S1x128 b h1) h2))
      (broadcast S512x128 (Scalar.ofBits (F := Ideal) .f32 0x00000000#32)) (ix2 g d)
      = max ((∑ k : Fin 128, a (ix2 g k) * w (ix2 k d)) + b (ix2 (0 : Fin 1) d)) 0 := by
  refine (maximumf_apply _ _ _).trans ?_
  refine congrArg₂ max ?_ ?_
  · refine (addf_apply _ _ _).trans ?_
    refine congrArg₂ (· + ·) (reg5_hidden_mm_apply a w g d) ?_
    rw [shapeCast_self]
    exact broadcastTo_1b_ab_apply b h2 g d
  · exact Ideal.ofBits_zero_f32

/-! ## The body's stored value -/

/-- The body's stored value for graph `g`: the pooled row through the two hidden layers, the output product, the
    output bias added, the logistic function. -/
theorem reg5_pay_apply (x0 : Vec Ideal S512x128 .f32) (x1 : Vec Ideal S128x128 .f32) (x2 : Vec Ideal S1x128 .f32) (x3 : Vec Ideal S128x128 .f32)
    (x4 : Vec Ideal S1x128 .f32) (x5 : Vec Ideal S128x1 .f32) (x6 : Vec Ideal S1x1 .f32) (g : Fin 512) :
    k5_pay1 (F := Ideal) x0 x1 x2 x3 x4 x5 x6 (ix2 g (0 : Fin 1))
      = GCN.head (fun g k => x0 (ix2 g k)) (fun k d => x1 (ix2 k d)) (fun d => x2 (ix2 (0 : Fin 1) d)) (fun k d => x3 (ix2 k d))
          (fun d => x4 (ix2 (0 : Fin 1) d)) (fun k => x5 (ix2 k (0 : Fin 1))) (x6 (ix2 (0 : Fin 1) (0 : Fin 1))) g := by
  unfold k5_pay1 GCN.head GCN.dense
  refine congrArg Ideal.logistic ?_
  refine (addf_apply _ _ _).trans ?_
  refine congrArg₂ (· + ·) ?_ ?_
  · simp only [matmul]
    refine (reg5_out_mm_apply _ _ g 0).trans ?_
    refine Finset.sum_congr rfl fun k _ => ?_
    refine congrArg₂ (· * ·) ?_ ?_
    · refine (truncf_apply (φ := FTy.f32) (ψ := FTy.bf16) _ _ _).trans ?_
      refine (reg5_hidden_apply _ _ _ _ _ g k).trans ?_
      refine congrArg₂ max (congrArg₂ (· + ·) (Finset.sum_congr rfl fun j _ => ?_) rfl) rfl
      refine congrArg₂ (· * ·) ?_ (truncf_apply (φ := FTy.f32) (ψ := FTy.bf16) _ _ _)
      refine (truncf_apply (φ := FTy.f32) (ψ := FTy.bf16) _ _ _).trans ?_
      refine (reg5_hidden_apply _ _ _ _ _ g j).trans ?_
      refine congrArg₂ max (congrArg₂ (· + ·) (Finset.sum_congr rfl fun i _ => ?_) rfl) rfl
      refine congrArg₂ (· * ·) ?_ (truncf_apply (φ := FTy.f32) (ψ := FTy.bf16) _ _ _)
      refine (truncf_apply (φ := FTy.f32) (ψ := FTy.bf16) _ _ _).trans ?_
      rw [shapeCast_self]
    · exact truncf_apply (φ := FTy.f32) (ψ := FTy.bf16) _ _ _
  · rw [shapeCast_self]
    exact broadcastTo_1b_ab_apply x6 _ g (0 : Fin 1)

/-! ## From the one block to the array -/

variable (V : (c : Dev nD) → (b : Ref sig .tc) → Buf (Elt Ideal) ((c : Thread nD τ).loc b))

private theorem zeros2 : (![0, 0] : Fin 2 → Nat) = fun _ => 0 := funext fun a => by fin_cases a <;> rfl

/-- The head's result as an array: graph `g`'s value at `(g, 0)`. -/
def reg5_headArr (p : Vec Ideal S512x128 .f32) (w1 : Vec Ideal S128x128 .f32) (b1 : Vec Ideal S1x128 .f32) (w2 : Vec Ideal S128x128 .f32)
    (b2 : Vec Ideal S1x128 .f32) (w3 : Vec Ideal S128x1 .f32) (b3 : Vec Ideal S1x1 .f32) : Vec Ideal S512x1 .f32 :=
  fun i => GCN.head (fun g k => p (ix2 g k)) (fun k d => w1 (ix2 k d)) (fun d => b1 (ix2 (0 : Fin 1) d)) (fun k d => w2 (ix2 k d))
    (fun d => b2 (ix2 (0 : Fin 1) d)) (fun k => w3 (ix2 k (0 : Fin 1))) (b3 (ix2 (0 : Fin 1) (0 : Fin 1))) ⟨(i 0).val, idx2_lt0 i⟩

/-- The grid has one point, and at it each input window's block is its whole array: the block index is zero on both
    axes and the block has the array's extents. -/
theorem reg5_blk_0 (c : Dev nD) (t : Fin cfg5.N) : iblk5 V c 0 t = V c main_v90 := by
  obtain rfl : t = t5_0 := fin_N5 t
  have hz' : (fun a => win5_0.index t5_0 a * main_v90.ty.shape.size a) = fun _ => 0 := funext fun a => by fin_cases a <;> decide
  exact Memref.read_access_unit_zero (Elt Ideal) main_v90 hz' (fun a => by rw [congrFun hz' a]; simp) (V c main_v90)
theorem reg5_blk_1 (c : Dev nD) (t : Fin cfg5.N) : iblk5 V c 1 t = V c main_arg5 := by
  obtain rfl : t = t5_0 := fin_N5 t
  have hz' : (fun a => win5_1.index t5_0 a * main_arg5.ty.shape.size a) = fun _ => 0 := funext fun a => by fin_cases a <;> decide
  exact Memref.read_access_unit_zero (Elt Ideal) main_arg5 hz' (fun a => by rw [congrFun hz' a]; simp) (V c main_arg5)
theorem reg5_blk_2 (c : Dev nD) (t : Fin cfg5.N) : iblk5 V c 2 t = V c main_v91 := by
  obtain rfl : t = t5_0 := fin_N5 t
  have hz' : (fun a => win5_2.index t5_0 a * main_v91.ty.shape.size a) = fun _ => 0 := funext fun a => by fin_cases a <;> decide
  exact Memref.read_access_unit_zero (Elt Ideal) main_v91 hz' (fun a => by rw [congrFun hz' a]; simp) (V c main_v91)
theorem reg5_blk_3 (c : Dev nD) (t : Fin cfg5.N) : iblk5 V c 3 t = V c main_arg7 := by
  obtain rfl : t = t5_0 := fin_N5 t
  have hz' : (fun a => win5_3.index t5_0 a * main_arg7.ty.shape.size a) = fun _ => 0 := funext fun a => by fin_cases a <;> decide
  exact Memref.read_access_unit_zero (Elt Ideal) main_arg7 hz' (fun a => by rw [congrFun hz' a]; simp) (V c main_arg7)
theorem reg5_blk_4 (c : Dev nD) (t : Fin cfg5.N) : iblk5 V c 4 t = V c main_v92 := by
  obtain rfl : t = t5_0 := fin_N5 t
  have hz' : (fun a => win5_4.index t5_0 a * main_v92.ty.shape.size a) = fun _ => 0 := funext fun a => by fin_cases a <;> decide
  exact Memref.read_access_unit_zero (Elt Ideal) main_v92 hz' (fun a => by rw [congrFun hz' a]; simp) (V c main_v92)
theorem reg5_blk_5 (c : Dev nD) (t : Fin cfg5.N) : iblk5 V c 5 t = V c main_arg9 := by
  obtain rfl : t = t5_0 := fin_N5 t
  have hz' : (fun a => win5_5.index t5_0 a * main_arg9.ty.shape.size a) = fun _ => 0 := funext fun a => by fin_cases a <;> decide
  exact Memref.read_access_unit_zero (Elt Ideal) main_arg9 hz' (fun a => by rw [congrFun hz' a]; simp) (V c main_arg9)
theorem reg5_blk_6 (c : Dev nD) (t : Fin cfg5.N) : iblk5 V c 6 t = V c main_v93 := by
  obtain rfl : t = t5_0 := fin_N5 t
  have hz' : (fun a => win5_6.index t5_0 a * main_v93.ty.shape.size a) = fun _ => 0 := funext fun a => by fin_cases a <;> decide
  exact Memref.read_access_unit_zero (Elt Ideal) main_v93 hz' (fun a => by rw [congrFun hz' a]; simp) (V c main_v93)

/-- What the one point writes back is the head's array: the output's block is the whole result array, and the body's
    one store fills it with its stored value, which is the head at each graph. -/
theorem reg5_flushed_eq (c : Dev nD) (p : Vec Ideal S512x128 .f32) (w1 : Vec Ideal S128x128 .f32) (b1 : Vec Ideal S1x128 .f32) (w2 : Vec Ideal S128x128 .f32)
    (b2 : Vec Ideal S1x128 .f32) (w3 : Vec Ideal S128x1 .f32) (b3 : Vec Ideal S1x1 .f32)
    (h0 : V c main_v90 = p) (h1 : V c main_arg5 = w1) (h2 : V c main_v91 = b1) (h3 : V c main_arg7 = w2) (h4 : V c main_v92 = b2)
    (h5 : V c main_arg9 = w3) (h6 : V c main_v93 = b3) (t : Fin cfg5.N) :
    (dat5 (F := Ideal) V c).flushed 7 t = ((cfg5.win 7).blk t).view.read (Elt Ideal) (reg5_headArr p w1 b1 w2 b2 w3 b3) := by
  show (cfg5.win 7).cut (grid5.coords t) ((dat5 (F := Ideal) V c).after 7 t) = _
  rw [after5_7, reg5_blk_0, reg5_blk_1, reg5_blk_2, reg5_blk_3, reg5_blk_4, reg5_blk_5, reg5_blk_6, h0, h1, h2, h3, h4, h5, h6]
  obtain rfl : t = t5_0 := fin_N5 t
  have hz' : (fun a => win5_7.index t5_0 a * main_v94.ty.shape.size a) = fun _ => 0 := funext fun a => by fin_cases a <;> decide
  refine Eq.trans ?_ (Memref.read_access_unit_zero (Elt Ideal) main_v94 hz' (fun a => by rw [congrFun hz' a]; simp) (reg5_headArr p w1 b1 w2 b2 w3 b3)).symm
  unfold out5_7
  rw [View.canon_unit_zero zeros2]
  simp only [View.ld_unit_zero (S := S512x128) zeros2, View.ld_unit_zero (S := S128x128) zeros2, View.ld_unit_zero (S := S1x128) zeros2,
    View.ld_unit_zero (S := S128x1) zeros2, View.ld_unit_zero (S := S1x1) zeros2]
  funext i
  obtain ⟨g, z, rfl⟩ : ∃ (g : Fin 512) (z : Fin 1), i = ix2 g z := ⟨i 0, i 1, eq_ix2 i⟩
  obtain rfl : z = 0 := Subsingleton.elim _ _
  exact reg5_pay_apply p w1 b1 w2 b2 w3 b3 g

/-- The result array after the region, whole: the one point's block covers it. -/
theorem reg5_arr (c : Dev nD) (p : Vec Ideal S512x128 .f32) (w1 : Vec Ideal S128x128 .f32) (b1 : Vec Ideal S1x128 .f32) (w2 : Vec Ideal S128x128 .f32)
    (b2 : Vec Ideal S1x128 .f32) (w3 : Vec Ideal S128x1 .f32) (b3 : Vec Ideal S1x1 .f32)
    (h0 : V c main_v90 = p) (h1 : V c main_arg5 = w1) (h2 : V c main_v91 = b1) (h3 : V c main_arg7 = w2) (h4 : V c main_v92 = b2)
    (h5 : V c main_arg9 = w3) (h6 : V c main_v93 = b3) :
    (dat5 (F := Ideal) V c).arrAt 7 cfg5.N = reg5_headArr p w1 b1 w2 b2 w3 b3 :=
  (dat5 (F := Ideal) V c).arrAt_eq_of_cover 7 (reg5_headArr p w1 b1 w2 b2 w3 b3)
    (fun t _ => reg5_flushed_eq V c p w1 b1 w2 b2 w3 b3 h0 h1 h2 h3 h4 h5 h6 t) fun i =>
    ⟨t5_0, flush5_7 t5_0, by
      show i ∈ ((View.whole main_v94).slice (win5_7.rect t5_0)).set
      rw [View.set_slice_whole, Rect.mem_set_unit]
      intro a
      have e0 : (i 0 : Nat) < 512 := (i 0).isLt
      have e1 : (i 1 : Nat) < 1 := (i 1).isLt
      match a with
      | ⟨0, _⟩ => show win5_7.index t5_0 0 * win5_7.size 0 ≤ (i 0 : Nat) ∧ (i 0 : Nat) < win5_7.index t5_0 0 * win5_7.size 0 + win5_7.xsize (grid5.coords t5_0) 0
                  rw [show win5_7.index t5_0 0 * win5_7.size 0 = 0 from by decide +kernel, show win5_7.xsize (grid5.coords t5_0) 0 = 512 from by decide +kernel]; omega
      | ⟨1, _⟩ => show win5_7.index t5_0 1 * win5_7.size 1 ≤ (i 1 : Nat) ∧ (i 1 : Nat) < win5_7.index t5_0 1 * win5_7.size 1 + win5_7.xsize (grid5.coords t5_0) 1
                  rw [show win5_7.index t5_0 1 * win5_7.size 1 = 0 from by decide +kernel, show win5_7.xsize (grid5.coords t5_0) 1 = 1 from by decide +kernel]; omega⟩

/-- Region 5's result at graph `g`: the head of the network on the pooled rows. -/
theorem reg5_val (c : Dev nD) (p : Vec Ideal S512x128 .f32) (w1 : Vec Ideal S128x128 .f32) (b1 : Vec Ideal S1x128 .f32) (w2 : Vec Ideal S128x128 .f32) (b2 : Vec Ideal S1x128 .f32) (w3 : Vec Ideal S128x1 .f32) (b3 : Vec Ideal S1x1 .f32)
    (h0 : V c main_v90 = p) (h1 : V c main_arg5 = w1) (h2 : V c main_v91 = b1) (h3 : V c main_arg7 = w2) (h4 : V c main_v92 = b2) (h5 : V c main_arg9 = w3) (h6 : V c main_v93 = b3) (g : Fin 512) :
    (Gen.dat5 (F := Ideal) V c).arrAt 7 cfg5.N (ix2 g (0 : Fin 1))
      = GCN.head (fun g k => p (ix2 g k)) (fun k d => w1 (ix2 k d)) (fun d => b1 (ix2 (0 : Fin 1) d)) (fun k d => w2 (ix2 k d)) (fun d => b2 (ix2 (0 : Fin 1) d))
          (fun k => w3 (ix2 k (0 : Fin 1))) (b3 (ix2 (0 : Fin 1) (0 : Fin 1))) g :=
  congrFun (reg5_arr V c p w1 b1 w2 b2 w3 b3 h0 h1 h2 h3 h4 h5 h6) (ix2 g (0 : Fin 1))

end Cert.KernelIdeal.RegVal

end
-- ==== Proof.KValue.lean ====
/-
  The kernel's result, index by index, as the network of Spec.lean.

  The result array is what the head region leaves; its first input is the two pooled planes added; each plane is what
  the pooling region leaves from the last aggregate; each aggregate is the host's gather and accumulating scatter of
  the previous matmul region's output; and each matmul region's output is `h W` with its rows scaled, where `h`
  is the input array for the first layer and, for the later ones, the previous aggregate scaled, biased and clipped
  inside the region itself. Unrolled from the result down to the input array, that is `GCN.kNet`.
-/
import proofs.«413796_j23914377904291_2_alg».proof.Proof.KHost
import proofs.«413796_j23914377904291_2_alg».proof.Proof.KReg0
import proofs.«413796_j23914377904291_2_alg».proof.Proof.KReg1
import proofs.«413796_j23914377904291_2_alg».proof.Proof.KReg2
import proofs.«413796_j23914377904291_2_alg».proof.Proof.KReg3
import proofs.«413796_j23914377904291_2_alg».proof.Proof.KReg4
import proofs.«413796_j23914377904291_2_alg».proof.Proof.KReg5

set_option maxRecDepth 16384

noncomputable section

namespace Cert.KernelIdeal.KValue

open Cert.KernelIdeal Cert.KernelIdeal.Gen Cert.KernelIdeal.KHost
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The argument arrays, typed -/
abbrev a0 (c : Dev nD) : Vec Ideal S100000x128 .f32 := m ((c : Thread nD τ).loc main_arg0)
abbrev a1 (c : Dev nD) : IVec S2x640000 32 := m ((c : Thread nD τ).loc main_arg1)
abbrev a2 (c : Dev nD) : IVec S100000 32 := m ((c : Thread nD τ).loc main_arg2)
abbrev a3 (c : Dev nD) : Vec Ideal S4x128x128 .f32 := m ((c : Thread nD τ).loc main_arg3)
abbrev a4 (c : Dev nD) : Vec Ideal S4x128 .f32 := m ((c : Thread nD τ).loc main_arg4)
abbrev a5 (c : Dev nD) : Vec Ideal S128x128 .f32 := m ((c : Thread nD τ).loc main_arg5)
abbrev a6 (c : Dev nD) : Vec Ideal S128 .f32 := m ((c : Thread nD τ).loc main_arg6)
abbrev a7 (c : Dev nD) : Vec Ideal S128x128 .f32 := m ((c : Thread nD τ).loc main_arg7)
abbrev a8 (c : Dev nD) : Vec Ideal S128 .f32 := m ((c : Thread nD τ).loc main_arg8)
abbrev a9 (c : Dev nD) : Vec Ideal S128x1 .f32 := m ((c : Thread nD τ).loc main_arg9)
abbrev a10 (c : Dev nD) : Vec Ideal S1 .f32 := m ((c : Thread nD τ).loc main_arg10)

/-! ## The network's data, from the kernel's host terms -/
/-- The scatter word of edge `e`. -/
def sI (c : Dev nD) : Fin 740000 → BitVec 32 := fun e => kSIc (a1 m c) (ix2 e (0 : Fin 1))
/-- The gather word of edge `e`. -/
def gS (c : Dev nD) : Fin 740000 → BitVec 32 := fun e => kGSc (a1 m c) (ix2 e (0 : Fin 1))
/-- `deg^(-1/2)` of node `n`. -/
def dv (c : Dev nD) : Fin 100000 → EReal := fun n => kDinvC (a1 m c) (ix2 n (0 : Fin 1))
def xr (c : Dev nD) : GCN.Row := fun n k => a0 m c (ix2 n k)
def Wl (c : Dev nD) : Fin 4 → GCN.Mat := fun l k d => a3 m c (ix3 l k d)
def bl (c : Dev nD) : Fin 4 → Fin 128 → EReal := fun l d => a4 m c (ix2 l d)
def bt (c : Dev nD) : Fin 100000 → BitVec 32 := fun n => a2 m c (ix1 n)

/-- The activations after `l` layers. -/
def h1 (c : Dev nD) : GCN.Row := GCN.kStep (sI m c) (gS m c) (dv m c) (xr m c) (Wl m c 0) (bl m c 0)
def h2 (c : Dev nD) : GCN.Row := GCN.kStep (sI m c) (gS m c) (dv m c) (h1 m c) (Wl m c 1) (bl m c 1)
def h3 (c : Dev nD) : GCN.Row := GCN.kStep (sI m c) (gS m c) (dv m c) (h2 m c) (Wl m c 2) (bl m c 2)
def h4 (c : Dev nD) : GCN.Row := GCN.kStep (sI m c) (gS m c) (dv m c) (h3 m c) (Wl m c 3) (bl m c 3)

/-! ## Each region's output array is what its pipeline leaves -/
theorem p18 (c : Dev nD) : Gen.V4 m ρ c main_v18 = (Gen.dat0 (Gen.V3 m ρ) c).arrAt 3 cfg0.N := Gen.W4_arr m ρ c 3
theorem p35 (c : Dev nD) : Gen.V6 m ρ c main_v35 = (Gen.dat1 (Gen.V5 m ρ) c).arrAt 4 cfg1.N := Gen.W6_arr m ρ c 4
theorem p52 (c : Dev nD) : Gen.V8 m ρ c main_v52 = (Gen.dat2 (Gen.V7 m ρ) c).arrAt 4 cfg2.N := Gen.W8_arr m ρ c 4
theorem p69 (c : Dev nD) : Gen.V10 m ρ c main_v69 = (Gen.dat3 (Gen.V9 m ρ) c).arrAt 4 cfg3.N := Gen.W10_arr m ρ c 4
theorem p85 (c : Dev nD) : Gen.V12 m ρ c main_v85 = (Gen.dat4 (Gen.V11 m ρ) c).arrAt 4 cfg4.N := Gen.W12_arr m ρ c 4
theorem p94 (c : Dev nD) : Gen.W14 m ρ c (Proc.devRef .tc main_v94) = (Gen.dat5 (Gen.V13 m ρ) c).arrAt 7 cfg5.N := Gen.W14_arr m ρ c 7

/-! ## The layers -/

theorem hw0 (c : Dev nD) (n : Fin 100000) (d : Fin 128) :
    @Eq EReal (Gen.V4 m ρ c main_v18 (ix2 n d)) (GCN.kHW (xr m c) (Wl m c 0) (dv m c) n d) := by
  refine (congrFun (p18 m ρ c) (ix2 n d)).trans ?_
  rw [RegVal.reg0_val (Gen.V3 m ρ) c (a0 m c) (kWl0 (a3 m c)) (kDinvC (a1 m c)) (ent0_arg0 m ρ c) (ent0_v17 m ρ c) (ent0_v15 m ρ c) n d]
  have e3 : (fun k d => kWl0 (a3 m c) (ix2 k d) : GCN.Mat) = Wl m c 0 := funext fun k => funext fun d => kWl0_apply _ k d
  rw [e3]
  rfl

theorem agg0 (c : Dev nD) (n : Fin 100000) (k : Fin 128) :
    @Eq EReal (Gen.V5 m ρ c main_v29 (ix2 n k)) (GCN.kAgg (sI m c) (gS m c) (GCN.kHW (xr m c) (Wl m c 0) (dv m c)) n k) := by
  have h : @Eq EReal (Gen.V5 m ρ c main_v29 (ix2 n k)) (kAggArr (a1 m c) (Gen.V4 m ρ c main_v18) (ix2 n k)) :=
    congrFun (ent1_v29 m ρ c) (ix2 n k)
  rw [h, kAggArr_apply]
  unfold GCN.kAgg sI gS
  exact Finset.sum_congr rfl fun e _ => hw0 m ρ c _ _

theorem hw1 (c : Dev nD) (n : Fin 100000) (d : Fin 128) :
    @Eq EReal (Gen.V6 m ρ c main_v35 (ix2 n d)) (GCN.kHW (h1 m c) (Wl m c 1) (dv m c) n d) := by
  refine (congrFun (p35 m ρ c) (ix2 n d)).trans ?_
  rw [RegVal.reg1_val (Gen.V5 m ρ) c (Gen.V5 m ρ c main_v29) (kDinvC (a1 m c)) (kBrow0 (a4 m c)) (kWl1 (a3 m c)) rfl (ent1_v15 m ρ c) (ent1_v34 m ρ c) (ent1_v33 m ρ c) n d]
  have e1 : (fun n k => Gen.V5 m ρ c main_v29 (ix2 n k) : GCN.Row) = GCN.kAgg (sI m c) (gS m c) (GCN.kHW (xr m c) (Wl m c 0) (dv m c)) :=
    funext fun n => funext fun k => agg0 m ρ c n k
  have e2 : (fun k => kBrow0 (a4 m c) (ix2 (0 : Fin 1) k) : Fin 128 → EReal) = bl m c 0 := funext fun k => kBrow0_apply _ k
  have e3 : (fun k d => kWl1 (a3 m c) (ix2 k d) : GCN.Mat) = Wl m c 1 := funext fun k => funext fun d => kWl1_apply _ k d
  rw [e1, e2, e3]
  rfl

theorem agg1 (c : Dev nD) (n : Fin 100000) (k : Fin 128) :
    @Eq EReal (Gen.V7 m ρ c main_v46 (ix2 n k)) (GCN.kAgg (sI m c) (gS m c) (GCN.kHW (h1 m c) (Wl m c 1) (dv m c)) n k) := by
  have h : @Eq EReal (Gen.V7 m ρ c main_v46 (ix2 n k)) (kAggArr (a1 m c) (Gen.V6 m ρ c main_v35) (ix2 n k)) :=
    congrFun (ent2_v46 m ρ c) (ix2 n k)
  rw [h, kAggArr_apply]
  unfold GCN.kAgg sI gS
  exact Finset.sum_congr rfl fun e _ => hw1 m ρ c _ _

theorem hw2 (c : Dev nD) (n : Fin 100000) (d : Fin 128) :
    @Eq EReal (Gen.V8 m ρ c main_v52 (ix2 n d)) (GCN.kHW (h2 m c) (Wl m c 2) (dv m c) n d) := by
  refine (congrFun (p52 m ρ c) (ix2 n d)).trans ?_
  rw [RegVal.reg2_val (Gen.V7 m ρ) c (Gen.V7 m ρ c main_v46) (kDinvC (a1 m c)) (kBrow1 (a4 m c)) (kWl2 (a3 m c)) rfl (ent2_v15 m ρ c) (ent2_v51 m ρ c) (ent2_v50 m ρ c) n d]
  have e1 : (fun n k => Gen.V7 m ρ c main_v46 (ix2 n k) : GCN.Row) = GCN.kAgg (sI m c) (gS m c) (GCN.kHW (h1 m c) (Wl m c 1) (dv m c)) :=
    funext fun n => funext fun k => agg1 m ρ c n k
  have e2 : (fun k => kBrow1 (a4 m c) (ix2 (0 : Fin 1) k) : Fin 128 → EReal) = bl m c 1 := funext fun k => kBrow1_apply _ k
  have e3 : (fun k d => kWl2 (a3 m c) (ix2 k d) : GCN.Mat) = Wl m c 2 := funext fun k => funext fun d => kWl2_apply _ k d
  rw [e1, e2, e3]
  rfl

theorem agg2 (c : Dev nD) (n : Fin 100000) (k : Fin 128) :
    @Eq EReal (Gen.V9 m ρ c main_v63 (ix2 n k)) (GCN.kAgg (sI m c) (gS m c) (GCN.kHW (h2 m c) (Wl m c 2) (dv m c)) n k) := by
  have h : @Eq EReal (Gen.V9 m ρ c main_v63 (ix2 n k)) (kAggArr (a1 m c) (Gen.V8 m ρ c main_v52) (ix2 n k)) :=
    congrFun (ent3_v63 m ρ c) (ix2 n k)
  rw [h, kAggArr_apply]
  unfold GCN.kAgg sI gS
  exact Finset.sum_congr rfl fun e _ => hw2 m ρ c _ _

theorem hw3 (c : Dev nD) (n : Fin 100000) (d : Fin 128) :
    @Eq EReal (Gen.V10 m ρ c main_v69 (ix2 n d)) (GCN.kHW (h3 m c) (Wl m c 3) (dv m c) n d) := by
  refine (congrFun (p69 m ρ c) (ix2 n d)).trans ?_
  rw [RegVal.reg3_val (Gen.V9 m ρ) c (Gen.V9 m ρ c main_v63) (kDinvC (a1 m c)) (kBrow2 (a4 m c)) (kWl3 (a3 m c)) rfl (ent3_v15 m ρ c) (ent3_v68 m ρ c) (ent3_v67 m ρ c) n d]
  have e1 : (fun n k => Gen.V9 m ρ c main_v63 (ix2 n k) : GCN.Row) = GCN.kAgg (sI m c) (gS m c) (GCN.kHW (h2 m c) (Wl m c 2) (dv m c)) :=
    funext fun n => funext fun k => agg2 m ρ c n k
  have e2 : (fun k => kBrow2 (a4 m c) (ix2 (0 : Fin 1) k) : Fin 128 → EReal) = bl m c 2 := funext fun k => kBrow2_apply _ k
  have e3 : (fun k d => kWl3 (a3 m c) (ix2 k d) : GCN.Mat) = Wl m c 3 := funext fun k => funext fun d => kWl3_apply _ k d
  rw [e1, e2, e3]
  rfl

theorem agg3 (c : Dev nD) (n : Fin 100000) (k : Fin 128) :
    @Eq EReal (Gen.V11 m ρ c main_v80 (ix2 n k)) (GCN.kAgg (sI m c) (gS m c) (GCN.kHW (h3 m c) (Wl m c 3) (dv m c)) n k) := by
  have h : @Eq EReal (Gen.V11 m ρ c main_v80 (ix2 n k)) (kAggArr (a1 m c) (Gen.V10 m ρ c main_v69) (ix2 n k)) :=
    congrFun (ent4_v80 m ρ c) (ix2 n k)
  rw [h, kAggArr_apply]
  unfold GCN.kAgg sI gS
  exact Finset.sum_congr rfl fun e _ => hw3 m ρ c _ _

/-! ## Pooling and the head -/

theorem planes (c : Dev nD) (cc : Fin 2) (g : Fin 512) (d : Fin 128) :
    @Eq EReal (Gen.V12 m ρ c main_v85 (ix3 cc g d)) (GCN.kPoolPart (bt m c) (h4 m c) cc g d) := by
  refine (congrFun (p85 m ρ c) (ix3 cc g d)).trans ?_
  rw [RegVal.reg4_val (Gen.V11 m ρ) c (Gen.V11 m ρ c main_v80) (kDinvC (a1 m c)) (kBrow3 (a4 m c)) (kBtC (a2 m c)) rfl (ent4_v15 m ρ c) (ent4_v83 m ρ c) (ent4_v84 m ρ c) cc g d]
  have e1 : (fun n k => Gen.V11 m ρ c main_v80 (ix2 n k) : GCN.Row) = GCN.kAgg (sI m c) (gS m c) (GCN.kHW (h3 m c) (Wl m c 3) (dv m c)) :=
    funext fun n => funext fun k => agg3 m ρ c n k
  have e2 : (fun k => kBrow3 (a4 m c) (ix2 (0 : Fin 1) k) : Fin 128 → EReal) = bl m c 3 := funext fun k => kBrow3_apply _ k
  have e3 : (fun n => kBtC (a2 m c) (ix2 n (0 : Fin 1)) : Fin 100000 → BitVec 32) = bt m c := funext fun n => kBtC_apply _ n
  rw [e1, e2, e3]
  rfl

theorem pooled (c : Dev nD) (g : Fin 512) (d : Fin 128) :
    @Eq EReal (Gen.V13 m ρ c main_v90 (ix2 g d)) (GCN.kPool (bt m c) (h4 m c) g d) := by
  refine (congrFun (ent5_v90 m ρ c) (ix2 g d)).trans ?_
  rw [kPooled_apply, planes, planes]
  rfl

/-- THE KERNEL'S RESULT at graph `g`. -/
theorem kernel_final (c : Dev nD) (g : Fin 512) :
    (Gen.W14 m ρ c (Proc.devRef .tc main_v94) : Vec Ideal S512x1 .f32) (ix2 g (0 : Fin 1))
      = GCN.kNet (sI m c) (gS m c) (dv m c) (bt m c) (xr m c) (Wl m c) (bl m c)
          (fun k d => a5 m c (ix2 k d)) (fun d => a6 m c (ix1 d)) (fun k d => a7 m c (ix2 k d)) (fun d => a8 m c (ix1 d))
          (fun k => a9 m c (ix2 k (0 : Fin 1))) (a10 m c (ix1 (0 : Fin 1))) g := by
  refine (congrFun (p94 m ρ c) (ix2 g (0 : Fin 1))).trans ?_
  rw [RegVal.reg5_val (Gen.V13 m ρ) c (Gen.V13 m ρ c main_v90) (a5 m c) (kB1r (a6 m c)) (a7 m c) (kB2r (a8 m c)) (a9 m c) (kB3r (a10 m c))
    rfl (ent5_arg5 m ρ c) (ent5_v91 m ρ c) (ent5_arg7 m ρ c) (ent5_v92 m ρ c) (ent5_arg9 m ρ c) (ent5_v93 m ρ c) g]
  have hp : (fun g k => Gen.V13 m ρ c main_v90 (ix2 g k) : Fin 512 → Fin 128 → EReal) = GCN.kPool (bt m c) (h4 m c) :=
    funext fun g => funext fun k => pooled m ρ c g k
  have f1 : (fun d => kB1r (a6 m c) (ix2 (0 : Fin 1) d) : Fin 128 → EReal) = fun d => a6 m c (ix1 d) := funext fun d => kB1r_apply _ d
  have f2 : (fun d => kB2r (a8 m c) (ix2 (0 : Fin 1) d) : Fin 128 → EReal) = fun d => a8 m c (ix1 d) := funext fun d => kB2r_apply _ d
  rw [hp, f1, f2, kB3r_apply]
  rfl

end Cert.KernelIdeal.KValue

end
-- ==== Proof.RFinalA.lean ====
/-
  The reference's data-dependent operations read at an index, over arrays held as variables, and one whole
  graph-convolution layer of the reference read at an index.

  A row gather reads the row its start word names (signed, clamped); the accumulating row scatter adds to row
  `n` the update rows of the edges whose word, read signed, is `n`; a `dot_general` over one contracted axis is the
  sum of the products along it. A layer is: the product `h W`, its rows gathered along the edges, each row scaled
  by the edge's weight, the rows scattered onto their destinations from zero, the bias added, the result clipped at
  zero. With the edge weight `dv (src e) * dv (dst e)` that is `GCN.rStep`.
-/
import proofs.«413796_j23914377904291_2_alg».proof.Proof.Gen.ReferenceIdeal
import proofs.«413796_j23914377904291_2_alg».proof.Proof.Spec
import proofs.«413796_j23914377904291_2_alg».proof.Proof.LibGatherScatter
import Idealize.ShloMosaic.Lib.ValueIdx
import Idealize.ShloMosaic.PureOps.Ideal.Laws

noncomputable section

namespace Cert.ReferenceIdeal.RFinal

open Cert.ReferenceIdeal Cert.ReferenceIdeal.Gen Idealize.ShloMosaic Idealize.ShloMosaic.ValueIdx LibGatherScatter

/-! ## Gathers and scatters at an index -/

/-- Entry `(e, k)` of the row gather along the edges: the table at the row the edge's word names, column `k`. -/
theorem gather_rows_read (H : FVec Ideal S100000x128 .f32) (idx : IVec S740000x1 32) (e : Fin 740000) (k : Fin 128) :
    Host.gather gather_S100000x128_S740000x1_S740000x128_1_0_n_n_0_1_1128 H idx (ix2 e k)
      = H (ix2 (clampRow 100000 (by decide) (idx (ix2 e (0 : Fin 1)))) k) :=
  gather_rows_apply (N := 100000) (E := 740000) (D := 128) (by decide)
    Facts₀.gather_S100000x128_S740000x1_S740000x128_1_0_n_n_0_1_1128_wf H idx e k

/-- Entry `e` of the gather of a per-node vector along the edges. -/
theorem gather_vec_read (v : FVec Ideal S100000 .f32) (idx : IVec S740000x1 32) (e : Fin 740000) :
    Host.gather gather_S100000_S740000x1_S740000_n_0_n_n_0_1_1 v idx (ix1 e)
      = v (ix1 (clampRow 100000 (by decide) (idx (ix2 e (0 : Fin 1))))) :=
  gather_vec_apply (N := 100000) (E := 740000) (by decide)
    Facts₀.gather_S100000_S740000x1_S740000_n_0_n_n_0_1_1_wf v idx e

/-- The accumulating scatter of edge rows onto node rows, at `(n, d)`. -/
theorem scatter_rows_read (x : FVec Ideal S100000x128 .f32) (idx : IVec S740000x1 32) (upd : FVec Ideal S740000x128 .f32)
    (n : Fin 100000) (d : Fin 128) :
    Host.scatterAdd scatter_S100000x128_S740000x1_S740000x128_1_0_0_1 x idx upd (ix2 n d)
      = x (ix2 n d) + ∑ e ∈ Finset.univ.filter (fun e : Fin 740000 => (idx (ix2 e (0 : Fin 1))).toInt = (n.val : ℤ)), upd (ix2 e d) :=
  scatterAdd_rows_apply (N := 100000) (E := 740000) (D := 128)
    Facts₀.scatter_S100000x128_S740000x1_S740000x128_1_0_0_1_wf x idx upd n d

/-- The accumulating scatter of node rows onto graph rows, at `(g, d)`. -/
theorem scatter_pool_read (x : FVec Ideal S512x128 .f32) (idx : IVec S100000x1 32) (upd : FVec Ideal S100000x128 .f32)
    (g : Fin 512) (d : Fin 128) :
    Host.scatterAdd scatter_S512x128_S100000x1_S100000x128_1_0_0_1 x idx upd (ix2 g d)
      = x (ix2 g d) + ∑ n ∈ Finset.univ.filter (fun n : Fin 100000 => (idx (ix2 n (0 : Fin 1))).toInt = (g.val : ℤ)), upd (ix2 n d) :=
  scatterAdd_rows_apply (N := 512) (E := 100000) (D := 128)
    Facts₀.scatter_S512x128_S100000x1_S100000x128_1_0_0_1_wf x idx upd g d

/-! ## The layer's matrix product at an index -/

/-- The left operand's index at output `i` and contraction index `q`: row of `i`, column `q`. -/
theorem dot_lhs0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem dot_lhs1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- The right operand's: row `q`, column of `i`. -/
theorem dot_rhs0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem dot_rhs1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- `(h W) (n, d) = Σ_k h (n, k) * W (k, d)`. -/
theorem dot_rows_read (h : FVec Ideal S100000x128 .f32) (w : FVec Ideal S128x128 .f32) (n : Fin 100000) (d : Fin 128) :
    Host.dotGeneral dot_S100000x128_S128x128_S100000x128_1_0_0_1_n_n none h w (ix2 n d)
      = ∑ k : Fin 128, h (ix2 n k) * w (ix2 k d) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n d) ((contrEquiv1 dot_S100000x128_S128x128_S100000x128_1_0_0_1_n_n 128 rfl rfl).symm k) = ix2 n k :=
    funext fun a => Fin.ext (by
      match a with
      | ⟨0, _⟩ => exact dot_lhs0 _ _
      | ⟨1, _⟩ => exact (dot_lhs1 _ _).trans hk)
  have er : dot_S100000x128_S128x128_S100000x128_1_0_0_1_n_n.rhsIdx (ix2 n d) ((contrEquiv1 dot_S100000x128_S128x128_S100000x128_1_0_0_1_n_n 128 rfl rfl).symm k) = ix2 k d :=
    funext fun a => Fin.ext (by
      match a with
      | ⟨0, _⟩ => exact (dot_rhs0 _ _).trans hk
      | ⟨1, _⟩ => exact dot_rhs1 _ _)
  rw [el, er]

/-! ## One layer -/

/-- One layer of the reference at `(n, d)`. `z` and `zr` are the zero arrays the scatter starts from and the clip
    compares with, `ewb` the edge weights spread along the feature axis, `bias` the bias row spread along the nodes. -/
theorem layer_read (h : FVec Ideal S100000x128 .f32) (w : FVec Ideal S128x128 .f32) (gI sI : IVec S740000x1 32)
    (ewb : FVec Ideal S740000x128 .f32) (z bias zr : FVec Ideal S100000x128 .f32)
    (dv : Fin 100000 → EReal) (gD : Fin 740000 → BitVec 32) (b : Fin 128 → EReal)
    (hz : ∀ i, z i = 0) (hzr : ∀ i, zr i = 0)
    (hew : ∀ e d, ewb (ix2 e d) = dv (GCN.srow (fun e => gI (ix2 e (0 : Fin 1))) e) * dv (GCN.srow gD e))
    (hb : ∀ n d, bias (ix2 n d) = b d) (n : Fin 100000) (d : Fin 128) :
    maximumf (addf (Host.scatterAdd scatter_S100000x128_S740000x1_S740000x128_1_0_0_1 z sI
        (mulf (Host.gather gather_S100000x128_S740000x1_S740000x128_1_0_n_n_0_1_1128 (Host.dotGeneral dot_S100000x128_S128x128_S100000x128_1_0_0_1_n_n none h w) gI) ewb)) bias) zr (ix2 n d)
      = GCN.rStep (fun e => sI (ix2 e (0 : Fin 1))) (fun e => gI (ix2 e (0 : Fin 1))) gD dv
          (fun n k => h (ix2 n k)) (fun k d => w (ix2 k d)) b n d := by
  rw [maximumf_apply, addf_apply, hzr, hb, scatter_rows_read, hz, zero_add]
  show _ = max ((∑ e ∈ GCN.into (fun e => sI (ix2 e (0 : Fin 1))) n,
      GCN.mm (fun n k => h (ix2 n k)) (fun k d => w (ix2 k d)) (GCN.srow (fun e => gI (ix2 e (0 : Fin 1))) e) d
        * (dv (GCN.srow (fun e => gI (ix2 e (0 : Fin 1))) e) * dv (GCN.srow gD e))) + b d) 0
  refine congrArg (fun s => max (s + b d) 0) ?_
  refine Finset.sum_congr rfl fun e _ => ?_
  rw [mulf_apply, gather_rows_read, hew, dot_rows_read]
  rfl

/-- The same with the layer's input and its weight named index by index. -/
theorem layer_read_of (h : FVec Ideal S100000x128 .f32) (w : FVec Ideal S128x128 .f32) (gI sI : IVec S740000x1 32)
    (ewb : FVec Ideal S740000x128 .f32) (z bias zr : FVec Ideal S100000x128 .f32)
    (dv : Fin 100000 → EReal) (gD : Fin 740000 → BitVec 32) (b : Fin 128 → EReal) (Hm : GCN.Row) (Wm : GCN.Mat)
    (hz : ∀ i, z i = 0) (hzr : ∀ i, zr i = 0)
    (hew : ∀ e d, ewb (ix2 e d) = dv (GCN.srow (fun e => gI (ix2 e (0 : Fin 1))) e) * dv (GCN.srow gD e))
    (hb : ∀ n d, bias (ix2 n d) = b d) (hh : ∀ n k, h (ix2 n k) = Hm n k) (hw : ∀ k d, w (ix2 k d) = Wm k d)
    (n : Fin 100000) (d : Fin 128) :
    maximumf (addf (Host.scatterAdd scatter_S100000x128_S740000x1_S740000x128_1_0_0_1 z sI
        (mulf (Host.gather gather_S100000x128_S740000x1_S740000x128_1_0_n_n_0_1_1128 (Host.dotGeneral dot_S100000x128_S128x128_S100000x128_1_0_0_1_n_n none h w) gI) ewb)) bias) zr (ix2 n d)
      = GCN.rStep (fun e => sI (ix2 e (0 : Fin 1))) (fun e => gI (ix2 e (0 : Fin 1))) gD dv Hm Wm b n d := by
  rw [layer_read h w gI sI ewb z bias zr dv gD b hz hzr hew hb n d,
    show (fun n k => h (ix2 n k)) = Hm from funext fun n => funext fun k => hh n k,
    show (fun k d => w (ix2 k d)) = Wm from funext fun k => funext fun d => hw k d]

end Cert.ReferenceIdeal.RFinal

end
-- ==== Proof.RFinalB.lean ====
/-
  The reference's four graph-convolution layers and its pooling, read at an index.

  The index words, the weights and the biases are read by coordinates: layer `l`'s weight is plane `l` of the
  weight stack, its bias row `l` of the bias table; an edge's weight is `dv (src e) * dv (dst e)`, the two gathers of the
  per-node `dv` multiplied; the arrays a scatter starts from and a clip compares with are zero. With those, each
  layer's result is `GCN.rStep` of the previous layer's, and the pooled table is `GCN.rPool` of the last layer's.
-/
import proofs.«413796_j23914377904291_2_alg».proof.Proof.RefRead
import proofs.«413796_j23914377904291_2_alg».proof.Proof.RFinalA

noncomputable section

namespace Cert.ReferenceIdeal.RFinal

open Cert.ReferenceIdeal Cert.ReferenceIdeal.Gen Cert.ReferenceIdeal.PRead Idealize.ShloMosaic Idealize.ShloMosaic.ValueIdx LibGatherScatter

/-! ## The edge words and the per-node factor, as functions of the edge and of the node -/

/-- Edge `e`'s destination word as the accumulating scatter reads it. -/
abbrev sIw (x1 : IVec S2x640000 32) : Fin 740000 → BitVec 32 := fun e => val_main_v44 (F := Ideal) x1 (ix2 e (0 : Fin 1))
/-- Edge `e`'s source word as a gather reads it. -/
abbrev gSw (x1 : IVec S2x640000 32) : Fin 740000 → BitVec 32 := fun e => val_main_v39 (F := Ideal) x1 (ix2 e (0 : Fin 1))
/-- Edge `e`'s destination word as a gather reads it. -/
abbrev gDw (x1 : IVec S2x640000 32) : Fin 740000 → BitVec 32 := fun e => val_main_v27 (F := Ideal) x1 (ix2 e (0 : Fin 1))
/-- Node `n`'s factor `deg^(-1/2)`. -/
abbrev dvw (x1 : IVec S2x640000 32) : Fin 100000 → EReal := fun n => val_main_v14 (F := Ideal) x1 (ix1 n)

/-! ## Zero arrays, edge weights, weights and biases by coordinates -/

/-- The array a layer's scatter starts from (and the one its clip compares with) is zero everywhere. -/
theorem zero_rows_read (i : S100000x128.Idx) : val_main_v43 (F := Ideal) i = 0 := by
  rw [val_main_v43_apply, val_main_cst_8_apply]
  exact Ideal.ofBits_zero_f32

/-- The array the pooling scatter starts from is zero everywhere. -/
theorem zero_pool_read (i : S512x128.Idx) : val_main_v115 (F := Ideal) i = 0 := by
  rw [val_main_v115_apply, val_main_cst_18_apply]
  exact Ideal.ofBits_zero_f32

/-- Edge `e`'s weight, spread along the features: `dv (src e) * dv (dst e)`. -/
theorem ew_read (x1 : IVec S2x640000 32) (e : Fin 740000) (d : Fin 128) :
    val_main_v41 (F := Ideal) x1 (ix2 e d) = dvw x1 (GCN.srow (fun e => val_main_v39 (F := Ideal) x1 (ix2 e (0 : Fin 1))) e) * dvw x1 (GCN.srow (gDw x1) e) := by
  rw [val_main_v41_apply, val_main_v30_apply, val_main_v29_apply]
  have hi : idx_main_v30 (idx_main_v41 (ix2 e d)) = ix1 e := by
    funext a
    match a with
    | ⟨0, _⟩ => rfl
  rw [hi]
  unfold val_main_v21 val_main_v28
  rw [gather_vec_read, gather_vec_read]
  rfl

/-- Layer 1's weight is plane 0 of the weight stack. -/
theorem w0_read (x3 : Vec Ideal S4x128x128 .f32) (k d : Fin 128) :
    val_main_v32 (F := Ideal) x3 (ix2 k d) = x3 (ix3 (0 : Fin 4) k d) := by
  rw [val_main_v32_apply, val_main_v31_apply]
  refine congrArg x3 (funext fun a => ?_)
  match a with
  | ⟨0, _⟩ => rfl
  | ⟨1, _⟩ => exact Fin.ext (by show (k.val * 128 + d.val) / 128 % 128 = k.val; have := k.isLt; have := d.isLt; omega)
  | ⟨2, _⟩ => exact Fin.ext (by show (k.val * 128 + d.val) % 128 = d.val; have := k.isLt; have := d.isLt; omega)

/-- Layer 1's bias, spread along the nodes, is row 0 of the bias table. -/
theorem b0_read (x4 : Vec Ideal S4x128 .f32) (n : Fin 100000) (d : Fin 128) :
    val_main_v49 (F := Ideal) x4 (ix2 n d) = x4 (ix2 (0 : Fin 4) d) := by
  rw [val_main_v49_apply, val_main_v48_apply, val_main_v47_apply, val_main_v46_apply]
  refine congrArg x4 (funext fun a => ?_)
  match a with
  | ⟨0, _⟩ => rfl
  | ⟨1, _⟩ => exact Fin.ext (by show d.val % 128 = d.val; have := d.isLt; omega)

/-- Layer 2's weight is plane 1 of the weight stack. -/
theorem w1_read (x3 : Vec Ideal S4x128x128 .f32) (k d : Fin 128) :
    val_main_v53 (F := Ideal) x3 (ix2 k d) = x3 (ix3 (1 : Fin 4) k d) := by
  rw [val_main_v53_apply, val_main_v52_apply]
  refine congrArg x3 (funext fun a => ?_)
  match a with
  | ⟨0, _⟩ => rfl
  | ⟨1, _⟩ => exact Fin.ext (by show (k.val * 128 + d.val) / 128 % 128 = k.val; have := k.isLt; have := d.isLt; omega)
  | ⟨2, _⟩ => exact Fin.ext (by show (k.val * 128 + d.val) % 128 = d.val; have := k.isLt; have := d.isLt; omega)

/-- Layer 2's bias, spread along the nodes, is row 1 of the bias table. -/
theorem b1_read (x4 : Vec Ideal S4x128 .f32) (n : Fin 100000) (d : Fin 128) :
    val_main_v70 (F := Ideal) x4 (ix2 n d) = x4 (ix2 (1 : Fin 4) d) := by
  rw [val_main_v70_apply, val_main_v69_apply, val_main_v68_apply, val_main_v67_apply]
  refine congrArg x4 (funext fun a => ?_)
  match a with
  | ⟨0, _⟩ => rfl
  | ⟨1, _⟩ => exact Fin.ext (by show d.val % 128 = d.val; have := d.isLt; omega)

/-- Layer 3's weight is plane 2 of the weight stack. -/
theorem w2_read (x3 : Vec Ideal S4x128x128 .f32) (k d : Fin 128) :
    val_main_v74 (F := Ideal) x3 (ix2 k d) = x3 (ix3 (2 : Fin 4) k d) := by
  rw [val_main_v74_apply, val_main_v73_apply]
  refine congrArg x3 (funext fun a => ?_)
  match a with
  | ⟨0, _⟩ => rfl
  | ⟨1, _⟩ => exact Fin.ext (by show (k.val * 128 + d.val) / 128 % 128 = k.val; have := k.isLt; have := d.isLt; omega)
  | ⟨2, _⟩ => exact Fin.ext (by show (k.val * 128 + d.val) % 128 = d.val; have := k.isLt; have := d.isLt; omega)

/-- Layer 3's bias, spread along the nodes, is row 2 of the bias table. -/
theorem b2_read (x4 : Vec Ideal S4x128 .f32) (n : Fin 100000) (d : Fin 128) :
    val_main_v91 (F := Ideal) x4 (ix2 n d) = x4 (ix2 (2 : Fin 4) d) := by
  rw [val_main_v91_apply, val_main_v90_apply, val_main_v89_apply, val_main_v88_apply]
  refine congrArg x4 (funext fun a => ?_)
  match a with
  | ⟨0, _⟩ => rfl
  | ⟨1, _⟩ => exact Fin.ext (by show d.val % 128 = d.val; have := d.isLt; omega)

/-- Layer 4's weight is plane 3 of the weight stack. -/
theorem w3_read (x3 : Vec Ideal S4x128x128 .f32) (k d : Fin 128) :
    val_main_v95 (F := Ideal) x3 (ix2 k d) = x3 (ix3 (3 : Fin 4) k d) := by
  rw [val_main_v95_apply, val_main_v94_apply]
  refine congrArg x3 (funext fun a => ?_)
  match a with
  | ⟨0, _⟩ => rfl
  | ⟨1, _⟩ => exact Fin.ext (by show (k.val * 128 + d.val) / 128 % 128 = k.val; have := k.isLt; have := d.isLt; omega)
  | ⟨2, _⟩ => exact Fin.ext (by show (k.val * 128 + d.val) % 128 = d.val; have := k.isLt; have := d.isLt; omega)

/-- Layer 4's bias, spread along the nodes, is row 3 of the bias table. -/
theorem b3_read (x4 : Vec Ideal S4x128 .f32) (n : Fin 100000) (d : Fin 128) :
    val_main_v112 (F := Ideal) x4 (ix2 n d) = x4 (ix2 (3 : Fin 4) d) := by
  rw [val_main_v112_apply, val_main_v111_apply, val_main_v110_apply, val_main_v109_apply]
  refine congrArg x4 (funext fun a => ?_)
  match a with
  | ⟨0, _⟩ => rfl
  | ⟨1, _⟩ => exact Fin.ext (by show d.val % 128 = d.val; have := d.isLt; omega)

/-! ## The four layers -/

section Layers
variable (x0 : Vec Ideal S100000x128 .f32) (x1 : IVec S2x640000 32) (x3 : Vec Ideal S4x128x128 .f32) (x4 : Vec Ideal S4x128 .f32)

/-- The reference's layer `l` over this program's edge words, factors, weights and biases. -/
abbrev stepR (l : Fin 4) (h : GCN.Row) : GCN.Row :=
  GCN.rStep (sIw x1) (gSw x1) (gDw x1) (dvw x1) h (fun k d => x3 (ix3 l k d)) (fun d => x4 (ix2 l d))

/-- Layer 1 at `(n, d)`. -/
theorem layer1 (n : Fin 100000) (d : Fin 128) :
    val_main_v51 (F := Ideal) x0 x1 x3 x4 (ix2 n d) = stepR x1 x3 x4 0 (fun n k => x0 (ix2 n k)) n d :=
  layer_read_of x0 (val_main_v32 (F := Ideal) x3) (val_main_v39 (F := Ideal) x1) (val_main_v44 (F := Ideal) x1) (val_main_v41 (F := Ideal) x1)
    (val_main_v43 (F := Ideal)) (val_main_v49 (F := Ideal) x4) (val_main_v43 (F := Ideal)) (dvw x1) (gDw x1) (fun d => x4 (ix2 (0 : Fin 4) d))
    (fun n k => x0 (ix2 n k)) (fun k d => x3 (ix3 (0 : Fin 4) k d))
    zero_rows_read zero_rows_read (ew_read x1) (b0_read x4) (fun _ _ => rfl) (w0_read x3) n d

/-- Layer 2 at `(n, d)`. -/
theorem layer2 (n : Fin 100000) (d : Fin 128) :
    val_main_v72 (F := Ideal) x0 x1 x3 x4 (ix2 n d) = stepR x1 x3 x4 1 (stepR x1 x3 x4 0 (fun n k => x0 (ix2 n k))) n d :=
  layer_read_of (val_main_v51 (F := Ideal) x0 x1 x3 x4) (val_main_v53 (F := Ideal) x3) (val_main_v39 (F := Ideal) x1) (val_main_v44 (F := Ideal) x1) (val_main_v41 (F := Ideal) x1)
    (val_main_v43 (F := Ideal)) (val_main_v70 (F := Ideal) x4) (val_main_v43 (F := Ideal)) (dvw x1) (gDw x1) (fun d => x4 (ix2 (1 : Fin 4) d))
    (stepR x1 x3 x4 0 (fun n k => x0 (ix2 n k))) (fun k d => x3 (ix3 (1 : Fin 4) k d))
    zero_rows_read zero_rows_read (ew_read x1) (b1_read x4) (layer1 x0 x1 x3 x4) (w1_read x3) n d

/-- Layer 3 at `(n, d)`. -/
theorem layer3 (n : Fin 100000) (d : Fin 128) :
    val_main_v93 (F := Ideal) x0 x1 x3 x4 (ix2 n d) = stepR x1 x3 x4 2 (stepR x1 x3 x4 1 (stepR x1 x3 x4 0 (fun n k => x0 (ix2 n k)))) n d :=
  layer_read_of (val_main_v72 (F := Ideal) x0 x1 x3 x4) (val_main_v74 (F := Ideal) x3) (val_main_v39 (F := Ideal) x1) (val_main_v44 (F := Ideal) x1) (val_main_v41 (F := Ideal) x1)
    (val_main_v43 (F := Ideal)) (val_main_v91 (F := Ideal) x4) (val_main_v43 (F := Ideal)) (dvw x1) (gDw x1) (fun d => x4 (ix2 (2 : Fin 4) d))
    (stepR x1 x3 x4 1 (stepR x1 x3 x4 0 (fun n k => x0 (ix2 n k)))) (fun k d => x3 (ix3 (2 : Fin 4) k d))
    zero_rows_read zero_rows_read (ew_read x1) (b2_read x4) (layer2 x0 x1 x3 x4) (w2_read x3) n d

/-- Layer 4 at `(n, d)`. -/
theorem layer4 (n : Fin 100000) (d : Fin 128) :
    val_main_v114 (F := Ideal) x0 x1 x3 x4 (ix2 n d) = stepR x1 x3 x4 3 (stepR x1 x3 x4 2 (stepR x1 x3 x4 1 (stepR x1 x3 x4 0 (fun n k => x0 (ix2 n k))))) n d :=
  layer_read_of (val_main_v93 (F := Ideal) x0 x1 x3 x4) (val_main_v95 (F := Ideal) x3) (val_main_v39 (F := Ideal) x1) (val_main_v44 (F := Ideal) x1) (val_main_v41 (F := Ideal) x1)
    (val_main_v43 (F := Ideal)) (val_main_v112 (F := Ideal) x4) (val_main_v43 (F := Ideal)) (dvw x1) (gDw x1) (fun d => x4 (ix2 (3 : Fin 4) d))
    (stepR x1 x3 x4 2 (stepR x1 x3 x4 1 (stepR x1 x3 x4 0 (fun n k => x0 (ix2 n k))))) (fun k d => x3 (ix3 (3 : Fin 4) k d))
    zero_rows_read zero_rows_read (ew_read x1) (b3_read x4) (layer3 x0 x1 x3 x4) (w3_read x3) n d

end Layers

/-! ## Pooling -/

/-- Node `n`'s graph word. -/
theorem bt_read (x2 : IVec S100000 32) (n : Fin 100000) : val_main_v116 (F := Ideal) x2 (ix2 n (0 : Fin 1)) = x2 (ix1 n) := by
  rw [val_main_v116_apply]
  refine congrArg x2 (funext fun a => ?_)
  match a with
  | ⟨0, _⟩ => rfl

/-- The pooled table at `(g, d)`: the sum of the last layer's rows over the nodes of graph `g`. -/
theorem pool_read (x0 : Vec Ideal S100000x128 .f32) (x1 : IVec S2x640000 32) (x2 : IVec S100000 32) (x3 : Vec Ideal S4x128x128 .f32)
    (x4 : Vec Ideal S4x128 .f32) (g : Fin 512) (d : Fin 128) :
    val_main_v117 (F := Ideal) x0 x1 x2 x3 x4 (ix2 g d)
      = GCN.rPool (fun n => x2 (ix1 n)) (stepR x1 x3 x4 3 (stepR x1 x3 x4 2 (stepR x1 x3 x4 1 (stepR x1 x3 x4 0 (fun n k => x0 (ix2 n k)))))) g d := by
  unfold val_main_v117
  rw [scatter_pool_read, zero_pool_read, zero_add]
  simp only [bt_read]
  exact Finset.sum_congr rfl fun n _ => layer4 x0 x1 x3 x4 n d

end Cert.ReferenceIdeal.RFinal

end
-- ==== Proof.RFinal.lean ====
/-
  The reference's result read at an index: the three-layer head over the pooled table, and the whole network.

  A head layer is the product with its weight, the bias added, clipped at zero; the last one is a product with a
  column, the bias added, and `1 / (1 + e^(-x))`, which is `Ideal.logistic`. With the four layers and the
  pooling read before, the result at graph `g` is `GCN.rNet` over this program's edge words, per-node factors, graph
  words, weights and biases.
-/
import proofs.«413796_j23914377904291_2_alg».proof.Proof.RefRead
import proofs.«413796_j23914377904291_2_alg».proof.Proof.RFinalB
import Idealize.ShloMosaic.Lib.IdealHost

noncomputable section

namespace Cert.ReferenceIdeal.RFinal

open Cert.ReferenceIdeal Cert.ReferenceIdeal.Gen Cert.ReferenceIdeal.PRead Idealize.ShloMosaic Idealize.ShloMosaic.ValueIdx LibGatherScatter

/-! ## The operand indices of the head's products and biases, by coordinates -/

theorem lidx118_read (g : Fin 512) (d k : Fin 128) : lidx_main_v118 (ix2 g d) k = ix2 g k := by
  funext a
  match a with
  | ⟨0, _⟩ => rfl
  | ⟨1, _⟩ => rfl
theorem ridx118_read (g : Fin 512) (d k : Fin 128) : ridx_main_v118 (ix2 g d) k = ix2 k d := by
  funext a
  match a with
  | ⟨0, _⟩ => rfl
  | ⟨1, _⟩ => rfl
theorem lidx123_read (g : Fin 512) (d k : Fin 128) : lidx_main_v123 (ix2 g d) k = ix2 g k := by
  funext a
  match a with
  | ⟨0, _⟩ => rfl
  | ⟨1, _⟩ => rfl
theorem ridx123_read (g : Fin 512) (d k : Fin 128) : ridx_main_v123 (ix2 g d) k = ix2 k d := by
  funext a
  match a with
  | ⟨0, _⟩ => rfl
  | ⟨1, _⟩ => rfl
theorem lidx128_read (g : Fin 512) (k : Fin 128) : lidx_main_v128 (ix2 g (0 : Fin 1)) k = ix2 g k := by
  funext a
  match a with
  | ⟨0, _⟩ => rfl
  | ⟨1, _⟩ => rfl
theorem ridx128_read (g : Fin 512) (k : Fin 128) : ridx_main_v128 (ix2 g (0 : Fin 1)) k = ix2 k (0 : Fin 1) := by
  funext a
  match a with
  | ⟨0, _⟩ => rfl
  | ⟨1, _⟩ => rfl
theorem bidx120_read (g : Fin 512) (d : Fin 128) : idx_main_v119 (idx_main_v120 (ix2 g d)) = ix1 d := by
  funext a
  match a with
  | ⟨0, _⟩ => rfl
theorem bidx125_read (g : Fin 512) (d : Fin 128) : idx_main_v124 (idx_main_v125 (ix2 g d)) = ix1 d := by
  funext a
  match a with
  | ⟨0, _⟩ => rfl
theorem bidx130_read (g : Fin 512) : idx_main_v129 (idx_main_v130 (ix2 g (0 : Fin 1))) = ix1 (0 : Fin 1) := by
  funext a
  match a with
  | ⟨0, _⟩ => rfl

/-! ## The head -/

section Head
variable (x0 : Vec Ideal S100000x128 .f32) (x1 : IVec S2x640000 32) (x2 : IVec S100000 32) (x3 : Vec Ideal S4x128x128 .f32)
  (x4 : Vec Ideal S4x128 .f32) (x5 : Vec Ideal S128x128 .f32) (x6 : Vec Ideal S128 .f32) (x7 : Vec Ideal S128x128 .f32)
  (x8 : Vec Ideal S128 .f32) (x9 : Vec Ideal S128x1 .f32) (x10 : Vec Ideal S1 .f32)

/-- The head's first layer at `(g, d)`, over the pooled table `P`. -/
theorem dense1_read (P : Fin 512 → Fin 128 → EReal) (hP : ∀ g k, val_main_v117 (F := Ideal) x0 x1 x2 x3 x4 (ix2 g k) = P g k)
    (g : Fin 512) (d : Fin 128) :
    val_main_v122 (F := Ideal) x0 x1 x2 x3 x4 x5 x6 (ix2 g d)
      = GCN.dense P (fun k d => x5 (ix2 k d)) (fun d => x6 (ix1 d)) g d := by
  rw [val_main_v122_apply, val_main_v121_apply, val_main_v118_apply, val_main_v120_apply, val_main_v119_apply,
    val_main_call5_v0_apply, val_main_call5_cst_apply]
  simp only [lidx118_read, ridx118_read, bidx120_read, hP]
  show max (_ + _) (Ideal.ofBits .f32 0x00000000#32) = _
  rw [Ideal.ofBits_zero_f32]
  rfl

/-- The head's second layer at `(g, d)`. -/
theorem dense2_read (P : Fin 512 → Fin 128 → EReal) (hP : ∀ g k, val_main_v117 (F := Ideal) x0 x1 x2 x3 x4 (ix2 g k) = P g k)
    (g : Fin 512) (d : Fin 128) :
    val_main_v127 (F := Ideal) x0 x1 x2 x3 x4 x5 x6 x7 x8 (ix2 g d)
      = GCN.dense (GCN.dense P (fun k d => x5 (ix2 k d)) (fun d => x6 (ix1 d))) (fun k d => x7 (ix2 k d)) (fun d => x8 (ix1 d)) g d := by
  rw [val_main_v127_apply, val_main_v126_apply, val_main_v123_apply, val_main_v125_apply, val_main_v124_apply,
    val_main_call6_v0_apply, val_main_call6_cst_apply]
  simp only [lidx123_read, ridx123_read, bidx125_read, dense1_read x0 x1 x2 x3 x4 x5 x6 P hP]
  show max (_ + _) (Ideal.ofBits .f32 0x00000000#32) = _
  rw [Ideal.ofBits_zero_f32]
  rfl

/-- The result at graph `g`: the last product, the bias, and `1 / (1 + e^(-x))`. -/
theorem head_read (P : Fin 512 → Fin 128 → EReal) (hP : ∀ g k, val_main_v117 (F := Ideal) x0 x1 x2 x3 x4 (ix2 g k) = P g k) (g : Fin 512) :
    val_main_v137 (F := Ideal) x0 x1 x2 x3 x4 x5 x6 x7 x8 x9 x10 (ix2 g (0 : Fin 1))
      = GCN.head P (fun k d => x5 (ix2 k d)) (fun d => x6 (ix1 d)) (fun k d => x7 (ix2 k d)) (fun d => x8 (ix1 d))
          (fun k => x9 (ix2 k (0 : Fin 1))) (x10 (ix1 (0 : Fin 1))) g := by
  rw [val_main_v137_apply, val_main_v136_apply, val_main_cst_20_apply, val_main_v135_apply, val_main_v134_apply,
    val_main_cst_19_apply, val_main_v133_apply, val_main_v132_apply, val_main_v131_apply, val_main_v128_apply,
    val_main_v130_apply, val_main_v129_apply]
  simp only [lidx128_read, ridx128_read, bidx130_read, dense2_read x0 x1 x2 x3 x4 x5 x6 x7 x8 P hP]
  show Ideal.div (Ideal.ofBits .f32 0x3F800000#32) (Ideal.ofBits .f32 0x3F800000#32 + Ideal.exp (-(_ + _))) = _
  rw [Ideal.ofBits_one_f32]
  rfl

end Head

/-! ## The whole reference -/

/-- THE REFERENCE'S RESULT AT GRAPH `g` is the network `GCN.rNet` of the arguments, index by index. -/
theorem ref_final (x0 : Vec Ideal S100000x128 .f32) (x1 : IVec S2x640000 32) (x2 : IVec S100000 32) (x3 : Vec Ideal S4x128x128 .f32) (x4 : Vec Ideal S4x128 .f32)
    (x5 : Vec Ideal S128x128 .f32) (x6 : Vec Ideal S128 .f32) (x7 : Vec Ideal S128x128 .f32) (x8 : Vec Ideal S128 .f32) (x9 : Vec Ideal S128x1 .f32) (x10 : Vec Ideal S1 .f32) (g : Fin 512) :
    PRead.val_main_v137 (F := Ideal) x0 x1 x2 x3 x4 x5 x6 x7 x8 x9 x10 (ix2 g (0 : Fin 1))
      = GCN.rNet (fun e => PRead.val_main_v44 (F := Ideal) x1 (ix2 e (0 : Fin 1))) (fun e => PRead.val_main_v39 (F := Ideal) x1 (ix2 e (0 : Fin 1)))
          (fun e => PRead.val_main_v27 (F := Ideal) x1 (ix2 e (0 : Fin 1))) (fun n => PRead.val_main_v14 (F := Ideal) x1 (ix1 n)) (fun n => x2 (ix1 n))
          (fun n k => x0 (ix2 n k)) (fun l k d => x3 (ix3 l k d)) (fun l d => x4 (ix2 l d)) (fun k d => x5 (ix2 k d)) (fun d => x6 (ix1 d))
          (fun k d => x7 (ix2 k d)) (fun d => x8 (ix1 d)) (fun k => x9 (ix2 k (0 : Fin 1))) (x10 (ix1 (0 : Fin 1))) g :=
  head_read x0 x1 x2 x3 x4 x5 x6 x7 x8 x9 x10 _ (pool_read x0 x1 x2 x3 x4) g

end Cert.ReferenceIdeal.RFinal

end
-- ==== Proof.IdxFacts.lean ====
/-
  Two facts about the reference's index and degree arrays, read at one index.

  `dinv n = where(deg n > 0, 1 / √(deg n), 0)` where `deg n` is zero plus a finite sum of the constant one, hence a
  natural number: `dinv n` is a nonnegative real number. And an edge whose scatter word, read signed, is the node
  `n` has the gather's destination row `n`: the gather's word is `select (v <s 0) (v + 100000) v` of the same word
  `v`, which is `v` when `v` is not negative, and the clamp into `[0, 99999]` of a node number is that number.
-/
import proofs.«413796_j23914377904291_2_alg».proof.Proof.RefRead
import proofs.«413796_j23914377904291_2_alg».proof.Proof.Spec
import proofs.«413796_j23914377904291_2_alg».proof.Proof.LibGatherScatter
import Idealize.ShloMosaic.Lib.IdealHost
import Mathlib.Data.EReal.Basic

noncomputable section

namespace Cert.ReferenceIdeal.IdxFacts

open Cert.ReferenceIdeal Idealize.ShloMosaic Idealize.ShloMosaic.ValueIdx LibGatherScatter

/-! ## The two facts on scalars -/

/-- A word whose signed reading is a node number is not negative, so the wrap-around select keeps it, and the
    clamp into `[0, 99999]` leaves that node number. -/
theorem clamp_select_of_toInt (v : BitVec 32) (n : Fin 100000) (h : v.toInt = (n.val : ℤ)) :
    clampRow 100000 (by decide) (Scalar.select (IntOp.cmpi .slt v 0#32) (IntOp.addi v 100000#32) v) = n := by
  have hslt : IntOp.cmpi .slt v 0#32 = 0#1 := by
    show BitVec.ofBool (v.slt 0#32) = 0#1
    have hf : v.slt 0#32 = false := by
      simp [BitVec.slt, h]
    rw [hf]; rfl
  unfold Scalar.select
  rw [hslt, if_neg (by decide)]
  apply Fin.ext
  show min v.toInt.toNat (100000 - 1) = n.val
  rw [h]
  have := n.isLt
  omega

/-- The select of `1 / √r` where `r > 0` and of `0` elsewhere, at a real `r ≥ 0`, is a nonnegative real. -/
theorem where_rsqrt_real (r : ℝ) (hr : 0 ≤ r) :
    0 ≤ Scalar.select (Ideal.cmp .ogt (r : EReal) 0) (Ideal.rsqrt (r : EReal)) (0 : EReal)
      ∧ Scalar.select (Ideal.cmp .ogt (r : EReal) 0) (Ideal.rsqrt (r : EReal)) (0 : EReal) ≠ ⊤ := by
  by_cases h0 : 0 < r
  · have hc : Ideal.cmp .ogt (r : EReal) 0 = 1#1 := by
      show BitVec.ofBool (decide ((0 : EReal) < (r : EReal))) = 1#1
      rw [decide_eq_true (EReal.coe_pos.mpr h0)]; rfl
    have hv : Ideal.rsqrt (r : EReal) = (((Real.sqrt r)⁻¹ : ℝ) : EReal) := by
      rw [Ideal.rsqrt_coe, if_neg (not_lt.mpr hr), if_neg (ne_of_gt h0)]
    unfold Scalar.select
    rw [hc, if_pos (by decide), hv]
    exact ⟨EReal.coe_nonneg.mpr (inv_nonneg.mpr (Real.sqrt_nonneg r)), EReal.coe_ne_top _⟩
  · have hc : Ideal.cmp .ogt (r : EReal) 0 = 0#1 := by
      show BitVec.ofBool (decide ((0 : EReal) < (r : EReal))) = 0#1
      rw [decide_eq_false (fun hh => h0 (EReal.coe_pos.mp hh))]; rfl
    unfold Scalar.select
    rw [hc, if_neg (by decide)]
    exact ⟨le_refl _, EReal.zero_ne_top⟩

/-- Zero plus a finite sum of ones is the real number of summands. -/
theorem zero_add_sum_one {ι : Type} (S : Finset ι) :
    (0 : EReal) + ∑ _j ∈ S, (1 : EReal) = (((S.card : ℕ) : ℝ) : EReal) := by
  rw [zero_add, Finset.sum_const, nsmul_one]
  rfl

/-! ## The degree is a natural number -/

/-- An accumulating scatter of ones onto a zero is, at each place, the number of updates that land there. -/
theorem scatterAdd_ones {s si su : Shape} (d : ScatterDims s si su) {w : Nat} (x : s.Idx → EReal) (idx : IVec si w)
    (upd : su.Idx → EReal) (i : s.Idx) (hx : x i = 0) (hu : ∀ j, upd j = 1) :
    ∃ k : ℕ, Ideal.hostScatterAdd d x idx upd i = ((k : ℝ) : EReal) := by
  unfold Ideal.hostScatterAdd
  rw [hx, Finset.sum_congr rfl (fun j _ => hu j)]
  exact ⟨_, zero_add_sum_one _⟩

/-- Every update of the degree scatter is the constant one. -/
theorem upd_one (j : S740000.Idx) : PRead.val_main_v7 (F := Ideal) j = (1 : EReal) := by
  rw [PRead.val_main_v7_apply, PRead.val_main_cst_apply]
  exact Ideal.ofBits_one_f32

/-- The degree scatter starts from zero. -/
theorem base_zero (i : S100000.Idx) : PRead.val_main_v8 (F := Ideal) i = (0 : EReal) := by
  rw [PRead.val_main_v8_apply, PRead.val_main_cst_0_apply]
  exact Ideal.ofBits_zero_f32

/-- The degree is compared with zero. -/
theorem thr_zero (i : S100000.Idx) : PRead.val_main_v11 (F := Ideal) i = (0 : EReal) := by
  rw [PRead.val_main_v11_apply, PRead.val_main_cst_1_apply]
  exact Ideal.ofBits_zero_f32

/-- The select's other branch is zero. -/
theorem else_zero (i : S100000.Idx) : PRead.val_main_call0_v1 (F := Ideal) i = (0 : EReal) := by
  rw [PRead.val_main_call0_v1_apply, PRead.val_main_call0_v0_apply, PRead.val_main_cst_2_apply]
  exact Ideal.ofBits_zero_f32

/-- The degree array is the accumulating scatter of the ones onto the zeros. -/
theorem deg_fn (x1 : IVec S2x640000 32) :
    PRead.val_main_v10 (F := Ideal) x1 = Ideal.hostScatterAdd scatter_S100000_S740000x1_S740000_n_0_0_1
      (PRead.val_main_v8 (F := Ideal)) (PRead.val_main_v9 (F := Ideal) x1) (PRead.val_main_v7 (F := Ideal)) := rfl

/-- The degree of a node: zero plus one for each update that lands on it, a natural number. -/
theorem deg_nat (x1 : IVec S2x640000 32) (i : S100000.Idx) :
    ∃ k : ℕ, PRead.val_main_v10 (F := Ideal) x1 i = ((k : ℝ) : EReal) := by
  rw [deg_fn]
  exact scatterAdd_ones _ _ _ _ i (base_zero i) upd_one

/-- `dinv n` is a nonnegative real number. -/
theorem dinv_real_nonneg (x1 : IVec S2x640000 32) (n : Fin 100000) :
    0 ≤ PRead.val_main_v14 (F := Ideal) x1 (ix1 n) ∧ PRead.val_main_v14 (F := Ideal) x1 (ix1 n) ≠ ⊤ := by
  obtain ⟨k, hk⟩ := deg_nat x1 (ix1 n)
  have hv : PRead.val_main_v14 (F := Ideal) x1 (ix1 n)
      = Scalar.select (Ideal.cmp .ogt ((k : ℝ) : EReal) 0) (Ideal.rsqrt ((k : ℝ) : EReal)) (0 : EReal) := by
    rw [PRead.val_main_v14_apply, PRead.val_main_v12_apply, PRead.val_main_v13_apply, thr_zero, else_zero, hk]
    rfl
  rw [hv]
  exact where_rsqrt_real (k : ℝ) (Nat.cast_nonneg k)

/-! ## An edge that lands on `n` has destination row `n` -/

/-- The scatter's index column and the gather's index column read the edge list at the same place. -/
theorem idx44 (e : Fin 740000) : PRead.idx_main_v44 (ix2 e (0 : Fin 1)) = ix1 e := by
  funext a; match a with | ⟨0, _⟩ => rfl
theorem idx27 (e : Fin 740000) : PRead.idx_main_v27 (ix2 e (0 : Fin 1)) = ix1 e := by
  funext a; match a with | ⟨0, _⟩ => rfl

/-- The scatter's word of edge `e` is the raw destination word. -/
theorem scat_word (x1 : IVec S2x640000 32) (e : Fin 740000) :
    PRead.val_main_v44 (F := Ideal) x1 (ix2 e (0 : Fin 1)) = PRead.val_main_v6 (F := Ideal) x1 (ix1 e) := by
  rw [PRead.val_main_v44_apply, idx44]

/-- The gather's word of edge `e` is the wrap-around select of the raw destination word. -/
theorem gath_word (x1 : IVec S2x640000 32) (e : Fin 740000) :
    PRead.val_main_v27 (F := Ideal) x1 (ix2 e (0 : Fin 1))
      = Scalar.select (IntOp.cmpi .slt (PRead.val_main_v6 (F := Ideal) x1 (ix1 e)) 0#32)
          (IntOp.addi (PRead.val_main_v6 (F := Ideal) x1 (ix1 e)) 100000#32) (PRead.val_main_v6 (F := Ideal) x1 (ix1 e)) := by
  rw [PRead.val_main_v27_apply, idx27, PRead.val_main_v26_apply, PRead.val_main_v23_apply, PRead.val_main_v25_apply,
    PRead.val_main_v22_apply, PRead.val_main_v24_apply, PRead.val_main_c_4_apply, PRead.val_main_c_5_apply]

/-- An edge whose scatter word, read signed, is the node `n` has the gather's destination row `n`. -/
theorem lands_dst (x1 : IVec S2x640000 32) (e : Fin 740000) (n : Fin 100000)
    (h : GCN.lands (fun e => PRead.val_main_v44 (F := Ideal) x1 (ix2 e (0 : Fin 1))) e n) :
    GCN.srow (fun e => PRead.val_main_v27 (F := Ideal) x1 (ix2 e (0 : Fin 1))) e = n := by
  have h' : (PRead.val_main_v44 (F := Ideal) x1 (ix2 e (0 : Fin 1))).toInt = (n.val : ℤ) := h
  rw [scat_word] at h'
  show clampRow 100000 (by decide) (PRead.val_main_v27 (F := Ideal) x1 (ix2 e (0 : Fin 1))) = n
  rw [gath_word]
  exact clamp_select_of_toInt _ n h'

end Cert.ReferenceIdeal.IdxFacts
end
-- ==== Proof.SpecLaws.lean ====
/-
  The two arrangements of the network agree, index by index, on the extended reals.

  One layer: on every edge that lands on node `n` the destination row read by a gather is `n` itself, so the
  reference's factor `dv (dst e)` is `dv n`; `dv n` is a nonnegative real number, so it goes through the sum over
  the landing edges whatever the summands are.

  Pooling: `(c, i, k) ↦ (c * 25 + i) * 2000 + k` is a bijection from `2 × 25 × 2000` onto the nodes, so the two
  planes of 25 tiles of 2000 nodes are one sum over all nodes; the weight is `1` exactly where the node's graph
  word, read signed, is `g`, because `g < 512` is its own signed reading.
-/
import proofs.«413796_j23914377904291_2_alg».proof.Proof.Spec
import Mathlib.Algebra.BigOperators.Fin
import Mathlib.Algebra.BigOperators.Group.Finset.Sigma
import Mathlib.Data.Fintype.BigOperators

noncomputable section

namespace GCN

open Finset

/-! ## One layer -/

/-- On the extended reals `c * (x * y) = x * (y * c)`: multiplication is commutative and associative. -/
theorem mul_rot (c x y : EReal) : c * (x * y) = x * (y * c) := by
  rw [mul_comm c (x * y), mul_assoc]

theorem step_bridge (sI gS gD : Fin 740000 → BitVec 32) (dv : Fin 100000 → EReal) (hdv : ∀ n, 0 ≤ dv n ∧ dv n ≠ ⊤)
    (hland : ∀ e n, lands sI e n → srow gD e = n) (h : Row) (W : Mat) (b : Fin 128 → EReal) :
    kStep sI gS dv h W b = rStep sI gS gD dv h W b := by
  funext n d
  simp only [kStep, rStep, kAct, rAct, kAgg, rAgg, kHW]
  rw [LibESum.mul_sum (dv n) (hdv n).1 (hdv n).2]
  refine congrArg (fun t => max (t + b d) 0) (Finset.sum_congr rfl fun e he => ?_)
  have he' : e ∈ univ.filter (fun e => lands sI e n) := he
  have hl : lands sI e n := (Finset.mem_filter.mp he').2
  rw [hland e n hl, mul_rot]

/-! ## Pooling -/

/-- The nodes as half, tile, position. -/
def nodeEquiv : Fin 2 × Fin 25 × Fin 2000 ≃ Fin 100000 where
  toFun p := node p.1 p.2.1 p.2.2
  invFun n := (⟨n.val / 50000, by have := n.isLt; omega⟩, ⟨n.val / 2000 % 25, by omega⟩, ⟨n.val % 2000, by omega⟩)
  left_inv p := by
    obtain ⟨c, i, k⟩ := p
    have := c.isLt; have := i.isLt; have := k.isLt
    refine Prod.ext (Fin.ext ?_) (Prod.ext (Fin.ext ?_) (Fin.ext ?_))
    · show ((c.val * 25 + i.val) * 2000 + k.val) / 50000 = c.val
      omega
    · show ((c.val * 25 + i.val) * 2000 + k.val) / 2000 % 25 = i.val
      omega
    · show ((c.val * 25 + i.val) * 2000 + k.val) % 2000 = k.val
      omega
  right_inv n := by
    have := n.isLt
    refine Fin.ext ?_
    show (n.val / 50000 * 25 + n.val / 2000 % 25) * 2000 + n.val % 2000 = n.val
    omega

/-- A sum over all nodes, as the two halves of 25 tiles of 2000 nodes. -/
theorem sum_nodes (f : Fin 100000 → EReal) :
    ∑ n, f n = (∑ i : Fin 25, ∑ k : Fin 2000, f (node 0 i k)) + ∑ i : Fin 25, ∑ k : Fin 2000, f (node 1 i k) := by
  rw [← Equiv.sum_comp nodeEquiv f, Fintype.sum_prod_type, Fin.sum_univ_two]
  congr 1 <;> exact Fintype.sum_prod_type _

/-- A word is the 32-bit word of `g < 512` exactly when its signed reading is `g`. -/
theorem eq_ofNat_iff_toInt (v : BitVec 32) (g : Fin 512) : v = BitVec.ofNat 32 g.val ↔ v.toInt = (g.val : ℤ) := by
  have hg := g.isLt
  have hto : (BitVec.ofNat 32 g.val).toInt = (g.val : ℤ) := by
    rw [BitVec.toInt_ofNat']
    exact Int.bmod_eq_of_le (by omega) (by omega)
  constructor
  · rintro rfl; exact hto
  · intro hv; exact BitVec.eq_of_toInt_eq (hv.trans hto.symm)

theorem pool_bridge (bt : Fin 100000 → BitVec 32) (a : Row) : kPool bt a = rPool bt a := by
  funext g d
  show (∑ i : Fin 25, ∑ k : Fin 2000, (if bt (node 0 i k) = BitVec.ofNat 32 g.val then (1 : EReal) else 0) * a (node 0 i k) d)
      + (∑ i : Fin 25, ∑ k : Fin 2000, (if bt (node 1 i k) = BitVec.ofNat 32 g.val then (1 : EReal) else 0) * a (node 1 i k) d)
    = ∑ n ∈ univ.filter (fun n : Fin 100000 => (bt n).toInt = (g.val : ℤ)), a n d
  rw [← sum_nodes fun n => (if bt n = BitVec.ofNat 32 g.val then (1 : EReal) else 0) * a n d]
  exact LibESum.sum_indicator_mul univ (fun n : Fin 100000 => (bt n).toInt = (g.val : ℤ))
    (fun n => if bt n = BitVec.ofNat 32 g.val then (1 : EReal) else 0) (fun n => a n d)
    (fun n hn => if_pos ((eq_ofNat_iff_toInt (bt n) g).mpr hn))
    (fun n hn => if_neg fun he => hn ((eq_ofNat_iff_toInt (bt n) g).mp he))

/-! ## The whole network -/

theorem net_bridge (sI gS gD : Fin 740000 → BitVec 32) (dv : Fin 100000 → EReal) (hdv : ∀ n, 0 ≤ dv n ∧ dv n ≠ ⊤)
    (hland : ∀ e n, lands sI e n → srow gD e = n) (bt : Fin 100000 → BitVec 32) (x : Row) (W : Fin 4 → Mat) (b : Fin 4 → Fin 128 → EReal)
    (W1 : Mat) (b1 : Fin 128 → EReal) (W2 : Mat) (b2 : Fin 128 → EReal) (W3 : Fin 128 → EReal) (b3 : EReal) :
    kNet sI gS dv bt x W b W1 b1 W2 b2 W3 b3 = rNet sI gS gD dv bt x W b W1 b1 W2 b2 W3 b3 := by
  unfold kNet rNet
  rw [step_bridge sI gS gD dv hdv hland, step_bridge sI gS gD dv hdv hland, step_bridge sI gS gD dv hdv hland,
    step_bridge sI gS gD dv hdv hland, pool_bridge]

end GCN

end
-- ==== Proof.DataEq.lean ====
/-
  The two programs compute their edge words and the inverse square root of the degree by the same host operations
  on the edge list: the kernel's scatter index column, its gather index column and its `deg^(-1/2)` ARE the
  reference's, term for term.
-/
import proofs.«413796_j23914377904291_2_alg».proof.Proof.KData
import proofs.«413796_j23914377904291_2_alg».proof.Proof.RefRead

set_option maxRecDepth 16384

noncomputable section

namespace Cert.Proof.DataEq

open Idealize.ShloMosaic Idealize.ShloMosaic.TcCoe Idealize.ShloMosaic.ValueIdx
open Cert.KernelIdeal.KHost Cert.ReferenceIdeal

theorem sI_eq (a1 : IVec Cert.KernelIdeal.S2x640000 32) : kSIc a1 = PRead.val_main_v44 (F := Ideal) a1 := rfl
theorem gS_eq (a1 : IVec Cert.KernelIdeal.S2x640000 32) : kGSc a1 = PRead.val_main_v39 (F := Ideal) a1 := rfl
theorem dinv_eq (a1 : IVec Cert.KernelIdeal.S2x640000 32) : kDinv a1 = PRead.val_main_v14 (F := Ideal) a1 := rfl

end Cert.Proof.DataEq

end
-- ==== Proof.lean ====
/-
  A four-layer graph convolution network with sum pooling and a three-layer head, in six kernel regions with the host's
  gathers and accumulating scatters between them, against the plain reference.

  Both programs, read on the extended reals, compute one function of the arguments (proof/Proof/Spec.lean):
  per layer the reference sums, over the edges `e` landing on node `n`, the row `(h W)(src e)` times
  `dinv (src e) * dinv (dst e)`; the kernel scales each row of `h W` by `dinv` of its own node before the gather,
  sums the gathered rows, and multiplies the sum by `dinv n` afterwards. On an edge that lands on `n` the
  destination is `n`, and `dinv n` is a nonnegative real number (the inverse square root of a count of edges, or
  zero), so it goes through the sum whatever the summands are: no input has to be finite for that. Pooling is a
  matrix product with the one-hot matrix of the graph words, tile by tile and in two halves, against the
  reference's segment sum; the head is the same three products, biases, clips and logistic on both sides.

  The kernel's run with its result named is proof/Proof/KRun.lean; what each region leaves, read at an index, is
  KReg0 … KReg5; what the host hands each region is KData / KHost / KAggRead; the unrolling to the network is KValue.
  The reference's run is RefRun / RefRead, read at an index in RFinalA, RFinalB, RFinal; the facts about the edge
  words and the degree are IdxFacts; the agreement of the two arrangements is SpecLaws.
-/
import proofs.«413796_j23914377904291_2_alg».proof.Defs
import proofs.«413796_j23914377904291_2_alg».proof.Proof.Gen.Kernel
import proofs.«413796_j23914377904291_2_alg».proof.Proof.Gen.Kernel.Skeleton
import proofs.«413796_j23914377904291_2_alg».proof.Proof.Gen.Kernel.Launch
import proofs.«413796_j23914377904291_2_alg».proof.Proof.Gen.Kernel.Points
import proofs.«413796_j23914377904291_2_alg».proof.Proof.Gen.Kernel.Frame
import proofs.«413796_j23914377904291_2_alg».proof.Proof.Gen.KernelIdeal
import proofs.«413796_j23914377904291_2_alg».proof.Proof.Gen.KernelIdeal.Skeleton
import proofs.«413796_j23914377904291_2_alg».proof.Proof.Gen.KernelIdeal.Launch
import proofs.«413796_j23914377904291_2_alg».proof.Proof.Gen.KernelIdeal.Points
import proofs.«413796_j23914377904291_2_alg».proof.Proof.Gen.KernelIdeal.Frame
import proofs.«413796_j23914377904291_2_alg».proof.Proof.Gen.ReferenceIdeal
import proofs.«413796_j23914377904291_2_alg».proof.Proof.Gen.Pre_finite_inputs
import proofs.«413796_j23914377904291_2_alg».proof.Proof.KRun
import proofs.«413796_j23914377904291_2_alg».proof.Proof.KValue
import proofs.«413796_j23914377904291_2_alg».proof.Proof.RFinal
import proofs.«413796_j23914377904291_2_alg».proof.Proof.IdxFacts
import proofs.«413796_j23914377904291_2_alg».proof.Proof.SpecLaws
import proofs.«413796_j23914377904291_2_alg».proof.Proof.DataEq
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The two results are one array: at graph `g` the reference's is the reference's arrangement of the network, the
    kernel's is the kernel's arrangement, both over the same edge words, the same `deg^(-1/2)` and the same
    arguments, and the two arrangements agree. -/
theorem value_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.PValue.res_main_v137 (F := Ideal) m' c = Cert.KernelIdeal.Gen.W14 m ρ c (Proc.devRef .tc Cert.KernelIdeal.main_v94) := by
  rw [Cert.ReferenceIdeal.PRead.val_main_v137_eq, e0, e1, e2, e3, e4, e5, e6, e7, e8, e9, e10]
  show (Cert.ReferenceIdeal.PRead.val_main_v137 (F := Ideal) _ _ _ _ _ _ _ _ _ _ _ : Vec Ideal Cert.KernelIdeal.S512x1 .f32)
    = (Cert.KernelIdeal.Gen.W14 m ρ c (Proc.devRef .tc Cert.KernelIdeal.main_v94) : Vec Ideal Cert.KernelIdeal.S512x1 .f32)
  funext i
  obtain ⟨g, rfl⟩ : ∃ g : Fin 512, i = ix2 g (0 : Fin 1) :=
    ⟨⟨(i 0).val, idx2_lt0 i⟩, by
      funext a
      match a with
      | ⟨0, _⟩ => rfl
      | ⟨1, _⟩ => exact Subsingleton.elim (α := Fin 1) _ _⟩
  rw [Cert.ReferenceIdeal.RFinal.ref_final, Cert.KernelIdeal.KValue.kernel_final m ρ c g,
    ← GCN.net_bridge _ _ (fun e => Cert.ReferenceIdeal.PRead.val_main_v27 (F := Ideal) (Cert.KernelIdeal.KValue.a1 m c) (ix2 e (0 : Fin 1))) _
      (fun n => Cert.ReferenceIdeal.IdxFacts.dinv_real_nonneg _ n) (fun e n h => Cert.ReferenceIdeal.IdxFacts.lands_dst _ e n h)]
  unfold Cert.KernelIdeal.KValue.sI Cert.KernelIdeal.KValue.gS Cert.KernelIdeal.KValue.dv Cert.KernelIdeal.KValue.bt
    Cert.KernelIdeal.KValue.xr Cert.KernelIdeal.KValue.Wl Cert.KernelIdeal.KValue.bl
  simp only [Cert.KernelIdeal.KHost.kDinvC_apply, Cert.Proof.DataEq.sI_eq, Cert.Proof.DataEq.gS_eq, Cert.Proof.DataEq.dinv_eq]

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.PValue.run (F := Ideal) m ρ)

/-- Both runs end, the kernel's result array at the last boundary's contents and the reference's at its composed
    term, which are one array (`value_eq`); the precondition is not used. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W14 m ρ c (Proc.devRef .tc Cert.KernelIdeal.main_v94),
    Cert.KernelIdeal.ValueRun.run_value (F := Ideal) m ρ, ?_⟩
  refine (θ_run Cert.ReferenceIdeal.defs _ _).mono (fun _ h c => ⟨(h c).1.trans ?_, (h c).2⟩)
    (Cert.ReferenceIdeal.PValue.run (F := Ideal) m' ρ')
  obtain ⟨e0, e1, e2, e3, e4, e5, e6, e7, e8, e9, e10⟩ := hagree c
  exact value_eq m ρ m' c e0 e1 e2 e3 e4 e5 e6 e7 e8 e9 e10

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
